-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S768x768 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x768 : Shape := ⟨2, ![32768, 768]⟩
abbrev S20x768x768 : Shape := ⟨3, ![20, 768, 768]⟩
abbrev S20x768 : Shape := ⟨2, ![20, 768]⟩
abbrev S_ : Shape := ⟨0, ![]⟩

class Facts : Prop where
  bcast_S_S32768x768 : S_.BroadcastsInDim S32768x768 (![] : Fin 0 → Fin S32768x768.rank)
  reducesTo_S32768x768_S_d0_1 : S32768x768.ReducesTo [0, 1] S_
  h_S_ : 0 < S_.numel
  bcast_S_S20x768x768 : S_.BroadcastsInDim S20x768x768 (![] : Fin 0 → Fin S20x768x768.rank)
  reducesTo_S20x768x768_S_d0_1_2 : S20x768x768.ReducesTo [0, 1, 2] S_
  bcast_S_S20x768 : S_.BroadcastsInDim S20x768 (![] : Fin 0 → Fin S20x768.rank)
  reducesTo_S20x768_S_d0_1 : S20x768.ReducesTo [0, 1] S_

variable [Facts]

def fn {F : FTy → Type} [FloatOps F] (main_arg0 : FVec F S32768x768 .f32) (main_arg1 : FVec F S20x768x768 .f32) (main_arg2 : FVec F S20x768 .f32) : IVec S_ 1 :=
  let main_v0 : FVec F S32768x768 .f32 := Host.absf main_arg0
  let main_cst : FVec F S_ .f32 := constant S_ .f32 0x7F800000#32
  let main_v1 : FVec F S32768x768 .f32 := broadcastInDim S32768x768 ![] bcast_S_S32768x768 main_cst
  let main_v2 : IVec S32768x768 1 := cmpf .olt main_v0 main_v1
  let main_c : IVec S_ 1 := constantI S_ 1 1#1
  let main_v3 : IVec S_ 1 := (fun x v => Host.reduce IntOp.andi x v reducesTo_S32768x768_S_d0_1 h_S_) main_v2 main_c
  let main_v4 : FVec F S20x768x768 .f32 := Host.absf main_arg1
  let main_cst_0 : FVec F S_ .f32 := constant S_ .f32 0x7F800000#32
  let main_v5 : FVec F S20x768x768 .f32 := broadcastInDim S20x768x768 ![] bcast_S_S20x768x768 main_cst_0
  let main_v6 : IVec S20x768x768 1 := cmpf .olt main_v4 main_v5
  let main_c_1 : IVec S_ 1 := constantI S_ 1 1#1
  let main_v7 : IVec S_ 1 := (fun x v => Host.reduce IntOp.andi x v reducesTo_S20x768x768_S_d0_1_2 h_S_) main_v6 main_c_1
  let main_v8 : IVec S_ 1 := andi main_v3 main_v7
  let main_v9 : FVec F S20x768 .f32 := Host.absf main_arg2
  let main_cst_2 : FVec F S_ .f32 := constant S_ .f32 0x7F800000#32
  let main_v10 : FVec F S20x768 .f32 := broadcastInDim S20x768 ![] bcast_S_S20x768 main_cst_2
  let main_v11 : IVec S20x768 1 := cmpf .olt main_v9 main_v10
  let main_c_3 : IVec S_ 1 := constantI S_ 1 1#1
  let main_v12 : IVec S_ 1 := (fun x v => Host.reduce IntOp.andi x v reducesTo_S20x768_S_d0_1 h_S_) main_v11 main_c_3
  let main_v13 : IVec S_ 1 := andi main_v8 main_v12
  main_v13
-- ==== Kernel.lean ====
abbrev S32768x768 : Shape := ⟨2, ![32768, 768]⟩
abbrev S20x768x768 : Shape := ⟨3, ![20, 768, 768]⟩
abbrev S20x768 : Shape := ⟨2, ![20, 768]⟩
abbrev S20x1x768 : Shape := ⟨3, ![20, 1, 768]⟩
abbrev S1x768x768 : Shape := ⟨3, ![1, 768, 768]⟩
abbrev S1x1x768 : Shape := ⟨3, ![1, 1, 768]⟩
abbrev S2048x768 : Shape := ⟨2, ![2048, 768]⟩
abbrev S768x768 : Shape := ⟨2, ![768, 768]⟩
abbrev S1x768 : Shape := ⟨2, ![1, 768]⟩
abbrev S768 : Shape := ⟨1, ![768]⟩

abbrev nBuf : Space → Nat
  | .hbm => 9
  | .vmem => 12
  | .smem => 0
  | _ => 0

abbrev bufTy : (tb : Table) → Fin (tcTables nBuf tb) → BufTy
  | .hbm, ⟨0, _⟩ => ⟨S32768x768, .f32⟩
  | .hbm, ⟨1, _⟩ => ⟨S20x768x768, .f32⟩
  | .hbm, ⟨2, _⟩ => ⟨S20x768, .f32⟩
  | .hbm, ⟨3, _⟩ => ⟨S20x1x768, .f32⟩
  | .hbm, ⟨4, _⟩ => ⟨S20x768x768, .bf16⟩
  | .hbm, ⟨5, _⟩ => ⟨S20x768x768, .f32⟩
  | .hbm, ⟨6, _⟩ => ⟨S20x768x768, .f32⟩
  | .hbm, ⟨7, _⟩ => ⟨S20x768x768, .bf16⟩
  | .hbm, ⟨8, _⟩ => ⟨S32768x768, .f32⟩
  | .local _ .vmem, ⟨0, _⟩ => ⟨S1x768x768, .bf16⟩
  | .local _ .vmem, ⟨1, _⟩ => ⟨S1x768x768, .bf16⟩
  | .local _ .vmem, ⟨2, _⟩ => ⟨S1x768x768, .bf16⟩
  | .local _ .vmem, ⟨3, _⟩ => ⟨S1x768x768, .bf16⟩
  | .local _ .vmem, ⟨4, _⟩ => ⟨S1x1x768, .f32⟩
  | .local _ .vmem, ⟨5, _⟩ => ⟨S1x1x768, .f32⟩
  | .local _ .vmem, ⟨6, _⟩ => ⟨S2048x768, .f32⟩
  | .local _ .vmem, ⟨7, _⟩ => ⟨S2048x768, .f32⟩
  | .local _ .vmem, ⟨8, _⟩ => ⟨S2048x768, .f32⟩
  | .local _ .vmem, ⟨9, _⟩ => ⟨S2048x768, .f32⟩
  | .local _ .vmem, ⟨10, _⟩ => ⟨S768x768, .f32⟩
  | .local _ .vmem, ⟨11, _⟩ => ⟨S1x768, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![36], ![false]⟩

def k0_cond3 (i : grid0.Coords) : BitVec 1 :=
  let arg0 : BitVec 32 := BitVec.ofNat 32 (i 0).val
  let c20_i32_11 : BitVec 32 := 20#32
  let v14 : BitVec 1 := Scalar.cmpi .sge arg0 c20_i32_11
  let v15 : BitVec 32 := Scalar.extui v14
  let c0_i32_12 : BitVec 32 := 0#32
  let v16 : BitVec 1 := Scalar.cmpi .ne v15 c0_i32_12
  v16

def cc0_transform_0 (i : grid0.Coords) : Fin 3 → Nat :=
  let arg0 : BitVec 32 := BitVec.ofNat 32 (i 0).val
  let c19_i32 : BitVec 32 := 19#32
  let v0 : BitVec 32 := Scalar.minsi arg0 c19_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c19_i32 : BitVec 32 := 19#32
  let v0 : BitVec 32 := Scalar.minsi arg0 c19_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let c19_i32 : BitVec 32 := 19#32
  let v0 : BitVec 32 := Scalar.minsi arg0 c19_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let c20_i32 : BitVec 32 := 20#32
  let v0 : BitVec 32 := Scalar.subi arg0 c20_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c20_i32 : BitVec 32 := 20#32
  let v0 : BitVec 32 := Scalar.subi arg0 c20_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1x768x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x768x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S20x768_S20x1x768 : S20x768.ShapeCasts S20x1x768
  bitsLt_bf16_f32 : FTy.bits .bf16 < FTy.bits .f32
  inb_S1x768x768_S1x768x768_0_0_0 : ∀ a, (![0, 0, 0] : Fin 3 → Nat) a + S1x768x768.size a ≤ S1x768x768.size a
  h_S1x768x768 : 0 < S1x768x768.numel
  shapeCasts_S1x768x768_S768x768 : S1x768x768.ShapeCasts S768x768
  inb_S1x1x768_S1x1x768_0_0_0 : ∀ a, (![0, 0, 0] : Fin 3 → Nat) a + S1x1x768.size a ≤ S1x1x768.size a
  h_S1x1x768 : 0 < S1x1x768.numel
  shapeCasts_S1x1x768_S1x768 : S1x1x768.ShapeCasts S1x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  inb_S2048x768_S2048x768_0_0 : ∀ a, (![0, 0] : Fin 2 → Nat) a + S2048x768.size a ≤ S2048x768.size a
  h_S2048x768 : 0 < S2048x768.numel
  shapeCasts_S1x768_S768 : S1x768.ShapeCasts S768
  shapeCasts_S768_S1x768 : S768.ShapeCasts S1x768
  broadcasts_S1x768_S2048x768 : S1x768.Broadcasts S2048x768
  dot_S768x768_S768x768_S768x768_1_0_0_1_n_n_wf : DotDims.WF S768x768 S768x768 S768x768 [1] [0] [0] [1] [] []
  dot_S1x768_S768x768_S1x768_1_1_0_0_n_n_wf : DotDims.WF S1x768 S768x768 S1x768 [1] [1] [0] [0] [] []
  dot_S2048x768_S768x768_S2048x768_1_1_0_0_n_n_wf : DotDims.WF S2048x768 S768x768 S2048x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x768x768.size a ≤ S20x768x768.size a
  hwx0_0 : ∀ i : grid0.Coords, EltTy.bits .bf16 = 32 ∨ (Rect.block (s := S20x768x768) S1x768x768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x768x768.size a ≤ S20x768x768.size a
  hwx0_1 : ∀ i : grid0.Coords, EltTy.bits .bf16 = 32 ∨ (Rect.block (s := S20x768x768) S1x768x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x768.size a ≤ S20x1x768.size a
  hwx0_2 : ∀ i : grid0.Coords, EltTy.bits .f32 = 32 ∨ (Rect.block (s := S20x1x768) S1x1x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x768.size a ≤ S32768x768.size a
  hwx0_3 : ∀ i : grid0.Coords, EltTy.bits .f32 = 32 ∨ (Rect.block (s := S32768x768) S2048x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x768.size a ≤ S32768x768.size a
  hwx0_4 : ∀ i : grid0.Coords, EltTy.bits .f32 = 32 ∨ (Rect.block (s := S32768x768) S2048x768.size (cc0_transform_4 i) (hinb0_4 i)).WholeWords (EltTy.packing .f32)

variable [Facts₀]

def dot_S768x768_S768x768_S768x768_1_0_0_1_n_n : DotDims S768x768 S768x768 S768x768 where
  lhsContracting := [1]
  rhsContracting := [0]
  lhsNonContracting := [0]
  rhsNonContracting := [1]
  lhsBatch := []
  rhsBatch := []
  wf := dot_S768x768_S768x768_S768x768_1_0_0_1_n_n_wf
def dot_S1x768_S768x768_S1x768_1_1_0_0_n_n : DotDims S1x768 S768x768 S1x768 where
  lhsContracting := [1]
  rhsContracting := [1]
  lhsNonContracting := [0]
  rhsNonContracting := [0]
  lhsBatch := []
  rhsBatch := []
  wf := dot_S1x768_S768x768_S1x768_1_1_0_0_n_n_wf
def dot_S2048x768_S768x768_S2048x768_1_1_0_0_n_n : DotDims S2048x768 S768x768 S2048x768 where
  lhsContracting := [1]
  rhsContracting := [1]
  lhsNonContracting := [0]
  rhsNonContracting := [0]
  lhsBatch := []
  rhsBatch := []
  wf := dot_S2048x768_S768x768_S2048x768_1_1_0_0_n_n_wf

abbrev win0_0 : Pipeline.Window sig grid0 :=
  Pipeline.Window.ofSpec (Memref.whole main_call0_v1) S1x768x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v4) S1x768x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x1x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S2048x768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S2048x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond3 i == 1#1) | ⟨_ + 5, h⟩ => absurd h (Nat.not_lt.2 (Nat.le_add_left _ _))

class Facts : Prop extends Facts₀ where

variable [Facts]
-- ==== ReferenceIdeal.lean ====
abbrev S32768x768 : Shape := ⟨2, ![32768, 768]⟩
abbrev S20x768x768 : Shape := ⟨3, ![20, 768, 768]⟩
abbrev S20x768 : Shape := ⟨2, ![20, 768]⟩
abbrev S0x768 : Shape := ⟨2, ![0, 768]⟩
abbrev S1x768x768 : Shape := ⟨3, ![1, 768, 768]⟩
abbrev S768x768 : Shape := ⟨2, ![768, 768]⟩
abbrev S1x768 : Shape := ⟨2, ![1, 768]⟩
abbrev S768 : Shape := ⟨1, ![768]⟩

abbrev nBuf : Space → Nat
  | .hbm => 184
  | .vmem => 0
  | .smem => 0
  | _ => 0

abbrev hbmTy0_0 (i : Nat) : BufTy := match i % 128 with
  | 0 => ⟨S32768x768, .f32⟩
  | 1 => ⟨S20x768x768, .f32⟩
  | 2 => ⟨S20x768, .f32⟩
  | 3 => ⟨S0x768, .f32⟩
  | 4 => ⟨S1x768x768, .f32⟩
  | 5 => ⟨S768x768, .f32⟩
  | 6 => ⟨S768x768, .f32⟩
  | 7 => ⟨S32768x768, .f32⟩
  | 8 => ⟨S1x768, .f32⟩
  | 9 => ⟨S768, .f32⟩
  | 10 => ⟨S1x768, .f32⟩
  | 11 => ⟨S32768x768, .f32⟩
  | 12 => ⟨S32768x768, .f32⟩
  | 13 => ⟨S1x768x768, .f32⟩
  | 14 => ⟨S768x768, .f32⟩
  | 15 => ⟨S768x768, .f32⟩
  | 16 => ⟨S32768x768, .f32⟩
  | 17 => ⟨S1x768, .f32⟩
  | 18 => ⟨S768, .f32⟩
  | 19 => ⟨S1x768, .f32⟩
  | 20 => ⟨S32768x768, .f32⟩
  | 21 => ⟨S32768x768, .f32⟩
  | 22 => ⟨S1x768x768, .f32⟩
  | 23 => ⟨S768x768, .f32⟩
  | 24 => ⟨S768x768, .f32⟩
  | 25 => ⟨S32768x768, .f32⟩
  | 26 => ⟨S1x768, .f32⟩
  | 27 => ⟨S768, .f32⟩
  | 28 => ⟨S1x768, .f32⟩
  | 29 => ⟨S32768x768, .f32⟩
  | 30 => ⟨S32768x768, .f32⟩
  | 31 => ⟨S1x768x768, .f32⟩
  | 32 => ⟨S768x768, .f32⟩
  | 33 => ⟨S768x768, .f32⟩
  | 34 => ⟨S32768x768, .f32⟩
  | 35 => ⟨S1x768, .f32⟩
  | 36 => ⟨S768, .f32⟩
  | 37 => ⟨S1x768, .f32⟩
  | 38 => ⟨S32768x768, .f32⟩
  | 39 => ⟨S32768x768, .f32⟩
  | 40 => ⟨S1x768x768, .f32⟩
  | 41 => ⟨S768x768, .f32⟩
  | 42 => ⟨S768x768, .f32⟩
  | 43 => ⟨S32768x768, .f32⟩
  | 44 => ⟨S1x768, .f32⟩
  | 45 => ⟨S768, .f32⟩
  | 46 => ⟨S1x768, .f32⟩
  | 47 => ⟨S32768x768, .f32⟩
  | 48 => ⟨S32768x768, .f32⟩
  | 49 => ⟨S1x768x768, .f32⟩
  | 50 => ⟨S768x768, .f32⟩
  | 51 => ⟨S768x768, .f32⟩
  | 52 => ⟨S32768x768, .f32⟩
  | 53 => ⟨S1x768, .f32⟩
  | 54 => ⟨S768, .f32⟩
  | 55 => ⟨S1x768, .f32⟩
  | 56 => ⟨S32768x768, .f32⟩
  | 57 => ⟨S32768x768, .f32⟩
  | 58 => ⟨S1x768x768, .f32⟩
  | 59 => ⟨S768x768, .f32⟩
  | 60 => ⟨S768x768, .f32⟩
  | 61 => ⟨S32768x768, .f32⟩
  | 62 => ⟨S1x768, .f32⟩
  | 63 => ⟨S768, .f32⟩
  | 64 => ⟨S1x768, .f32⟩
  | 65 => ⟨S32768x768, .f32⟩
  | 66 => ⟨S32768x768, .f32⟩
  | 67 => ⟨S1x768x768, .f32⟩
  | 68 => ⟨S768x768, .f32⟩
  | 69 => ⟨S768x768, .f32⟩
  | 70 => ⟨S32768x768, .f32⟩
  | 71 => ⟨S1x768, .f32⟩
  | 72 => ⟨S768, .f32⟩
  | 73 => ⟨S1x768, .f32⟩
  | 74 => ⟨S32768x768, .f32⟩
  | 75 => ⟨S32768x768, .f32⟩
  | 76 => ⟨S1x768x768, .f32⟩
  | 77 => ⟨S768x768, .f32⟩
  | 78 => ⟨S768x768, .f32⟩
  | 79 => ⟨S32768x768, .f32⟩
  | 80 => ⟨S1x768, .f32⟩
  | 81 => ⟨S768, .f32⟩
  | 82 => ⟨S1x768, .f32⟩
  | 83 => ⟨S32768x768, .f32⟩
  | 84 => ⟨S32768x768, .f32⟩
  | 85 => ⟨S1x768x768, .f32⟩
  | 86 => ⟨S768x768, .f32⟩
  | 87 => ⟨S768x768, .f32⟩
  | 88 => ⟨S32768x768, .f32⟩
  | 89 => ⟨S1x768, .f32⟩
  | 90 => ⟨S768, .f32⟩
  | 91 => ⟨S1x768, .f32⟩
  | 92 => ⟨S32768x768, .f32⟩
  | 93 => ⟨S32768x768, .f32⟩
  | 94 => ⟨S1x768x768, .f32⟩
  | 95 => ⟨S768x768, .f32⟩
  | 96 => ⟨S768x768, .f32⟩
  | 97 => ⟨S32768x768, .f32⟩
  | 98 => ⟨S1x768, .f32⟩
  | 99 => ⟨S768, .f32⟩
  | 100 => ⟨S1x768, .f32⟩
  | 101 => ⟨S32768x768, .f32⟩
  | 102 => ⟨S32768x768, .f32⟩
  | 103 => ⟨S1x768x768, .f32⟩
  | 104 => ⟨S768x768, .f32⟩
  | 105 => ⟨S768x768, .f32⟩
  | 106 => ⟨S32768x768, .f32⟩
  | 107 => ⟨S1x768, .f32⟩
  | 108 => ⟨S768, .f32⟩
  | 109 => ⟨S1x768, .f32⟩
  | 110 => ⟨S32768x768, .f32⟩
  | 111 => ⟨S32768x768, .f32⟩
  | 112 => ⟨S1x768x768, .f32⟩
  | 113 => ⟨S768x768, .f32⟩
  | 114 => ⟨S768x768, .f32⟩
  | 115 => ⟨S32768x768, .f32⟩
  | 116 => ⟨S1x768, .f32⟩
  | 117 => ⟨S768, .f32⟩
  | 118 => ⟨S1x768, .f32⟩
  | 119 => ⟨S32768x768, .f32⟩
  | 120 => ⟨S32768x768, .f32⟩
  | 121 => ⟨S1x768x768, .f32⟩
  | 122 => ⟨S768x768, .f32⟩
  | 123 => ⟨S768x768, .f32⟩
  | 124 => ⟨S32768x768, .f32⟩
  | 125 => ⟨S1x768, .f32⟩
  | 126 => ⟨S768, .f32⟩
  | 127 => ⟨S1x768, .f32⟩
  | _ => ⟨S32768x768, .f32⟩

abbrev hbmTy0_1 (i : Nat) : BufTy := match i % 128 with
  | 0 => ⟨S32768x768, .f32⟩
  | 1 => ⟨S32768x768, .f32⟩
  | 2 => ⟨S1x768x768, .f32⟩
  | 3 => ⟨S768x768, .f32⟩
  | 4 => ⟨S768x768, .f32⟩
  | 5 => ⟨S32768x768, .f32⟩
  | 6 => ⟨S1x768, .f32⟩
  | 7 => ⟨S768, .f32⟩
  | 8 => ⟨S1x768, .f32⟩
  | 9 => ⟨S32768x768, .f32⟩
  | 10 => ⟨S32768x768, .f32⟩
  | 11 => ⟨S1x768x768, .f32⟩
  | 12 => ⟨S768x768, .f32⟩
  | 13 => ⟨S768x768, .f32⟩
  | 14 => ⟨S32768x768, .f32⟩
  | 15 => ⟨S1x768, .f32⟩
  | 16 => ⟨S768, .f32⟩
  | 17 => ⟨S1x768, .f32⟩
  | 18 => ⟨S32768x768, .f32⟩
  | 19 => ⟨S32768x768, .f32⟩
  | 20 => ⟨S1x768x768, .f32⟩
  | 21 => ⟨S768x768, .f32⟩
  | 22 => ⟨S768x768, .f32⟩
  | 23 => ⟨S32768x768, .f32⟩
  | 24 => ⟨S1x768, .f32⟩
  | 25 => ⟨S768, .f32⟩
  | 26 => ⟨S1x768, .f32⟩
  | 27 => ⟨S32768x768, .f32⟩
  | 28 => ⟨S32768x768, .f32⟩
  | 29 => ⟨S1x768x768, .f32⟩
  | 30 => ⟨S768x768, .f32⟩
  | 31 => ⟨S768x768, .f32⟩
  | 32 => ⟨S32768x768, .f32⟩
  | 33 => ⟨S1x768, .f32⟩
  | 34 => ⟨S768, .f32⟩
  | 35 => ⟨S1x768, .f32⟩
  | 36 => ⟨S32768x768, .f32⟩
  | 37 => ⟨S32768x768, .f32⟩
  | 38 => ⟨S1x768x768, .f32⟩
  | 39 => ⟨S768x768, .f32⟩
  | 40 => ⟨S768x768, .f32⟩
  | 41 => ⟨S32768x768, .f32⟩
  | 42 => ⟨S1x768, .f32⟩
  | 43 => ⟨S768, .f32⟩
  | 44 => ⟨S1x768, .f32⟩
  | 45 => ⟨S32768x768, .f32⟩
  | 46 => ⟨S32768x768, .f32⟩
  | 47 => ⟨S1x768x768, .f32⟩
  | 48 => ⟨S768x768, .f32⟩
  | 49 => ⟨S768x768, .f32⟩
  | 50 => ⟨S32768x768, .f32⟩
  | 51 => ⟨S1x768, .f32⟩
  | 52 => ⟨S768, .f32⟩
  | 53 => ⟨S1x768, .f32⟩
  | 54 => ⟨S32768x768, .f32⟩
  | 55 => ⟨S32768x768, .f32⟩
  | _ => ⟨S32768x768, .f32⟩

abbrev hbmTy (i : Nat) : BufTy := match i / 128 with
  | 0 => hbmTy0_0 i
  | 1 => hbmTy0_1 i
  | _ => ⟨S32768x768, .f32⟩

abbrev bufTy : (tb : Table) → Fin (tcTables nBuf tb) → BufTy
  | .hbm, ⟨i, _⟩ => hbmTy i
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_v71 : Ref sig .tc := ⟨.hbm, 74, rfl⟩
abbrev main_v72 : Ref sig .tc := ⟨.hbm, 75, rfl⟩
abbrev main_v73 : Ref sig .tc := ⟨.hbm, 76, rfl⟩
abbrev main_v74 : Ref sig .tc := ⟨.hbm, 77, rfl⟩
abbrev main_v75 : Ref sig .tc := ⟨.hbm, 78, rfl⟩
abbrev main_v76 : Ref sig .tc := ⟨.hbm, 79, rfl⟩
abbrev main_v77 : Ref sig .tc := ⟨.hbm, 80, rfl⟩
abbrev main_v78 : Ref sig .tc := ⟨.hbm, 81, rfl⟩
abbrev main_v79 : Ref sig .tc := ⟨.hbm, 82, rfl⟩
abbrev main_v80 : Ref sig .tc := ⟨.hbm, 83, rfl⟩
abbrev main_v81 : Ref sig .tc := ⟨.hbm, 84, rfl⟩
abbrev main_v82 : Ref sig .tc := ⟨.hbm, 85, rfl⟩
abbrev main_v83 : Ref sig .tc := ⟨.hbm, 86, rfl⟩
abbrev main_v84 : Ref sig .tc := ⟨.hbm, 87, rfl⟩
abbrev main_v85 : Ref sig .tc := ⟨.hbm, 88, rfl⟩
abbrev main_v86 : Ref sig .tc := ⟨.hbm, 89, rfl⟩
abbrev main_v87 : Ref sig .tc := ⟨.hbm, 90, rfl⟩
abbrev main_v88 : Ref sig .tc := ⟨.hbm, 91, rfl⟩
abbrev main_v89 : Ref sig .tc := ⟨.hbm, 92, rfl⟩
abbrev main_v90 : Ref sig .tc := ⟨.hbm, 93, rfl⟩
abbrev main_v91 : Ref sig .tc := ⟨.hbm, 94, rfl⟩
abbrev main_v92 : Ref sig .tc := ⟨.hbm, 95, rfl⟩
abbrev main_v93 : Ref sig .tc := ⟨.hbm, 96, rfl⟩
abbrev main_v94 : Ref sig .tc := ⟨.hbm, 97, rfl⟩
abbrev main_v95 : Ref sig .tc := ⟨.hbm, 98, rfl⟩
abbrev main_v96 : Ref sig .tc := ⟨.hbm, 99, rfl⟩
abbrev main_v97 : Ref sig .tc := ⟨.hbm, 100, rfl⟩
abbrev main_v98 : Ref sig .tc := ⟨.hbm, 101, rfl⟩
abbrev main_v99 : Ref sig .tc := ⟨.hbm, 102, rfl⟩
abbrev main_v100 : Ref sig .tc := ⟨.hbm, 103, rfl⟩
abbrev main_v101 : Ref sig .tc := ⟨.hbm, 104, rfl⟩
abbrev main_v102 : Ref sig .tc := ⟨.hbm, 105, rfl⟩
abbrev main_v103 : Ref sig .tc := ⟨.hbm, 106, rfl⟩
abbrev main_v104 : Ref sig .tc := ⟨.hbm, 107, rfl⟩
abbrev main_v105 : Ref sig .tc := ⟨.hbm, 108, rfl⟩
abbrev main_v106 : Ref sig .tc := ⟨.hbm, 109, rfl⟩
abbrev main_v107 : Ref sig .tc := ⟨.hbm, 110, rfl⟩
abbrev main_v108 : Ref sig .tc := ⟨.hbm, 111, rfl⟩
abbrev main_v109 : Ref sig .tc := ⟨.hbm, 112, rfl⟩
abbrev main_v110 : Ref sig .tc := ⟨.hbm, 113, rfl⟩
abbrev main_v111 : Ref sig .tc := ⟨.hbm, 114, rfl⟩
abbrev main_v112 : Ref sig .tc := ⟨.hbm, 115, rfl⟩
abbrev main_v113 : Ref sig .tc := ⟨.hbm, 116, rfl⟩
abbrev main_v114 : Ref sig .tc := ⟨.hbm, 117, rfl⟩
abbrev main_v115 : Ref sig .tc := ⟨.hbm, 118, rfl⟩
abbrev main_v116 : Ref sig .tc := ⟨.hbm, 119, rfl⟩
abbrev main_v117 : Ref sig .tc := ⟨.hbm, 120, rfl⟩
abbrev main_v118 : Ref sig .tc := ⟨.hbm, 121, rfl⟩
abbrev main_v119 : Ref sig .tc := ⟨.hbm, 122, rfl⟩
abbrev main_v120 : Ref sig .tc := ⟨.hbm, 123, rfl⟩
abbrev main_v121 : Ref sig .tc := ⟨.hbm, 124, rfl⟩
abbrev main_v122 : Ref sig .tc := ⟨.hbm, 125, rfl⟩
abbrev main_v123 : Ref sig .tc := ⟨.hbm, 126, rfl⟩
abbrev main_v124 : Ref sig .tc := ⟨.hbm, 127, rfl⟩
abbrev main_v125 : Ref sig .tc := ⟨.hbm, 128, rfl⟩
abbrev main_v126 : Ref sig .tc := ⟨.hbm, 129, rfl⟩
abbrev main_v127 : Ref sig .tc := ⟨.hbm, 130, rfl⟩
abbrev main_v128 : Ref sig .tc := ⟨.hbm, 131, rfl⟩
abbrev main_v129 : Ref sig .tc := ⟨.hbm, 132, rfl⟩
abbrev main_v130 : Ref sig .tc := ⟨.hbm, 133, rfl⟩
abbrev main_v131 : Ref sig .tc := ⟨.hbm, 134, rfl⟩
abbrev main_v132 : Ref sig .tc := ⟨.hbm, 135, rfl⟩
abbrev main_v133 : Ref sig .tc := ⟨.hbm, 136, rfl⟩
abbrev main_v134 : Ref sig .tc := ⟨.hbm, 137, rfl⟩
abbrev main_v135 : Ref sig .tc := ⟨.hbm, 138, rfl⟩
abbrev main_v136 : Ref sig .tc := ⟨.hbm, 139, rfl⟩
abbrev main_v137 : Ref sig .tc := ⟨.hbm, 140, rfl⟩
abbrev main_v138 : Ref sig .tc := ⟨.hbm, 141, rfl⟩
abbrev main_v139 : Ref sig .tc := ⟨.hbm, 142, rfl⟩
abbrev main_v140 : Ref sig .tc := ⟨.hbm, 143, rfl⟩
abbrev main_v141 : Ref sig .tc := ⟨.hbm, 144, rfl⟩
abbrev main_v142 : Ref sig .tc := ⟨.hbm, 145, rfl⟩
abbrev main_v143 : Ref sig .tc := ⟨.hbm, 146, rfl⟩
abbrev main_v144 : Ref sig .tc := ⟨.hbm, 147, rfl⟩
abbrev main_v145 : Ref sig .tc := ⟨.hbm, 148, rfl⟩
abbrev main_v146 : Ref sig .tc := ⟨.hbm, 149, rfl⟩
abbrev main_v147 : Ref sig .tc := ⟨.hbm, 150, rfl⟩
abbrev main_v148 : Ref sig .tc := ⟨.hbm, 151, rfl⟩
abbrev main_v149 : Ref sig .tc := ⟨.hbm, 152, rfl⟩
abbrev main_v150 : Ref sig .tc := ⟨.hbm, 153, rfl⟩
abbrev main_v151 : Ref sig .tc := ⟨.hbm, 154, rfl⟩
abbrev main_v152 : Ref sig .tc := ⟨.hbm, 155, rfl⟩
abbrev main_v153 : Ref sig .tc := ⟨.hbm, 156, rfl⟩
abbrev main_v154 : Ref sig .tc := ⟨.hbm, 157, rfl⟩
abbrev main_v155 : Ref sig .tc := ⟨.hbm, 158, rfl⟩
abbrev main_v156 : Ref sig .tc := ⟨.hbm, 159, rfl⟩
abbrev main_v157 : Ref sig .tc := ⟨.hbm, 160, rfl⟩
abbrev main_v158 : Ref sig .tc := ⟨.hbm, 161, rfl⟩
abbrev main_v159 : Ref sig .tc := ⟨.hbm, 162, rfl⟩
abbrev main_v160 : Ref sig .tc := ⟨.hbm, 163, rfl⟩
abbrev main_v161 : Ref sig .tc := ⟨.hbm, 164, rfl⟩
abbrev main_v162 : Ref sig .tc := ⟨.hbm, 165, rfl⟩
abbrev main_v163 : Ref sig .tc := ⟨.hbm, 166, rfl⟩
abbrev main_v164 : Ref sig .tc := ⟨.hbm, 167, rfl⟩
abbrev main_v165 : Ref sig .tc := ⟨.hbm, 168, rfl⟩
abbrev main_v166 : Ref sig .tc := ⟨.hbm, 169, rfl⟩
abbrev main_v167 : Ref sig .tc := ⟨.hbm, 170, rfl⟩
abbrev main_v168 : Ref sig .tc := ⟨.hbm, 171, rfl⟩
abbrev main_v169 : Ref sig .tc := ⟨.hbm, 172, rfl⟩
abbrev main_v170 : Ref sig .tc := ⟨.hbm, 173, rfl⟩
abbrev main_v171 : Ref sig .tc := ⟨.hbm, 174, rfl⟩
abbrev main_v172 : Ref sig .tc := ⟨.hbm, 175, rfl⟩
abbrev main_v173 : Ref sig .tc := ⟨.hbm, 176, rfl⟩
abbrev main_v174 : Ref sig .tc := ⟨.hbm, 177, rfl⟩
abbrev main_v175 : Ref sig .tc := ⟨.hbm, 178, rfl⟩
abbrev main_v176 : Ref sig .tc := ⟨.hbm, 179, rfl⟩
abbrev main_v177 : Ref sig .tc := ⟨.hbm, 180, rfl⟩
abbrev main_v178 : Ref sig .tc := ⟨.hbm, 181, rfl⟩
abbrev main_v179 : Ref sig .tc := ⟨.hbm, 182, rfl⟩
abbrev main_v180 : Ref sig .tc := ⟨.hbm, 183, rfl⟩

abbrev nD : Nat := 1
abbrev τ : Topo := Topo.v7x

variable {F : FTy → Type} [FloatOps F]

class Facts₀ : Prop where
  slices_S32768x768_S0x768_0_0 : S32768x768.Slices ![0, 0] S0x768
  slices_S20x768x768_S1x768x768_0_0_0 : S20x768x768.Slices ![0, 0, 0] S1x768x768
  shapeCasts_S1x768x768_S768x768 : S1x768x768.ShapeCasts S768x768
  transposes_S768x768_S768x768_1_0 : S768x768.Transposes [1, 0] S768x768
  slices_S20x768_S1x768_0_0 : S20x768.Slices ![0, 0] S1x768
  shapeCasts_S1x768_S768 : S1x768.ShapeCasts S768
  bcast_S768_S1x768_1 : S768.BroadcastsInDim S1x768 (![1] : Fin 1 → Fin S1x768.rank)
  bcast_S1x768_S32768x768_0_1 : S1x768.BroadcastsInDim S32768x768 (![0, 1] : Fin 2 → Fin S32768x768.rank)
  slices_S20x768x768_S1x768x768_1_0_0 : S20x768x768.Slices ![1, 0, 0] S1x768x768
  slices_S20x768_S1x768_1_0 : S20x768.Slices ![1, 0] S1x768
  slices_S20x768x768_S1x768x768_2_0_0 : S20x768x768.Slices ![2, 0, 0] S1x768x768
  slices_S20x768_S1x768_2_0 : S20x768.Slices ![2, 0] S1x768
  slices_S20x768x768_S1x768x768_3_0_0 : S20x768x768.Slices ![3, 0, 0] S1x768x768
  slices_S20x768_S1x768_3_0 : S20x768.Slices ![3, 0] S1x768
  slices_S20x768x768_S1x768x768_4_0_0 : S20x768x768.Slices ![4, 0, 0] S1x768x768
  slices_S20x768_S1x768_4_0 : S20x768.Slices ![4, 0] S1x768
  slices_S20x768x768_S1x768x768_5_0_0 : S20x768x768.Slices ![5, 0, 0] S1x768x768
  slices_S20x768_S1x768_5_0 : S20x768.Slices ![5, 0] S1x768
  slices_S20x768x768_S1x768x768_6_0_0 : S20x768x768.Slices ![6, 0, 0] S1x768x768
  slices_S20x768_S1x768_6_0 : S20x768.Slices ![6, 0] S1x768
  slices_S20x768x768_S1x768x768_7_0_0 : S20x768x768.Slices ![7, 0, 0] S1x768x768
  slices_S20x768_S1x768_7_0 : S20x768.Slices ![7, 0] S1x768
  slices_S20x768x768_S1x768x768_8_0_0 : S20x768x768.Slices ![8, 0, 0] S1x768x768
  slices_S20x768_S1x768_8_0 : S20x768.Slices ![8, 0] S1x768
  slices_S20x768x768_S1x768x768_9_0_0 : S20x768x768.Slices ![9, 0, 0] S1x768x768
  slices_S20x768_S1x768_9_0 : S20x768.Slices ![9, 0] S1x768
  slices_S20x768x768_S1x768x768_10_0_0 : S20x768x768.Slices ![10, 0, 0] S1x768x768
  slices_S20x768_S1x768_10_0 : S20x768.Slices ![10, 0] S1x768
  slices_S20x768x768_S1x768x768_11_0_0 : S20x768x768.Slices ![11, 0, 0] S1x768x768
  slices_S20x768_S1x768_11_0 : S20x768.Slices ![11, 0] S1x768
  slices_S20x768x768_S1x768x768_12_0_0 : S20x768x768.Slices ![12, 0, 0] S1x768x768
  slices_S20x768_S1x768_12_0 : S20x768.Slices ![12, 0] S1x768
  slices_S20x768x768_S1x768x768_13_0_0 : S20x768x768.Slices ![13, 0, 0] S1x768x768
  slices_S20x768_S1x768_13_0 : S20x768.Slices ![13, 0] S1x768
  slices_S20x768x768_S1x768x768_14_0_0 : S20x768x768.Slices ![14, 0, 0] S1x768x768
  slices_S20x768_S1x768_14_0 : S20x768.Slices ![14, 0] S1x768
  slices_S20x768x768_S1x768x768_15_0_0 : S20x768x768.Slices ![15, 0, 0] S1x768x768
  slices_S20x768_S1x768_15_0 : S20x768.Slices ![15, 0] S1x768
  slices_S20x768x768_S1x768x768_16_0_0 : S20x768x768.Slices ![16, 0, 0] S1x768x768
  slices_S20x768_S1x768_16_0 : S20x768.Slices ![16, 0] S1x768
  slices_S20x768x768_S1x768x768_17_0_0 : S20x768x768.Slices ![17, 0, 0] S1x768x768
  slices_S20x768_S1x768_17_0 : S20x768.Slices ![17, 0] S1x768
  slices_S20x768x768_S1x768x768_18_0_0 : S20x768x768.Slices ![18, 0, 0] S1x768x768
  slices_S20x768_S1x768_18_0 : S20x768.Slices ![18, 0] S1x768
  slices_S20x768x768_S1x768x768_19_0_0 : S20x768x768.Slices ![19, 0, 0] S1x768x768
  slices_S20x768_S1x768_19_0 : S20x768.Slices ![19, 0] S1x768
  dot_S32768x768_S768x768_S32768x768_1_0_0_1_n_n_wf : DotDims.WF S32768x768 S768x768 S32768x768 [1] [0] [0] [1] [] []

variable [Facts₀]

def dot_S32768x768_S768x768_S32768x768_1_0_0_1_n_n : DotDims S32768x768 S768x768 S32768x768 where
  lhsContracting := [1]
  rhsContracting := [0]
  lhsNonContracting := [0]
  rhsNonContracting := [1]
  lhsBatch := []
  rhsBatch := []
  wf := dot_S32768x768_S768x768_S32768x768_1_0_0_1_n_n_wf

class Facts : Prop extends Facts₀ where

variable [Facts]
-- ==== Proof.K.Runs.lean ====
/-
  The three control cases of the chain kernel's body and the schedule facts they rest on.
  The body branches on the grid coordinate i alone: i = 0 seeds the two scratch buffers (the running product
  and the running bias row), 0 < i < 20 multiplies one more layer into them, and 20 ≤ i applies the finished
  product to one block of 2048 rows.  Exactly one of the three holds at each of the 36 points.  The output
  window is stored only in the third case; in the other two it is idle and is not written back.
-/
import proofs.«141492_g79869211837047_cont_9to1_m_368_30_alg».proof.Proof.Gen.Kernel.Frame
import proofs.«141492_g79869211837047_cont_9to1_m_368_30_alg».proof.Proof.Gen.Kernel.Skeleton

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions, as the body spells them, and where they hold on the grid -/

/-- The seeding branch's condition: the coordinate equals zero. -/
abbrev cond1 (i : grid0.Coords) : Prop :=
  (Scalar.cmpi .ne (Scalar.extui (Scalar.cmpi .eq (BitVec.ofNat 32 (i 0).val) 0#32)) 0#32) = 1#1
/-- The layer branch's condition: the coordinate lies strictly between 0 and 20. -/
abbrev cond2 (i : grid0.Coords) : Prop :=
  (Scalar.cmpi .ne (Scalar.extui (Scalar.andi (Scalar.cmpi .sgt (BitVec.ofNat 32 (i 0).val) 0#32) (Scalar.cmpi .slt (BitVec.ofNat 32 (i 0).val) 20#32))) 0#32) = 1#1
/-- The apply branch's condition: the coordinate is at least 20. -/
abbrev cond3 (i : grid0.Coords) : Prop := k0_cond3 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ (0 < t.val ∧ t.val < 20) :=
  (by decide +kernel : ∀ t : Fin grid0.N, cond2 (grid0.coords t) ↔ (0 < t.val ∧ t.val < 20))
theorem hcond3 : ∀ t : Fin cfg0.N, cond3 (grid0.coords t) ↔ 20 ≤ t.val :=
  (by decide +kernel : ∀ t : Fin grid0.N, cond3 (grid0.coords t) ↔ 20 ≤ t.val)

/-! ## Which windows are idle where, and where the output is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Before point 20 the output window is idle … -/
theorem idle4 : ∀ t : Fin cfg0.N, t.val < 20 → cfg0.idle 4 (grid0.coords t) = true := by decide +kernel
/-- … and its block is not written back there (its block index stays 0 up to point 20). -/
theorem noFlush4 : ∀ t : Fin cfg0.N, t.val < 20 → (cfg0.win 4).flush t = false := by decide +kernel
/-- From point 20 on the output window is live. -/
theorem live4 : ∀ t : Fin cfg0.N, 20 ≤ t.val → cfg0.idle 4 (grid0.coords t) = false := by decide +kernel

/-! ## The memrefs the body is called with -/

abbrev ms0 (t : Fin cfg0.N) : Memref sig .tc .vmem S1x768x768 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x768x768 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x768 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x768 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x768 .f32 := win0_4.stage (cfg0.slots t 4)
abbrev hs4 (t : Fin cfg0.N) : (ms4 t).IsWhole := hstage0_4 ((cfg0.slots t 4).cast nbuf0_4)
/-- The scratch holding the running product, and the one holding the running bias row. -/
abbrev scM : Memref sig .tc .vmem S768x768 .f32 := Memref.whole cc0_scratch0
abbrev scR : Memref sig .tc .vmem S1x768 .f32 := Memref.whole cc0_scratch1
/-- Views through which the contents of the output buffer and of the two scratch buffers are stated. -/
abbrev VO : View sig .tc .vmem S2048x768 .f32 := (Memref.whole cc0_stg4_0 : Memref sig .tc .vmem S2048x768 .f32).view
abbrev VM : View sig .tc .vmem S768x768 .f32 := scM.view
abbrev VR : View sig .tc .vmem S1x768 .f32 := scR.view

/-- The class invariant of the region, with the two scratch buffers as memrefs owned at some contents. -/
theorem PhiA_eq (c : Dev nD) :
    (Pipeline.ΦA spec0 c : sProp 𝕄)
      = iprop(iprop((∃ d, owns (c : Thread nD τ) scM fullShare d) ∗ (∃ d, owns (c : Thread nD τ) scR fullShare d)) ∗ (∃ r, prngReg c r)) := by
  unfold Pipeline.ΦA; rw [scopedRest0_eq]; simp only [scM, scR, owns_whole]; try rfl

end Cert.Kernel.Fr

end
-- ==== Proof.K.RunA.lean ====
/-
  The body at the first grid point: both scratch buffers are seeded (the product with the first layer's
  matrix, the bias row with the first layer's bias); nothing is stored into the output buffer, which is
  handed back as it was found.
-/
import proofs.«141492_g79869211837047_cont_9to1_m_368_30_alg».proof.Proof.K.Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The seeding case: what the body's stores leave in the two scratch buffers, as pieces, with the proof that
    the body runs from whole buffers — the inputs at their contents, the output buffer at contents it does not
    touch, the scratch buffers at anything — to the continuation holding the scratch buffers with those pieces
    written and everything else as it was. -/
noncomputable def runA (c : Dev nD) (i : grid0.Coords) (arg1 : Memref sig .tc .vmem S1x768x768 .bf16) (harg1 : arg1.IsWhole) (arg2 : Memref sig .tc .vmem S1x768x768 .bf16) (harg2 : arg2.IsWhole) (arg3 : Memref sig .tc .vmem S1x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc1 : cond1 i) (hc2 : ¬cond2 i) (hc3 : ¬cond3 i)
    (x0 : Vec F S1x768x768 .bf16) (x1 : Vec F S1x768x768 .bf16) (x2 : Vec F S1x1x768 .f32) (x3 : Vec F S2048x768 .f32) :
    Σ' (LM : List (View.Piece (Elt F) S768x768 .f32)), { LR : List (View.Piece (Elt F) S1x768 .f32) //
      ∀ (xi4 : Vec F S2048x768 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LR)) -∗ K ⟨⟩))
          ⊢ wp frame (wpE (defs₀ (F := F)) Variants.none c none) E (cc0__body i arg1 harg1 arg2 harg2 arg3 harg3 arg4 harg4 arg5 harg5 arg6 harg6 arg7 harg7) K } := by
  refine ⟨?_, ?_, fun xi4 E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%dM, %fM, -, HM⟩, ⟨%dR, %fR, -, HR⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HM]; · iexists _; iexact HM
    iexists _; iexact HR

end Cert.Kernel.Fr

end
-- ==== Proof.K.RunB.lean ====
/-
  The body at a layer point (0 < i < 20): the running product M is replaced by W · M, formed in three
  passes over the two halves of W and of M, and the running bias row r by r · Wᵀ + b; nothing is stored
  into the output buffer, which is handed back as it was found.
-/
import proofs.«141492_g79869211837047_cont_9to1_m_368_30_alg».proof.Proof.K.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The layer case: the pieces the body's stores leave in the two scratch buffers, found from their contents
    before the point (`xM`, `xR`), with the proof that the body runs to the continuation holding them written. -/
noncomputable def runB (c : Dev nD) (i : grid0.Coords) (arg1 : Memref sig .tc .vmem S1x768x768 .bf16) (harg1 : arg1.IsWhole) (arg2 : Memref sig .tc .vmem S1x768x768 .bf16) (harg2 : arg2.IsWhole) (arg3 : Memref sig .tc .vmem S1x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc1 : ¬cond1 i) (hc2 : cond2 i) (hc3 : ¬cond3 i)
    (x0 : Vec F S1x768x768 .bf16) (x1 : Vec F S1x768x768 .bf16) (x2 : Vec F S1x1x768 .f32) (x3 : Vec F S2048x768 .f32) (xM : Vec F S768x768 .f32) (xR : Vec F S1x768 .f32) :
    Σ' (LM : List (View.Piece (Elt F) S768x768 .f32)), { LR : List (View.Piece (Elt F) S1x768 .f32) //
      ∀ (xi4 : Vec F S2048x768 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xM ∗ owns (c : Thread nD τ) arg7 fullShare xR
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LR)) -∗ K ⟨⟩))
          ⊢ wp frame (wpE (defs₀ (F := F)) Variants.none c none) E (cc0__body i arg1 harg1 arg2 harg2 arg3 harg3 arg4 harg4 arg5 harg5 arg6 harg6 arg7 harg7) K } := by
  refine ⟨?_, ?_, fun xi4 E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%fM, %hfM, HM⟩, ⟨%fR, %hfR, HR⟩, Hk⟩
    obtain rfl := harg1.eq_unread hf0; obtain rfl := harg2.eq_unread hf1; obtain rfl := harg3.eq_unread hf2
    obtain rfl := harg4.eq_unread hf3; obtain rfl := harg5.eq_unread hf4
    obtain rfl := harg6.eq_unread hfM; obtain rfl := harg7.eq_unread hfR
    sl_exec (disch := first | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HM]; · iexists _; iexact HM
    iexists _; iexact HR

end Cert.Kernel.Fr

end
-- ==== Proof.K.RunC.lean ====
/-
  The body at an apply point (20 ≤ i): one block of 2048 rows of x is multiplied by the transpose of the
  finished product and the finished bias row is added along every row; the result is stored into the output
  buffer.  The two scratch buffers are read and keep their contents.
-/
import proofs.«141492_g79869211837047_cont_9to1_m_368_30_alg».proof.Proof.K.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The apply case: the pieces the body's store leaves in the output buffer, found from the block of x and the
    scratch contents (`xM`, `xR`), with the proof that the body runs to the continuation holding the output
    buffer with them written and the scratch buffers as they were. -/
noncomputable def runC (c : Dev nD) (i : grid0.Coords) (arg1 : Memref sig .tc .vmem S1x768x768 .bf16) (harg1 : arg1.IsWhole) (arg2 : Memref sig .tc .vmem S1x768x768 .bf16) (harg2 : arg2.IsWhole) (arg3 : Memref sig .tc .vmem S1x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc1 : ¬cond1 i) (hc2 : ¬cond2 i) (hc3 : cond3 i)
    (x0 : Vec F S1x768x768 .bf16) (x1 : Vec F S1x768x768 .bf16) (x2 : Vec F S1x1x768 .f32) (x3 : Vec F S2048x768 .f32) (xM : Vec F S768x768 .f32) (xR : Vec F S1x768 .f32) :
    { LO : List (View.Piece (Elt F) S2048x768 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xM ∗ owns (c : Thread nD τ) arg7 fullShare xR
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f LO) ∗ owns (c : Thread nD τ) arg6 fullShare xM ∗ owns (c : Thread nD τ) arg7 fullShare xR) -∗ K ⟨⟩))
          ⊢ wp frame (wpE (defs₀ (F := F)) Variants.none c none) E (cc0__body i arg1 harg1 arg2 harg2 arg3 harg3 arg4 harg4 arg5 harg5 arg6 harg6 arg7 harg7) K } := by
  refine ⟨?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%d4, %f4, -, H4⟩, ⟨%fM, %hfM, HM⟩, ⟨%fR, %hfR, HR⟩, Hk⟩
    obtain rfl := harg1.eq_unread hf0; obtain rfl := harg2.eq_unread hf1; obtain rfl := harg3.eq_unread hf2
    obtain rfl := harg4.eq_unread hf3
    obtain rfl := harg6.eq_unread hfM; obtain rfl := harg7.eq_unread hfR
    sl_exec (disch := first | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HM]
    · iexists _; isplitr; · ipureintro; exact harg6.read_unread _
      iexact HM
    iexists _; isplitr; · ipureintro; exact harg7.read_unread _
    iexact HR

end Cert.Kernel.Fr

end
-- ==== Proof.K.Frame.lean ====
/-
  The frame of the chain kernel: what the two scratch buffers and the output buffer hold after each grid
  point, the region's invariant that carries the scratch contents from point to point, the body's
  obligation at every point, and the run of the whole program.

  After point 0 the scratch buffers hold the seeding case's stores; after a point 0 < n < 20 the layer case's
  stores computed from what point n − 1 left; from point 20 on they keep what point 19 left, and the output
  buffer holds the apply case's store computed from the point's block of x and those scratch contents.
-/
import proofs.«141492_g79869211837047_cont_9to1_m_368_30_alg».proof.Proof.K.RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case's stores leave, read back -/

theorem coverA_M (c : Dev nD) (i : grid0.Coords) (arg1 : Memref sig .tc .vmem S1x768x768 .bf16) (harg1 : arg1.IsWhole) (arg2 : Memref sig .tc .vmem S1x768x768 .bf16) (harg2 : arg2.IsWhole) (arg3 : Memref sig .tc .vmem S1x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc1 : cond1 i) (hc2 : ¬cond2 i) (hc3 : ¬cond3 i) (x0 : Vec F S1x768x768 .bf16) (x1 : Vec F S1x768x768 .bf16) (x2 : Vec F S1x1x768 .f32) (x3 : Vec F S2048x768 .f32) (y : S768x768.Idx) :
    ∃ pc ∈ (runA c i arg1 harg1 arg2 harg2 arg3 harg3 arg4 harg4 arg5 harg5 arg6 harg6 arg7 harg7 hc1 hc2 hc3 x0 x1 x2 x3).1, y ∈ pc.1.set :=
  View.cover_of_tiledL (runA c i arg1 harg1 arg2 harg2 arg3 harg3 arg4 harg4 arg5 harg5 arg6 harg6 arg7 harg7 hc1 hc2 hc3 x0 x1 x2 x3).1 S768x768.size (by sl_kernel_rfl) y
theorem coverA_R (c : Dev nD) (i : grid0.Coords) (arg1 : Memref sig .tc .vmem S1x768x768 .bf16) (harg1 : arg1.IsWhole) (arg2 : Memref sig .tc .vmem S1x768x768 .bf16) (harg2 : arg2.IsWhole) (arg3 : Memref sig .tc .vmem S1x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc1 : cond1 i) (hc2 : ¬cond2 i) (hc3 : ¬cond3 i) (x0 : Vec F S1x768x768 .bf16) (x1 : Vec F S1x768x768 .bf16) (x2 : Vec F S1x1x768 .f32) (x3 : Vec F S2048x768 .f32) (y : S1x768.Idx) :
    ∃ pc ∈ (runA c i arg1 harg1 arg2 harg2 arg3 harg3 arg4 harg4 arg5 harg5 arg6 harg6 arg7 harg7 hc1 hc2 hc3 x0 x1 x2 x3).2.1, y ∈ pc.1.set :=
  View.cover_of_tiledL (runA c i arg1 harg1 arg2 harg2 arg3 harg3 arg4 harg4 arg5 harg5 arg6 harg6 arg7 harg7 hc1 hc2 hc3 x0 x1 x2 x3).2.1 S1x768.size (by sl_kernel_rfl) y
theorem coverB_M (c : Dev nD) (i : grid0.Coords) (arg1 : Memref sig .tc .vmem S1x768x768 .bf16) (harg1 : arg1.IsWhole) (arg2 : Memref sig .tc .vmem S1x768x768 .bf16) (harg2 : arg2.IsWhole) (arg3 : Memref sig .tc .vmem S1x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc1 : ¬cond1 i) (hc2 : cond2 i) (hc3 : ¬cond3 i) (x0 : Vec F S1x768x768 .bf16) (x1 : Vec F S1x768x768 .bf16) (x2 : Vec F S1x1x768 .f32) (x3 : Vec F S2048x768 .f32) (xM : Vec F S768x768 .f32) (xR : Vec F S1x768 .f32) (y : S768x768.Idx) :
    ∃ pc ∈ (runB c i arg1 harg1 arg2 harg2 arg3 harg3 arg4 harg4 arg5 harg5 arg6 harg6 arg7 harg7 hc1 hc2 hc3 x0 x1 x2 x3 xM xR).1, y ∈ pc.1.set :=
  View.cover_of_tiledL (runB c i arg1 harg1 arg2 harg2 arg3 harg3 arg4 harg4 arg5 harg5 arg6 harg6 arg7 harg7 hc1 hc2 hc3 x0 x1 x2 x3 xM xR).1 S768x768.size (by sl_kernel_rfl) y
theorem coverB_R (c : Dev nD) (i : grid0.Coords) (arg1 : Memref sig .tc .vmem S1x768x768 .bf16) (harg1 : arg1.IsWhole) (arg2 : Memref sig .tc .vmem S1x768x768 .bf16) (harg2 : arg2.IsWhole) (arg3 : Memref sig .tc .vmem S1x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc1 : ¬cond1 i) (hc2 : cond2 i) (hc3 : ¬cond3 i) (x0 : Vec F S1x768x768 .bf16) (x1 : Vec F S1x768x768 .bf16) (x2 : Vec F S1x1x768 .f32) (x3 : Vec F S2048x768 .f32) (xM : Vec F S768x768 .f32) (xR : Vec F S1x768 .f32) (y : S1x768.Idx) :
    ∃ pc ∈ (runB c i arg1 harg1 arg2 harg2 arg3 harg3 arg4 harg4 arg5 harg5 arg6 harg6 arg7 harg7 hc1 hc2 hc3 x0 x1 x2 x3 xM xR).2.1, y ∈ pc.1.set :=
  View.cover_of_tiledL (runB c i arg1 harg1 arg2 harg2 arg3 harg3 arg4 harg4 arg5 harg5 arg6 harg6 arg7 harg7 hc1 hc2 hc3 x0 x1 x2 x3 xM xR).2.1 S1x768.size (by sl_kernel_rfl) y
theorem coverC_O (c : Dev nD) (i : grid0.Coords) (arg1 : Memref sig .tc .vmem S1x768x768 .bf16) (harg1 : arg1.IsWhole) (arg2 : Memref sig .tc .vmem S1x768x768 .bf16) (harg2 : arg2.IsWhole) (arg3 : Memref sig .tc .vmem S1x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc1 : ¬cond1 i) (hc2 : ¬cond2 i) (hc3 : cond3 i) (x0 : Vec F S1x768x768 .bf16) (x1 : Vec F S1x768x768 .bf16) (x2 : Vec F S1x1x768 .f32) (x3 : Vec F S2048x768 .f32) (xM : Vec F S768x768 .f32) (xR : Vec F S1x768 .f32) (y : S2048x768.Idx) :
    ∃ pc ∈ (runC c i arg1 harg1 arg2 harg2 arg3 harg3 arg4 harg4 arg5 harg5 arg6 harg6 arg7 harg7 hc1 hc2 hc3 x0 x1 x2 x3 xM xR).1, y ∈ pc.1.set :=
  View.cover_of_tiledL (runC c i arg1 harg1 arg2 harg2 arg3 harg3 arg4 harg4 arg5 harg5 arg6 harg6 arg7 harg7 hc1 hc2 hc3 x0 x1 x2 x3 xM xR).1 S2048x768.size (by sl_kernel_rfl) y

/-- The product scratch after the seeding case. -/
def soutA_M (c : Dev nD) (i : grid0.Coords) (arg1 : Memref sig .tc .vmem S1x768x768 .bf16) (harg1 : arg1.IsWhole) (arg2 : Memref sig .tc .vmem S1x768x768 .bf16) (harg2 : arg2.IsWhole) (arg3 : Memref sig .tc .vmem S1x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc1 : cond1 i) (hc2 : ¬cond2 i) (hc3 : ¬cond3 i) (x0 : Vec F S1x768x768 .bf16) (x1 : Vec F S1x768x768 .bf16) (x2 : Vec F S1x1x768 .f32) (x3 : Vec F S2048x768 .f32) : Vec F S768x768 .f32 :=
  VM.read (Elt F) (VM.writes (Elt F) VM.junk (runA c i arg1 harg1 arg2 harg2 arg3 harg3 arg4 harg4 arg5 harg5 arg6 harg6 arg7 harg7 hc1 hc2 hc3 x0 x1 x2 x3).1)
/-- The bias scratch after the seeding case. -/
def soutA_R (c : Dev nD) (i : grid0.Coords) (arg1 : Memref sig .tc .vmem S1x768x768 .bf16) (harg1 : arg1.IsWhole) (arg2 : Memref sig .tc .vmem S1x768x768 .bf16) (harg2 : arg2.IsWhole) (arg3 : Memref sig .tc .vmem S1x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc1 : cond1 i) (hc2 : ¬cond2 i) (hc3 : ¬cond3 i) (x0 : Vec F S1x768x768 .bf16) (x1 : Vec F S1x768x768 .bf16) (x2 : Vec F S1x1x768 .f32) (x3 : Vec F S2048x768 .f32) : Vec F S1x768 .f32 :=
  VR.read (Elt F) (VR.writes (Elt F) VR.junk (runA c i arg1 harg1 arg2 harg2 arg3 harg3 arg4 harg4 arg5 harg5 arg6 harg6 arg7 harg7 hc1 hc2 hc3 x0 x1 x2 x3).2.1)
/-- The product scratch after a layer case. -/
def soutB_M (c : Dev nD) (i : grid0.Coords) (arg1 : Memref sig .tc .vmem S1x768x768 .bf16) (harg1 : arg1.IsWhole) (arg2 : Memref sig .tc .vmem S1x768x768 .bf16) (harg2 : arg2.IsWhole) (arg3 : Memref sig .tc .vmem S1x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc1 : ¬cond1 i) (hc2 : cond2 i) (hc3 : ¬cond3 i) (x0 : Vec F S1x768x768 .bf16) (x1 : Vec F S1x768x768 .bf16) (x2 : Vec F S1x1x768 .f32) (x3 : Vec F S2048x768 .f32) (xM : Vec F S768x768 .f32) (xR : Vec F S1x768 .f32) : Vec F S768x768 .f32 :=
  VM.read (Elt F) (VM.writes (Elt F) VM.junk (runB c i arg1 harg1 arg2 harg2 arg3 harg3 arg4 harg4 arg5 harg5 arg6 harg6 arg7 harg7 hc1 hc2 hc3 x0 x1 x2 x3 xM xR).1)
/-- The bias scratch after a layer case. -/
def soutB_R (c : Dev nD) (i : grid0.Coords) (arg1 : Memref sig .tc .vmem S1x768x768 .bf16) (harg1 : arg1.IsWhole) (arg2 : Memref sig .tc .vmem S1x768x768 .bf16) (harg2 : arg2.IsWhole) (arg3 : Memref sig .tc .vmem S1x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc1 : ¬cond1 i) (hc2 : cond2 i) (hc3 : ¬cond3 i) (x0 : Vec F S1x768x768 .bf16) (x1 : Vec F S1x768x768 .bf16) (x2 : Vec F S1x1x768 .f32) (x3 : Vec F S2048x768 .f32) (xM : Vec F S768x768 .f32) (xR : Vec F S1x768 .f32) : Vec F S1x768 .f32 :=
  VR.read (Elt F) (VR.writes (Elt F) VR.junk (runB c i arg1 harg1 arg2 harg2 arg3 harg3 arg4 harg4 arg5 harg5 arg6 harg6 arg7 harg7 hc1 hc2 hc3 x0 x1 x2 x3 xM xR).2.1)
/-- The output buffer after an apply case. -/
def outC (c : Dev nD) (i : grid0.Coords) (arg1 : Memref sig .tc .vmem S1x768x768 .bf16) (harg1 : arg1.IsWhole) (arg2 : Memref sig .tc .vmem S1x768x768 .bf16) (harg2 : arg2.IsWhole) (arg3 : Memref sig .tc .vmem S1x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc1 : ¬cond1 i) (hc2 : ¬cond2 i) (hc3 : cond3 i) (x0 : Vec F S1x768x768 .bf16) (x1 : Vec F S1x768x768 .bf16) (x2 : Vec F S1x1x768 .f32) (x3 : Vec F S2048x768 .f32) (xM : Vec F S768x768 .f32) (xR : Vec F S1x768 .f32) : Vec F S2048x768 .f32 :=
  VO.read (Elt F) (VO.writes (Elt F) VO.junk (runC c i arg1 harg1 arg2 harg2 arg3 harg3 arg4 harg4 arg5 harg5 arg6 harg6 arg7 harg7 hc1 hc2 hc3 x0 x1 x2 x3 xM xR).1)

/-! ## The same at a grid point, on the point's memrefs and blocks -/

def MA (c : Dev nD) (t : Fin cfg0.N) (h : t.val = 0) : Vec F S768x768 .f32 :=
  soutA_M c (grid0.coords t) (ms0 t) (hs0 t) (ms1 t) (hs1 t) (ms2 t) (hs2 t) (ms3 t) (hs3 t) (ms4 t) (hs4 t) scM (Memref.isWhole_whole _) scR (Memref.isWhole_whole _) ((hcond1 t).mpr h) (fun h2 => absurd ((hcond2 t).mp h2) (by omega)) (fun h3 => absurd ((hcond3 t).mp h3) (by omega)) (iblk m c 0 t) (iblk m c 1 t) (iblk m c 2 t) (iblk m c 3 t)
def RA (c : Dev nD) (t : Fin cfg0.N) (h : t.val = 0) : Vec F S1x768 .f32 :=
  soutA_R c (grid0.coords t) (ms0 t) (hs0 t) (ms1 t) (hs1 t) (ms2 t) (hs2 t) (ms3 t) (hs3 t) (ms4 t) (hs4 t) scM (Memref.isWhole_whole _) scR (Memref.isWhole_whole _) ((hcond1 t).mpr h) (fun h2 => absurd ((hcond2 t).mp h2) (by omega)) (fun h3 => absurd ((hcond3 t).mp h3) (by omega)) (iblk m c 0 t) (iblk m c 1 t) (iblk m c 2 t) (iblk m c 3 t)
def MB (c : Dev nD) (t : Fin cfg0.N) (h : 0 < t.val ∧ t.val < 20) (xM : Vec F S768x768 .f32) (xR : Vec F S1x768 .f32) : Vec F S768x768 .f32 :=
  soutB_M c (grid0.coords t) (ms0 t) (hs0 t) (ms1 t) (hs1 t) (ms2 t) (hs2 t) (ms3 t) (hs3 t) (ms4 t) (hs4 t) scM (Memref.isWhole_whole _) scR (Memref.isWhole_whole _) (fun h1 => absurd ((hcond1 t).mp h1) (by omega)) ((hcond2 t).mpr h) (fun h3 => absurd ((hcond3 t).mp h3) (by omega)) (iblk m c 0 t) (iblk m c 1 t) (iblk m c 2 t) (iblk m c 3 t) xM xR
def RB (c : Dev nD) (t : Fin cfg0.N) (h : 0 < t.val ∧ t.val < 20) (xM : Vec F S768x768 .f32) (xR : Vec F S1x768 .f32) : Vec F S1x768 .f32 :=
  soutB_R c (grid0.coords t) (ms0 t) (hs0 t) (ms1 t) (hs1 t) (ms2 t) (hs2 t) (ms3 t) (hs3 t) (ms4 t) (hs4 t) scM (Memref.isWhole_whole _) scR (Memref.isWhole_whole _) (fun h1 => absurd ((hcond1 t).mp h1) (by omega)) ((hcond2 t).mpr h) (fun h3 => absurd ((hcond3 t).mp h3) (by omega)) (iblk m c 0 t) (iblk m c 1 t) (iblk m c 2 t) (iblk m c 3 t) xM xR
def OC (c : Dev nD) (t : Fin cfg0.N) (h : 20 ≤ t.val) (xM : Vec F S768x768 .f32) (xR : Vec F S1x768 .f32) : Vec F S2048x768 .f32 :=
  outC c (grid0.coords t) (ms0 t) (hs0 t) (ms1 t) (hs1 t) (ms2 t) (hs2 t) (ms3 t) (hs3 t) (ms4 t) (hs4 t) scM (Memref.isWhole_whole _) scR (Memref.isWhole_whole _) (fun h1 => absurd ((hcond1 t).mp h1) (by omega)) (fun h2 => absurd ((hcond2 t).mp h2) (by omega)) ((hcond3 t).mpr h) (iblk m c 0 t) (iblk m c 1 t) (iblk m c 2 t) (iblk m c 3 t) xM xR

/-- A placeholder for the output buffer's contents at the points where it is idle: nothing consults it. -/
def junkO : Vec F S2048x768 .f32 := VO.read (Elt F) VO.junk

/-! ## Point by point -/

/-- What the output buffer and the two scratch buffers hold after the body at position `n`. -/
def outsAt (c : Dev nD) : (n : ℕ) → n < cfg0.N → Vec F S2048x768 .f32 × Vec F S768x768 .f32 × Vec F S1x768 .f32
  | 0, hn => (junkO, MA m c ⟨0, hn⟩ rfl, RA m c ⟨0, hn⟩ rfl)
  | n + 1, hn =>
    if h : n + 1 < 20 then
      (junkO, MB m c ⟨n + 1, hn⟩ ⟨Nat.succ_pos n, h⟩ (outsAt c n (Nat.lt_of_succ_lt hn)).2.1 (outsAt c n (Nat.lt_of_succ_lt hn)).2.2,
        RB m c ⟨n + 1, hn⟩ ⟨Nat.succ_pos n, h⟩ (outsAt c n (Nat.lt_of_succ_lt hn)).2.1 (outsAt c n (Nat.lt_of_succ_lt hn)).2.2)
    else
      (OC m c ⟨n + 1, hn⟩ (Nat.le_of_not_lt h) (outsAt c n (Nat.lt_of_succ_lt hn)).2.1 (outsAt c n (Nat.lt_of_succ_lt hn)).2.2,
        (outsAt c n (Nat.lt_of_succ_lt hn)).2.1, (outsAt c n (Nat.lt_of_succ_lt hn)).2.2)

theorem outsAt_A (c : Dev nD) (t : Fin cfg0.N) (h : t.val = 0) :
    outsAt m c t.val t.isLt = (junkO, MA m c t h, RA m c t h) := by
  obtain ⟨n, hn⟩ := t
  cases n with
  | zero => exact rfl
  | succ n => exact absurd h (Nat.succ_ne_zero n)

theorem outsAt_B (c : Dev nD) (t : Fin cfg0.N) (h : 0 < t.val ∧ t.val < 20) :
    outsAt m c t.val t.isLt = (junkO,
      MB m c t h (outsAt m c (t.val - 1) (Nat.lt_of_le_of_lt (Nat.sub_le _ _) t.isLt)).2.1 (outsAt m c (t.val - 1) (Nat.lt_of_le_of_lt (Nat.sub_le _ _) t.isLt)).2.2,
      RB m c t h (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact absurd h.1 (Nat.lt_irrefl 0)
  | succ n => exact (dif_pos h.2).trans rfl

theorem outsAt_C (c : Dev nD) (t : Fin cfg0.N) (h : 20 ≤ t.val) :
    outsAt m c t.val t.isLt = (OC m c t h (outsAt m c (t.val - 1) (Nat.lt_of_le_of_lt (Nat.sub_le _ _) t.isLt)).2.1 (outsAt m c (t.val - 1) (Nat.lt_of_le_of_lt (Nat.sub_le _ _) t.isLt)).2.2,
      (outsAt m c (t.val - 1) (Nat.lt_of_le_of_lt (Nat.sub_le _ _) t.isLt)).2.1, (outsAt m c (t.val - 1) (Nat.lt_of_le_of_lt (Nat.sub_le _ _) t.isLt)).2.2) := by
  obtain ⟨n, hn⟩ := t
  cases n with
  | zero => exact absurd h (Nat.not_succ_le_zero 19)
  | succ n => exact (dif_neg (Nat.not_lt.mpr h)).trans rfl

/-! ## The region's invariant -/

/-- Before the first point the class invariant (the scratch buffers at anything); afterwards the two scratch
    buffers at what the point before left, and the generator register at some state. -/
def PhiS (c : Dev nD) : (n : ℕ) → n ≤ cfg0.N → sProp 𝕄
  | 0, _ => Pipeline.ΦA spec0 c
  | n + 1, hn => iprop(iprop(owns (c : Thread nD τ) scM fullShare ((outsAt m c n hn).2.1) ∗ owns (c : Thread nD τ) scR fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt m c n hn).2.1) ∗ owns (c : Thread nD τ) scR fullShare ((outsAt m c n hn).2.2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt m c (n - 1) (by omega)).2.1) ∗ owns (c : Thread nD τ) scR fullShare ((outsAt m c (n - 1) (by omega)).2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem le0 (c : Dev nD) (t : Fin cfg0.N) : (dats m 0 c).leavesExact 0 t = owns (c : Thread nD τ) (ms0 t) fullShare (iblk m c 0 t) := by
  unfold Dat.leavesExact; rw [live0 t, after0]
theorem le1 (c : Dev nD) (t : Fin cfg0.N) : (dats m 0 c).leavesExact 1 t = owns (c : Thread nD τ) (ms1 t) fullShare (iblk m c 1 t) := by
  unfold Dat.leavesExact; rw [live1 t, after1]
theorem le2 (c : Dev nD) (t : Fin cfg0.N) : (dats m 0 c).leavesExact 2 t = owns (c : Thread nD τ) (ms2 t) fullShare (iblk m c 2 t) := by
  unfold Dat.leavesExact; rw [live2 t, after2]
theorem le3 (c : Dev nD) (t : Fin cfg0.N) : (dats m 0 c).leavesExact 3 t = owns (c : Thread nD τ) (ms3 t) fullShare (iblk m c 3 t) := by
  unfold Dat.leavesExact; rw [live3 t, after3]
theorem le4 (c : Dev nD) (t : Fin cfg0.N) (h : 20 ≤ t.val) : (dats m 0 c).leavesExact 4 t = owns (c : Thread nD τ) (ms4 t) fullShare ((outsAt m c t.val t.isLt).1) := by
  unfold Dat.leavesExact; rw [live4 t h, after4]

set_option maxHeartbeats 4800000 in
/-- The body at any point.  The inputs' buffers hold their blocks; the point is in exactly one of the three
    cases, and that case's run applies: the invariant hands it the scratch buffers (at anything at the first
    point, at what the point before left afterwards) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [le0, le1, le2, le3]
  have hN : t.val < 36 := lt_of_lt_of_eq t.isLt (show cfg0.N = 36 from N_0)
  by_cases hA : t.val = 0
  · rw [Dat.leavesExact_idle (dats m 0 c) 4 t (idle4 t (by omega)) (noFlush4 t (by omega))]
    rw [outsAt_A m c t hA]
    unfold MA RA soutA_M soutA_R; (try dsimp only)
    rw [PhiS_castSucc m c t, PhiS_zero m c _ _ hA, PhiA_eq]
    iintro ⟨⟨⟨HM, HR⟩, Hg⟩, Ho, ⟨%d0, H0⟩, ⟨%d1, H1⟩, ⟨%d2, H2⟩, ⟨%d3, H3⟩, ⟨%d4, H4⟩⟩
    iapply ((runA c (grid0.coords t) (ms0 t) (hs0 t) (ms1 t) (hs1 t) (ms2 t) (hs2 t) (ms3 t) (hs3 t) (ms4 t) (hs4 t) scM (Memref.isWhole_whole _) scR (Memref.isWhole_whole _) ((hcond1 t).mpr hA) (fun h2 => absurd ((hcond2 t).mp h2) (by omega)) (fun h3 => absurd ((hcond3 t).mp h3) (by omega)) (iblk m c 0 t) (iblk m c 1 t) (iblk m c 2 t) (iblk m c 3 t)).2.2 _ Set.univ _)
    isplitl [H0]; · iexact H0
    isplitl [H1]; · iexact H1
    isplitl [H2]; · iexact H2
    isplitl [H3]; · iexact H3
    isplitl [H4]; · iexact H4
    isplitl [HM]; · iexact HM
    isplitl [HR]; · iexact HR
    iintro ⟨H0, H1, H2, H3, H4, ⟨%eM, HM⟩, ⟨%eR, HR⟩⟩
    isplitl [HM HR Hg]
    · isplitl [HM HR]
      · isplitl [HM]
        · unfold owns; iexists _; isplitr
          swap; · iexact HM
          ipureintro; exact View.read_writes_of_cover _ _ _ _ _ (coverA_M c _ _ _ _ _ _ _ _ _ _ _ _ _ _ _ _ _ _ _ _ _ _)
        · unfold owns; iexists _; isplitr
          swap; · iexact HR
          ipureintro; exact View.read_writes_of_cover _ _ _ _ _ (coverA_R c _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · by_cases hB : t.val < 20
    · have hB' : 0 < t.val ∧ t.val < 20 := ⟨Nat.pos_of_ne_zero hA, hB⟩
      rw [Dat.leavesExact_idle (dats m 0 c) 4 t (idle4 t hB) (noFlush4 t hB)]
      rw [outsAt_B m c t hB']
      unfold MB RB soutB_M soutB_R; (try dsimp only)
      rw [PhiS_castSucc m c t, PhiS_pos m c _ _ hA]
      iintro ⟨⟨⟨HM, HR⟩, Hg⟩, Ho, ⟨%d0, H0⟩, ⟨%d1, H1⟩, ⟨%d2, H2⟩, ⟨%d3, H3⟩, ⟨%d4, H4⟩⟩
      iapply ((runB c (grid0.coords t) (ms0 t) (hs0 t) (ms1 t) (hs1 t) (ms2 t) (hs2 t) (ms3 t) (hs3 t) (ms4 t) (hs4 t) scM (Memref.isWhole_whole _) scR (Memref.isWhole_whole _) (fun h1 => absurd ((hcond1 t).mp h1) (by omega)) ((hcond2 t).mpr hB') (fun h3 => absurd ((hcond3 t).mp h3) (by omega)) (iblk m c 0 t) (iblk m c 1 t) (iblk m c 2 t) (iblk m c 3 t) _ _).2.2 _ Set.univ _)
      isplitl [H0]; · iexact H0
      isplitl [H1]; · iexact H1
      isplitl [H2]; · iexact H2
      isplitl [H3]; · iexact H3
      isplitl [H4]; · iexact H4
      isplitl [HM]; · iexact HM
      isplitl [HR]; · iexact HR
      iintro ⟨H0, H1, H2, H3, H4, ⟨%eM, HM⟩, ⟨%eR, HR⟩⟩
      isplitl [HM HR Hg]
      · isplitl [HM HR]
        · isplitl [HM]
          · unfold owns; iexists _; isplitr
            swap; · iexact HM
            ipureintro; exact View.read_writes_of_cover _ _ _ _ _ (coverB_M c _ _ _ _ _ _ _ _ _ _ _ _ _ _ _ _ _ _ _ _ _ _ _ _)
          · unfold owns; iexists _; isplitr
            swap; · iexact HR
            ipureintro; exact View.read_writes_of_cover _ _ _ _ _ (coverB_R c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · have hC : 20 ≤ t.val := Nat.le_of_not_lt hB
      rw [le4 m c t hC]
      rw [outsAt_C m c t hC]
      unfold OC outC; (try dsimp only)
      rw [PhiS_castSucc m c t, PhiS_pos m c _ _ hA]
      iintro ⟨⟨⟨HM, HR⟩, Hg⟩, Ho, ⟨%d0, H0⟩, ⟨%d1, H1⟩, ⟨%d2, H2⟩, ⟨%d3, H3⟩, ⟨%d4, H4⟩⟩
      iapply ((runC c (grid0.coords t) (ms0 t) (hs0 t) (ms1 t) (hs1 t) (ms2 t) (hs2 t) (ms3 t) (hs3 t) (ms4 t) (hs4 t) scM (Memref.isWhole_whole _) scR (Memref.isWhole_whole _) (fun h1 => absurd ((hcond1 t).mp h1) (by omega)) (fun h2 => absurd ((hcond2 t).mp h2) (by omega)) ((hcond3 t).mpr hC) (iblk m c 0 t) (iblk m c 1 t) (iblk m c 2 t) (iblk m c 3 t) _ _).2 Set.univ _)
      isplitl [H0]; · iexact H0
      isplitl [H1]; · iexact H1
      isplitl [H2]; · iexact H2
      isplitl [H3]; · iexact H3
      isplitl [H4]; · iexists _; iexact H4
      isplitl [HM]; · iexact HM
      isplitl [HR]; · iexact HR
      iintro ⟨H0, H1, H2, H3, ⟨%e4, H4⟩, HM, HR⟩
      isplitl [HM HR Hg]
      · isplitl [HM HR]
        · isplitl [HM]; · iexact HM
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC_O c _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HM, HR⟩, Hg⟩
  isplitl [HM HR]
  · isplitl [HM]
    · iexists _; iexact HM
    iexists _; iexact HR
  iexact Hg

theorem hout (c : Dev nD) : (dats m 0 c).Φ (Fin.last cfg0.N) ⊢ Pipeline.ΦA spec0 c :=
  Phi_out m c _ (by rw [Fin.val_last]; have : cfg0.N = 36 := N_0; omega)

/-! ## The run and the frame -/

set_option backward.isDefEq.respectTransparency.types false in
/-- Every weakly fair execution of the program terminates, and every final state has each array of the
    pipeline at what the library computes from the proof data. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The frame: the program runs to the end without a fault and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Fr

end
-- ==== Proof.KI.Runs.lean ====
/-
  The three control cases of the chain kernel's body and the schedule facts they rest on.
  The body branches on the grid coordinate i alone: i = 0 seeds the two scratch buffers (the running product
  and the running bias row), 0 < i < 20 multiplies one more layer into them, and 20 ≤ i applies the finished
  product to one block of 2048 rows.  Exactly one of the three holds at each of the 36 points.  The output
  window is stored only in the third case; in the other two it is idle and is not written back.
-/
import proofs.«141492_g79869211837047_cont_9to1_m_368_30_alg».proof.Proof.Gen.KernelIdeal.Frame
import proofs.«141492_g79869211837047_cont_9to1_m_368_30_alg».proof.Proof.Gen.KernelIdeal.Skeleton

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions, as the body spells them, and where they hold on the grid -/

/-- The seeding branch's condition: the coordinate equals zero. -/
abbrev cond1 (i : grid0.Coords) : Prop :=
  (Scalar.cmpi .ne (Scalar.extui (Scalar.cmpi .eq (BitVec.ofNat 32 (i 0).val) 0#32)) 0#32) = 1#1
/-- The layer branch's condition: the coordinate lies strictly between 0 and 20. -/
abbrev cond2 (i : grid0.Coords) : Prop :=
  (Scalar.cmpi .ne (Scalar.extui (Scalar.andi (Scalar.cmpi .sgt (BitVec.ofNat 32 (i 0).val) 0#32) (Scalar.cmpi .slt (BitVec.ofNat 32 (i 0).val) 20#32))) 0#32) = 1#1
/-- The apply branch's condition: the coordinate is at least 20. -/
abbrev cond3 (i : grid0.Coords) : Prop := k0_cond3 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ (0 < t.val ∧ t.val < 20) :=
  (by decide +kernel : ∀ t : Fin grid0.N, cond2 (grid0.coords t) ↔ (0 < t.val ∧ t.val < 20))
theorem hcond3 : ∀ t : Fin cfg0.N, cond3 (grid0.coords t) ↔ 20 ≤ t.val :=
  (by decide +kernel : ∀ t : Fin grid0.N, cond3 (grid0.coords t) ↔ 20 ≤ t.val)

/-! ## Which windows are idle where, and where the output is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Before point 20 the output window is idle … -/
theorem idle4 : ∀ t : Fin cfg0.N, t.val < 20 → cfg0.idle 4 (grid0.coords t) = true := by decide +kernel
/-- … and its block is not written back there (its block index stays 0 up to point 20). -/
theorem noFlush4 : ∀ t : Fin cfg0.N, t.val < 20 → (cfg0.win 4).flush t = false := by decide +kernel
/-- From point 20 on the output window is live. -/
theorem live4 : ∀ t : Fin cfg0.N, 20 ≤ t.val → cfg0.idle 4 (grid0.coords t) = false := by decide +kernel

/-! ## The memrefs the body is called with -/

abbrev ms0 (t : Fin cfg0.N) : Memref sig .tc .vmem S1x768x768 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x768x768 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x768 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x768 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x768 .f32 := win0_4.stage (cfg0.slots t 4)
abbrev hs4 (t : Fin cfg0.N) : (ms4 t).IsWhole := hstage0_4 ((cfg0.slots t 4).cast nbuf0_4)
/-- The scratch holding the running product, and the one holding the running bias row. -/
abbrev scM : Memref sig .tc .vmem S768x768 .f32 := Memref.whole cc0_scratch0
abbrev scR : Memref sig .tc .vmem S1x768 .f32 := Memref.whole cc0_scratch1
/-- Views through which the contents of the output buffer and of the two scratch buffers are stated. -/
abbrev VO : View sig .tc .vmem S2048x768 .f32 := (Memref.whole cc0_stg4_0 : Memref sig .tc .vmem S2048x768 .f32).view
abbrev VM : View sig .tc .vmem S768x768 .f32 := scM.view
abbrev VR : View sig .tc .vmem S1x768 .f32 := scR.view

/-- The class invariant of the region, with the two scratch buffers as memrefs owned at some contents. -/
theorem PhiA_eq (c : Dev nD) :
    (Pipeline.ΦA spec0 c : sProp 𝕄)
      = iprop(iprop((∃ d, owns (c : Thread nD τ) scM fullShare d) ∗ (∃ d, owns (c : Thread nD τ) scR fullShare d)) ∗ (∃ r, prngReg c r)) := by
  unfold Pipeline.ΦA; rw [scopedRest0_eq]; simp only [scM, scR, owns_whole]; try rfl

end Cert.KernelIdeal.Fr

end
-- ==== Proof.KI.RunA.lean ====
/-
  The body at the first grid point: both scratch buffers are seeded (the product with the first layer's
  matrix, the bias row with the first layer's bias); nothing is stored into the output buffer, which is
  handed back as it was found.
-/
import proofs.«141492_g79869211837047_cont_9to1_m_368_30_alg».proof.Proof.KI.Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The seeding case: what the body's stores leave in the two scratch buffers, as pieces, with the proof that
    the body runs from whole buffers — the inputs at their contents, the output buffer at contents it does not
    touch, the scratch buffers at anything — to the continuation holding the scratch buffers with those pieces
    written and everything else as it was. -/
noncomputable def runA (c : Dev nD) (i : grid0.Coords) (arg1 : Memref sig .tc .vmem S1x768x768 .bf16) (harg1 : arg1.IsWhole) (arg2 : Memref sig .tc .vmem S1x768x768 .bf16) (harg2 : arg2.IsWhole) (arg3 : Memref sig .tc .vmem S1x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc1 : cond1 i) (hc2 : ¬cond2 i) (hc3 : ¬cond3 i)
    (x0 : Vec F S1x768x768 .bf16) (x1 : Vec F S1x768x768 .bf16) (x2 : Vec F S1x1x768 .f32) (x3 : Vec F S2048x768 .f32) :
    Σ' (LM : List (View.Piece (Elt F) S768x768 .f32)), { LR : List (View.Piece (Elt F) S1x768 .f32) //
      ∀ (xi4 : Vec F S2048x768 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LR)) -∗ K ⟨⟩))
          ⊢ wp frame (wpE (defs₀ (F := F)) Variants.none c none) E (cc0__body i arg1 harg1 arg2 harg2 arg3 harg3 arg4 harg4 arg5 harg5 arg6 harg6 arg7 harg7) K } := by
  refine ⟨?_, ?_, fun xi4 E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%dM, %fM, -, HM⟩, ⟨%dR, %fR, -, HR⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HM]; · iexists _; iexact HM
    iexists _; iexact HR

end Cert.KernelIdeal.Fr

end
-- ==== Proof.KI.RunB.lean ====
/-
  The body at a layer point (0 < i < 20): the running product M is replaced by W · M, formed in three
  passes over the two halves of W and of M, and the running bias row r by r · Wᵀ + b; nothing is stored
  into the output buffer, which is handed back as it was found.
-/
import proofs.«141492_g79869211837047_cont_9to1_m_368_30_alg».proof.Proof.KI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The layer case: the pieces the body's stores leave in the two scratch buffers, found from their contents
    before the point (`xM`, `xR`), with the proof that the body runs to the continuation holding them written. -/
noncomputable def runB (c : Dev nD) (i : grid0.Coords) (arg1 : Memref sig .tc .vmem S1x768x768 .bf16) (harg1 : arg1.IsWhole) (arg2 : Memref sig .tc .vmem S1x768x768 .bf16) (harg2 : arg2.IsWhole) (arg3 : Memref sig .tc .vmem S1x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc1 : ¬cond1 i) (hc2 : cond2 i) (hc3 : ¬cond3 i)
    (x0 : Vec F S1x768x768 .bf16) (x1 : Vec F S1x768x768 .bf16) (x2 : Vec F S1x1x768 .f32) (x3 : Vec F S2048x768 .f32) (xM : Vec F S768x768 .f32) (xR : Vec F S1x768 .f32) :
    Σ' (LM : List (View.Piece (Elt F) S768x768 .f32)), { LR : List (View.Piece (Elt F) S1x768 .f32) //
      ∀ (xi4 : Vec F S2048x768 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xM ∗ owns (c : Thread nD τ) arg7 fullShare xR
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LR)) -∗ K ⟨⟩))
          ⊢ wp frame (wpE (defs₀ (F := F)) Variants.none c none) E (cc0__body i arg1 harg1 arg2 harg2 arg3 harg3 arg4 harg4 arg5 harg5 arg6 harg6 arg7 harg7) K } := by
  refine ⟨?_, ?_, fun xi4 E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%fM, %hfM, HM⟩, ⟨%fR, %hfR, HR⟩, Hk⟩
    obtain rfl := harg1.eq_unread hf0; obtain rfl := harg2.eq_unread hf1; obtain rfl := harg3.eq_unread hf2
    obtain rfl := harg4.eq_unread hf3; obtain rfl := harg5.eq_unread hf4
    obtain rfl := harg6.eq_unread hfM; obtain rfl := harg7.eq_unread hfR
    sl_exec (disch := first | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HM]; · iexists _; iexact HM
    iexists _; iexact HR

end Cert.KernelIdeal.Fr

end
-- ==== Proof.KI.RunC.lean ====
/-
  The body at an apply point (20 ≤ i): one block of 2048 rows of x is multiplied by the transpose of the
  finished product and the finished bias row is added along every row; the result is stored into the output
  buffer.  The two scratch buffers are read and keep their contents.
-/
import proofs.«141492_g79869211837047_cont_9to1_m_368_30_alg».proof.Proof.KI.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The apply case: the pieces the body's store leaves in the output buffer, found from the block of x and the
    scratch contents (`xM`, `xR`), with the proof that the body runs to the continuation holding the output
    buffer with them written and the scratch buffers as they were. -/
noncomputable def runC (c : Dev nD) (i : grid0.Coords) (arg1 : Memref sig .tc .vmem S1x768x768 .bf16) (harg1 : arg1.IsWhole) (arg2 : Memref sig .tc .vmem S1x768x768 .bf16) (harg2 : arg2.IsWhole) (arg3 : Memref sig .tc .vmem S1x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc1 : ¬cond1 i) (hc2 : ¬cond2 i) (hc3 : cond3 i)
    (x0 : Vec F S1x768x768 .bf16) (x1 : Vec F S1x768x768 .bf16) (x2 : Vec F S1x1x768 .f32) (x3 : Vec F S2048x768 .f32) (xM : Vec F S768x768 .f32) (xR : Vec F S1x768 .f32) :
    { LO : List (View.Piece (Elt F) S2048x768 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xM ∗ owns (c : Thread nD τ) arg7 fullShare xR
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f LO) ∗ owns (c : Thread nD τ) arg6 fullShare xM ∗ owns (c : Thread nD τ) arg7 fullShare xR) -∗ K ⟨⟩))
          ⊢ wp frame (wpE (defs₀ (F := F)) Variants.none c none) E (cc0__body i arg1 harg1 arg2 harg2 arg3 harg3 arg4 harg4 arg5 harg5 arg6 harg6 arg7 harg7) K } := by
  refine ⟨?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%d4, %f4, -, H4⟩, ⟨%fM, %hfM, HM⟩, ⟨%fR, %hfR, HR⟩, Hk⟩
    obtain rfl := harg1.eq_unread hf0; obtain rfl := harg2.eq_unread hf1; obtain rfl := harg3.eq_unread hf2
    obtain rfl := harg4.eq_unread hf3
    obtain rfl := harg6.eq_unread hfM; obtain rfl := harg7.eq_unread hfR
    sl_exec (disch := first | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HM]
    · iexists _; isplitr; · ipureintro; exact harg6.read_unread _
      iexact HM
    iexists _; isplitr; · ipureintro; exact harg7.read_unread _
    iexact HR

end Cert.KernelIdeal.Fr

end
-- ==== Proof.KI.Frame.lean ====
/-
  The frame of the chain kernel: what the two scratch buffers and the output buffer hold after each grid
  point, the region's invariant that carries the scratch contents from point to point, the body's
  obligation at every point, and the run of the whole program.

  After point 0 the scratch buffers hold the seeding case's stores; after a point 0 < n < 20 the layer case's
  stores computed from what point n − 1 left; from point 20 on they keep what point 19 left, and the output
  buffer holds the apply case's store computed from the point's block of x and those scratch contents.
-/
import proofs.«141492_g79869211837047_cont_9to1_m_368_30_alg».proof.Proof.KI.RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case's stores leave, read back -/

theorem coverA_M (c : Dev nD) (i : grid0.Coords) (arg1 : Memref sig .tc .vmem S1x768x768 .bf16) (harg1 : arg1.IsWhole) (arg2 : Memref sig .tc .vmem S1x768x768 .bf16) (harg2 : arg2.IsWhole) (arg3 : Memref sig .tc .vmem S1x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc1 : cond1 i) (hc2 : ¬cond2 i) (hc3 : ¬cond3 i) (x0 : Vec F S1x768x768 .bf16) (x1 : Vec F S1x768x768 .bf16) (x2 : Vec F S1x1x768 .f32) (x3 : Vec F S2048x768 .f32) (y : S768x768.Idx) :
    ∃ pc ∈ (runA c i arg1 harg1 arg2 harg2 arg3 harg3 arg4 harg4 arg5 harg5 arg6 harg6 arg7 harg7 hc1 hc2 hc3 x0 x1 x2 x3).1, y ∈ pc.1.set :=
  View.cover_of_tiledL (runA c i arg1 harg1 arg2 harg2 arg3 harg3 arg4 harg4 arg5 harg5 arg6 harg6 arg7 harg7 hc1 hc2 hc3 x0 x1 x2 x3).1 S768x768.size (by sl_kernel_rfl) y
theorem coverA_R (c : Dev nD) (i : grid0.Coords) (arg1 : Memref sig .tc .vmem S1x768x768 .bf16) (harg1 : arg1.IsWhole) (arg2 : Memref sig .tc .vmem S1x768x768 .bf16) (harg2 : arg2.IsWhole) (arg3 : Memref sig .tc .vmem S1x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc1 : cond1 i) (hc2 : ¬cond2 i) (hc3 : ¬cond3 i) (x0 : Vec F S1x768x768 .bf16) (x1 : Vec F S1x768x768 .bf16) (x2 : Vec F S1x1x768 .f32) (x3 : Vec F S2048x768 .f32) (y : S1x768.Idx) :
    ∃ pc ∈ (runA c i arg1 harg1 arg2 harg2 arg3 harg3 arg4 harg4 arg5 harg5 arg6 harg6 arg7 harg7 hc1 hc2 hc3 x0 x1 x2 x3).2.1, y ∈ pc.1.set :=
  View.cover_of_tiledL (runA c i arg1 harg1 arg2 harg2 arg3 harg3 arg4 harg4 arg5 harg5 arg6 harg6 arg7 harg7 hc1 hc2 hc3 x0 x1 x2 x3).2.1 S1x768.size (by sl_kernel_rfl) y
theorem coverB_M (c : Dev nD) (i : grid0.Coords) (arg1 : Memref sig .tc .vmem S1x768x768 .bf16) (harg1 : arg1.IsWhole) (arg2 : Memref sig .tc .vmem S1x768x768 .bf16) (harg2 : arg2.IsWhole) (arg3 : Memref sig .tc .vmem S1x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc1 : ¬cond1 i) (hc2 : cond2 i) (hc3 : ¬cond3 i) (x0 : Vec F S1x768x768 .bf16) (x1 : Vec F S1x768x768 .bf16) (x2 : Vec F S1x1x768 .f32) (x3 : Vec F S2048x768 .f32) (xM : Vec F S768x768 .f32) (xR : Vec F S1x768 .f32) (y : S768x768.Idx) :
    ∃ pc ∈ (runB c i arg1 harg1 arg2 harg2 arg3 harg3 arg4 harg4 arg5 harg5 arg6 harg6 arg7 harg7 hc1 hc2 hc3 x0 x1 x2 x3 xM xR).1, y ∈ pc.1.set :=
  View.cover_of_tiledL (runB c i arg1 harg1 arg2 harg2 arg3 harg3 arg4 harg4 arg5 harg5 arg6 harg6 arg7 harg7 hc1 hc2 hc3 x0 x1 x2 x3 xM xR).1 S768x768.size (by sl_kernel_rfl) y
theorem coverB_R (c : Dev nD) (i : grid0.Coords) (arg1 : Memref sig .tc .vmem S1x768x768 .bf16) (harg1 : arg1.IsWhole) (arg2 : Memref sig .tc .vmem S1x768x768 .bf16) (harg2 : arg2.IsWhole) (arg3 : Memref sig .tc .vmem S1x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc1 : ¬cond1 i) (hc2 : cond2 i) (hc3 : ¬cond3 i) (x0 : Vec F S1x768x768 .bf16) (x1 : Vec F S1x768x768 .bf16) (x2 : Vec F S1x1x768 .f32) (x3 : Vec F S2048x768 .f32) (xM : Vec F S768x768 .f32) (xR : Vec F S1x768 .f32) (y : S1x768.Idx) :
    ∃ pc ∈ (runB c i arg1 harg1 arg2 harg2 arg3 harg3 arg4 harg4 arg5 harg5 arg6 harg6 arg7 harg7 hc1 hc2 hc3 x0 x1 x2 x3 xM xR).2.1, y ∈ pc.1.set :=
  View.cover_of_tiledL (runB c i arg1 harg1 arg2 harg2 arg3 harg3 arg4 harg4 arg5 harg5 arg6 harg6 arg7 harg7 hc1 hc2 hc3 x0 x1 x2 x3 xM xR).2.1 S1x768.size (by sl_kernel_rfl) y
theorem coverC_O (c : Dev nD) (i : grid0.Coords) (arg1 : Memref sig .tc .vmem S1x768x768 .bf16) (harg1 : arg1.IsWhole) (arg2 : Memref sig .tc .vmem S1x768x768 .bf16) (harg2 : arg2.IsWhole) (arg3 : Memref sig .tc .vmem S1x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc1 : ¬cond1 i) (hc2 : ¬cond2 i) (hc3 : cond3 i) (x0 : Vec F S1x768x768 .bf16) (x1 : Vec F S1x768x768 .bf16) (x2 : Vec F S1x1x768 .f32) (x3 : Vec F S2048x768 .f32) (xM : Vec F S768x768 .f32) (xR : Vec F S1x768 .f32) (y : S2048x768.Idx) :
    ∃ pc ∈ (runC c i arg1 harg1 arg2 harg2 arg3 harg3 arg4 harg4 arg5 harg5 arg6 harg6 arg7 harg7 hc1 hc2 hc3 x0 x1 x2 x3 xM xR).1, y ∈ pc.1.set :=
  View.cover_of_tiledL (runC c i arg1 harg1 arg2 harg2 arg3 harg3 arg4 harg4 arg5 harg5 arg6 harg6 arg7 harg7 hc1 hc2 hc3 x0 x1 x2 x3 xM xR).1 S2048x768.size (by sl_kernel_rfl) y

/-- The product scratch after the seeding case. -/
def soutA_M (c : Dev nD) (i : grid0.Coords) (arg1 : Memref sig .tc .vmem S1x768x768 .bf16) (harg1 : arg1.IsWhole) (arg2 : Memref sig .tc .vmem S1x768x768 .bf16) (harg2 : arg2.IsWhole) (arg3 : Memref sig .tc .vmem S1x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc1 : cond1 i) (hc2 : ¬cond2 i) (hc3 : ¬cond3 i) (x0 : Vec F S1x768x768 .bf16) (x1 : Vec F S1x768x768 .bf16) (x2 : Vec F S1x1x768 .f32) (x3 : Vec F S2048x768 .f32) : Vec F S768x768 .f32 :=
  VM.read (Elt F) (VM.writes (Elt F) VM.junk (runA c i arg1 harg1 arg2 harg2 arg3 harg3 arg4 harg4 arg5 harg5 arg6 harg6 arg7 harg7 hc1 hc2 hc3 x0 x1 x2 x3).1)
/-- The bias scratch after the seeding case. -/
def soutA_R (c : Dev nD) (i : grid0.Coords) (arg1 : Memref sig .tc .vmem S1x768x768 .bf16) (harg1 : arg1.IsWhole) (arg2 : Memref sig .tc .vmem S1x768x768 .bf16) (harg2 : arg2.IsWhole) (arg3 : Memref sig .tc .vmem S1x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc1 : cond1 i) (hc2 : ¬cond2 i) (hc3 : ¬cond3 i) (x0 : Vec F S1x768x768 .bf16) (x1 : Vec F S1x768x768 .bf16) (x2 : Vec F S1x1x768 .f32) (x3 : Vec F S2048x768 .f32) : Vec F S1x768 .f32 :=
  VR.read (Elt F) (VR.writes (Elt F) VR.junk (runA c i arg1 harg1 arg2 harg2 arg3 harg3 arg4 harg4 arg5 harg5 arg6 harg6 arg7 harg7 hc1 hc2 hc3 x0 x1 x2 x3).2.1)
/-- The product scratch after a layer case. -/
def soutB_M (c : Dev nD) (i : grid0.Coords) (arg1 : Memref sig .tc .vmem S1x768x768 .bf16) (harg1 : arg1.IsWhole) (arg2 : Memref sig .tc .vmem S1x768x768 .bf16) (harg2 : arg2.IsWhole) (arg3 : Memref sig .tc .vmem S1x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc1 : ¬cond1 i) (hc2 : cond2 i) (hc3 : ¬cond3 i) (x0 : Vec F S1x768x768 .bf16) (x1 : Vec F S1x768x768 .bf16) (x2 : Vec F S1x1x768 .f32) (x3 : Vec F S2048x768 .f32) (xM : Vec F S768x768 .f32) (xR : Vec F S1x768 .f32) : Vec F S768x768 .f32 :=
  VM.read (Elt F) (VM.writes (Elt F) VM.junk (runB c i arg1 harg1 arg2 harg2 arg3 harg3 arg4 harg4 arg5 harg5 arg6 harg6 arg7 harg7 hc1 hc2 hc3 x0 x1 x2 x3 xM xR).1)
/-- The bias scratch after a layer case. -/
def soutB_R (c : Dev nD) (i : grid0.Coords) (arg1 : Memref sig .tc .vmem S1x768x768 .bf16) (harg1 : arg1.IsWhole) (arg2 : Memref sig .tc .vmem S1x768x768 .bf16) (harg2 : arg2.IsWhole) (arg3 : Memref sig .tc .vmem S1x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc1 : ¬cond1 i) (hc2 : cond2 i) (hc3 : ¬cond3 i) (x0 : Vec F S1x768x768 .bf16) (x1 : Vec F S1x768x768 .bf16) (x2 : Vec F S1x1x768 .f32) (x3 : Vec F S2048x768 .f32) (xM : Vec F S768x768 .f32) (xR : Vec F S1x768 .f32) : Vec F S1x768 .f32 :=
  VR.read (Elt F) (VR.writes (Elt F) VR.junk (runB c i arg1 harg1 arg2 harg2 arg3 harg3 arg4 harg4 arg5 harg5 arg6 harg6 arg7 harg7 hc1 hc2 hc3 x0 x1 x2 x3 xM xR).2.1)
/-- The output buffer after an apply case. -/
def outC (c : Dev nD) (i : grid0.Coords) (arg1 : Memref sig .tc .vmem S1x768x768 .bf16) (harg1 : arg1.IsWhole) (arg2 : Memref sig .tc .vmem S1x768x768 .bf16) (harg2 : arg2.IsWhole) (arg3 : Memref sig .tc .vmem S1x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc1 : ¬cond1 i) (hc2 : ¬cond2 i) (hc3 : cond3 i) (x0 : Vec F S1x768x768 .bf16) (x1 : Vec F S1x768x768 .bf16) (x2 : Vec F S1x1x768 .f32) (x3 : Vec F S2048x768 .f32) (xM : Vec F S768x768 .f32) (xR : Vec F S1x768 .f32) : Vec F S2048x768 .f32 :=
  VO.read (Elt F) (VO.writes (Elt F) VO.junk (runC c i arg1 harg1 arg2 harg2 arg3 harg3 arg4 harg4 arg5 harg5 arg6 harg6 arg7 harg7 hc1 hc2 hc3 x0 x1 x2 x3 xM xR).1)

/-! ## The same at a grid point, on the point's memrefs and blocks -/

def MA (c : Dev nD) (t : Fin cfg0.N) (h : t.val = 0) : Vec F S768x768 .f32 :=
  soutA_M c (grid0.coords t) (ms0 t) (hs0 t) (ms1 t) (hs1 t) (ms2 t) (hs2 t) (ms3 t) (hs3 t) (ms4 t) (hs4 t) scM (Memref.isWhole_whole _) scR (Memref.isWhole_whole _) ((hcond1 t).mpr h) (fun h2 => absurd ((hcond2 t).mp h2) (by omega)) (fun h3 => absurd ((hcond3 t).mp h3) (by omega)) (iblk m c 0 t) (iblk m c 1 t) (iblk m c 2 t) (iblk m c 3 t)
def RA (c : Dev nD) (t : Fin cfg0.N) (h : t.val = 0) : Vec F S1x768 .f32 :=
  soutA_R c (grid0.coords t) (ms0 t) (hs0 t) (ms1 t) (hs1 t) (ms2 t) (hs2 t) (ms3 t) (hs3 t) (ms4 t) (hs4 t) scM (Memref.isWhole_whole _) scR (Memref.isWhole_whole _) ((hcond1 t).mpr h) (fun h2 => absurd ((hcond2 t).mp h2) (by omega)) (fun h3 => absurd ((hcond3 t).mp h3) (by omega)) (iblk m c 0 t) (iblk m c 1 t) (iblk m c 2 t) (iblk m c 3 t)
def MB (c : Dev nD) (t : Fin cfg0.N) (h : 0 < t.val ∧ t.val < 20) (xM : Vec F S768x768 .f32) (xR : Vec F S1x768 .f32) : Vec F S768x768 .f32 :=
  soutB_M c (grid0.coords t) (ms0 t) (hs0 t) (ms1 t) (hs1 t) (ms2 t) (hs2 t) (ms3 t) (hs3 t) (ms4 t) (hs4 t) scM (Memref.isWhole_whole _) scR (Memref.isWhole_whole _) (fun h1 => absurd ((hcond1 t).mp h1) (by omega)) ((hcond2 t).mpr h) (fun h3 => absurd ((hcond3 t).mp h3) (by omega)) (iblk m c 0 t) (iblk m c 1 t) (iblk m c 2 t) (iblk m c 3 t) xM xR
def RB (c : Dev nD) (t : Fin cfg0.N) (h : 0 < t.val ∧ t.val < 20) (xM : Vec F S768x768 .f32) (xR : Vec F S1x768 .f32) : Vec F S1x768 .f32 :=
  soutB_R c (grid0.coords t) (ms0 t) (hs0 t) (ms1 t) (hs1 t) (ms2 t) (hs2 t) (ms3 t) (hs3 t) (ms4 t) (hs4 t) scM (Memref.isWhole_whole _) scR (Memref.isWhole_whole _) (fun h1 => absurd ((hcond1 t).mp h1) (by omega)) ((hcond2 t).mpr h) (fun h3 => absurd ((hcond3 t).mp h3) (by omega)) (iblk m c 0 t) (iblk m c 1 t) (iblk m c 2 t) (iblk m c 3 t) xM xR
def OC (c : Dev nD) (t : Fin cfg0.N) (h : 20 ≤ t.val) (xM : Vec F S768x768 .f32) (xR : Vec F S1x768 .f32) : Vec F S2048x768 .f32 :=
  outC c (grid0.coords t) (ms0 t) (hs0 t) (ms1 t) (hs1 t) (ms2 t) (hs2 t) (ms3 t) (hs3 t) (ms4 t) (hs4 t) scM (Memref.isWhole_whole _) scR (Memref.isWhole_whole _) (fun h1 => absurd ((hcond1 t).mp h1) (by omega)) (fun h2 => absurd ((hcond2 t).mp h2) (by omega)) ((hcond3 t).mpr h) (iblk m c 0 t) (iblk m c 1 t) (iblk m c 2 t) (iblk m c 3 t) xM xR

/-- A placeholder for the output buffer's contents at the points where it is idle: nothing consults it. -/
def junkO : Vec F S2048x768 .f32 := VO.read (Elt F) VO.junk

/-! ## Point by point -/

/-- What the output buffer and the two scratch buffers hold after the body at position `n`. -/
def outsAt (c : Dev nD) : (n : ℕ) → n < cfg0.N → Vec F S2048x768 .f32 × Vec F S768x768 .f32 × Vec F S1x768 .f32
  | 0, hn => (junkO, MA m c ⟨0, hn⟩ rfl, RA m c ⟨0, hn⟩ rfl)
  | n + 1, hn =>
    if h : n + 1 < 20 then
      (junkO, MB m c ⟨n + 1, hn⟩ ⟨Nat.succ_pos n, h⟩ (outsAt c n (Nat.lt_of_succ_lt hn)).2.1 (outsAt c n (Nat.lt_of_succ_lt hn)).2.2,
        RB m c ⟨n + 1, hn⟩ ⟨Nat.succ_pos n, h⟩ (outsAt c n (Nat.lt_of_succ_lt hn)).2.1 (outsAt c n (Nat.lt_of_succ_lt hn)).2.2)
    else
      (OC m c ⟨n + 1, hn⟩ (Nat.le_of_not_lt h) (outsAt c n (Nat.lt_of_succ_lt hn)).2.1 (outsAt c n (Nat.lt_of_succ_lt hn)).2.2,
        (outsAt c n (Nat.lt_of_succ_lt hn)).2.1, (outsAt c n (Nat.lt_of_succ_lt hn)).2.2)

theorem outsAt_A (c : Dev nD) (t : Fin cfg0.N) (h : t.val = 0) :
    outsAt m c t.val t.isLt = (junkO, MA m c t h, RA m c t h) := by
  obtain ⟨n, hn⟩ := t
  cases n with
  | zero => exact rfl
  | succ n => exact absurd h (Nat.succ_ne_zero n)

theorem outsAt_B (c : Dev nD) (t : Fin cfg0.N) (h : 0 < t.val ∧ t.val < 20) :
    outsAt m c t.val t.isLt = (junkO,
      MB m c t h (outsAt m c (t.val - 1) (Nat.lt_of_le_of_lt (Nat.sub_le _ _) t.isLt)).2.1 (outsAt m c (t.val - 1) (Nat.lt_of_le_of_lt (Nat.sub_le _ _) t.isLt)).2.2,
      RB m c t h (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact absurd h.1 (Nat.lt_irrefl 0)
  | succ n => exact (dif_pos h.2).trans rfl

theorem outsAt_C (c : Dev nD) (t : Fin cfg0.N) (h : 20 ≤ t.val) :
    outsAt m c t.val t.isLt = (OC m c t h (outsAt m c (t.val - 1) (Nat.lt_of_le_of_lt (Nat.sub_le _ _) t.isLt)).2.1 (outsAt m c (t.val - 1) (Nat.lt_of_le_of_lt (Nat.sub_le _ _) t.isLt)).2.2,
      (outsAt m c (t.val - 1) (Nat.lt_of_le_of_lt (Nat.sub_le _ _) t.isLt)).2.1, (outsAt m c (t.val - 1) (Nat.lt_of_le_of_lt (Nat.sub_le _ _) t.isLt)).2.2) := by
  obtain ⟨n, hn⟩ := t
  cases n with
  | zero => exact absurd h (Nat.not_succ_le_zero 19)
  | succ n => exact (dif_neg (Nat.not_lt.mpr h)).trans rfl

/-! ## The region's invariant -/

/-- Before the first point the class invariant (the scratch buffers at anything); afterwards the two scratch
    buffers at what the point before left, and the generator register at some state. -/
def PhiS (c : Dev nD) : (n : ℕ) → n ≤ cfg0.N → sProp 𝕄
  | 0, _ => Pipeline.ΦA spec0 c
  | n + 1, hn => iprop(iprop(owns (c : Thread nD τ) scM fullShare ((outsAt m c n hn).2.1) ∗ owns (c : Thread nD τ) scR fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt m c n hn).2.1) ∗ owns (c : Thread nD τ) scR fullShare ((outsAt m c n hn).2.2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt m c (n - 1) (by omega)).2.1) ∗ owns (c : Thread nD τ) scR fullShare ((outsAt m c (n - 1) (by omega)).2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem le0 (c : Dev nD) (t : Fin cfg0.N) : (dats m 0 c).leavesExact 0 t = owns (c : Thread nD τ) (ms0 t) fullShare (iblk m c 0 t) := by
  unfold Dat.leavesExact; rw [live0 t, after0]
theorem le1 (c : Dev nD) (t : Fin cfg0.N) : (dats m 0 c).leavesExact 1 t = owns (c : Thread nD τ) (ms1 t) fullShare (iblk m c 1 t) := by
  unfold Dat.leavesExact; rw [live1 t, after1]
theorem le2 (c : Dev nD) (t : Fin cfg0.N) : (dats m 0 c).leavesExact 2 t = owns (c : Thread nD τ) (ms2 t) fullShare (iblk m c 2 t) := by
  unfold Dat.leavesExact; rw [live2 t, after2]
theorem le3 (c : Dev nD) (t : Fin cfg0.N) : (dats m 0 c).leavesExact 3 t = owns (c : Thread nD τ) (ms3 t) fullShare (iblk m c 3 t) := by
  unfold Dat.leavesExact; rw [live3 t, after3]
theorem le4 (c : Dev nD) (t : Fin cfg0.N) (h : 20 ≤ t.val) : (dats m 0 c).leavesExact 4 t = owns (c : Thread nD τ) (ms4 t) fullShare ((outsAt m c t.val t.isLt).1) := by
  unfold Dat.leavesExact; rw [live4 t h, after4]

set_option maxHeartbeats 4800000 in
/-- The body at any point.  The inputs' buffers hold their blocks; the point is in exactly one of the three
    cases, and that case's run applies: the invariant hands it the scratch buffers (at anything at the first
    point, at what the point before left afterwards) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [le0, le1, le2, le3]
  have hN : t.val < 36 := lt_of_lt_of_eq t.isLt (show cfg0.N = 36 from N_0)
  by_cases hA : t.val = 0
  · rw [Dat.leavesExact_idle (dats m 0 c) 4 t (idle4 t (by omega)) (noFlush4 t (by omega))]
    rw [outsAt_A m c t hA]
    unfold MA RA soutA_M soutA_R; (try dsimp only)
    rw [PhiS_castSucc m c t, PhiS_zero m c _ _ hA, PhiA_eq]
    iintro ⟨⟨⟨HM, HR⟩, Hg⟩, Ho, ⟨%d0, H0⟩, ⟨%d1, H1⟩, ⟨%d2, H2⟩, ⟨%d3, H3⟩, ⟨%d4, H4⟩⟩
    iapply ((runA c (grid0.coords t) (ms0 t) (hs0 t) (ms1 t) (hs1 t) (ms2 t) (hs2 t) (ms3 t) (hs3 t) (ms4 t) (hs4 t) scM (Memref.isWhole_whole _) scR (Memref.isWhole_whole _) ((hcond1 t).mpr hA) (fun h2 => absurd ((hcond2 t).mp h2) (by omega)) (fun h3 => absurd ((hcond3 t).mp h3) (by omega)) (iblk m c 0 t) (iblk m c 1 t) (iblk m c 2 t) (iblk m c 3 t)).2.2 _ Set.univ _)
    isplitl [H0]; · iexact H0
    isplitl [H1]; · iexact H1
    isplitl [H2]; · iexact H2
    isplitl [H3]; · iexact H3
    isplitl [H4]; · iexact H4
    isplitl [HM]; · iexact HM
    isplitl [HR]; · iexact HR
    iintro ⟨H0, H1, H2, H3, H4, ⟨%eM, HM⟩, ⟨%eR, HR⟩⟩
    isplitl [HM HR Hg]
    · isplitl [HM HR]
      · isplitl [HM]
        · unfold owns; iexists _; isplitr
          swap; · iexact HM
          ipureintro; exact View.read_writes_of_cover _ _ _ _ _ (coverA_M c _ _ _ _ _ _ _ _ _ _ _ _ _ _ _ _ _ _ _ _ _ _)
        · unfold owns; iexists _; isplitr
          swap; · iexact HR
          ipureintro; exact View.read_writes_of_cover _ _ _ _ _ (coverA_R c _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · by_cases hB : t.val < 20
    · have hB' : 0 < t.val ∧ t.val < 20 := ⟨Nat.pos_of_ne_zero hA, hB⟩
      rw [Dat.leavesExact_idle (dats m 0 c) 4 t (idle4 t hB) (noFlush4 t hB)]
      rw [outsAt_B m c t hB']
      unfold MB RB soutB_M soutB_R; (try dsimp only)
      rw [PhiS_castSucc m c t, PhiS_pos m c _ _ hA]
      iintro ⟨⟨⟨HM, HR⟩, Hg⟩, Ho, ⟨%d0, H0⟩, ⟨%d1, H1⟩, ⟨%d2, H2⟩, ⟨%d3, H3⟩, ⟨%d4, H4⟩⟩
      iapply ((runB c (grid0.coords t) (ms0 t) (hs0 t) (ms1 t) (hs1 t) (ms2 t) (hs2 t) (ms3 t) (hs3 t) (ms4 t) (hs4 t) scM (Memref.isWhole_whole _) scR (Memref.isWhole_whole _) (fun h1 => absurd ((hcond1 t).mp h1) (by omega)) ((hcond2 t).mpr hB') (fun h3 => absurd ((hcond3 t).mp h3) (by omega)) (iblk m c 0 t) (iblk m c 1 t) (iblk m c 2 t) (iblk m c 3 t) _ _).2.2 _ Set.univ _)
      isplitl [H0]; · iexact H0
      isplitl [H1]; · iexact H1
      isplitl [H2]; · iexact H2
      isplitl [H3]; · iexact H3
      isplitl [H4]; · iexact H4
      isplitl [HM]; · iexact HM
      isplitl [HR]; · iexact HR
      iintro ⟨H0, H1, H2, H3, H4, ⟨%eM, HM⟩, ⟨%eR, HR⟩⟩
      isplitl [HM HR Hg]
      · isplitl [HM HR]
        · isplitl [HM]
          · unfold owns; iexists _; isplitr
            swap; · iexact HM
            ipureintro; exact View.read_writes_of_cover _ _ _ _ _ (coverB_M c _ _ _ _ _ _ _ _ _ _ _ _ _ _ _ _ _ _ _ _ _ _ _ _)
          · unfold owns; iexists _; isplitr
            swap; · iexact HR
            ipureintro; exact View.read_writes_of_cover _ _ _ _ _ (coverB_R c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · have hC : 20 ≤ t.val := Nat.le_of_not_lt hB
      rw [le4 m c t hC]
      rw [outsAt_C m c t hC]
      unfold OC outC; (try dsimp only)
      rw [PhiS_castSucc m c t, PhiS_pos m c _ _ hA]
      iintro ⟨⟨⟨HM, HR⟩, Hg⟩, Ho, ⟨%d0, H0⟩, ⟨%d1, H1⟩, ⟨%d2, H2⟩, ⟨%d3, H3⟩, ⟨%d4, H4⟩⟩
      iapply ((runC c (grid0.coords t) (ms0 t) (hs0 t) (ms1 t) (hs1 t) (ms2 t) (hs2 t) (ms3 t) (hs3 t) (ms4 t) (hs4 t) scM (Memref.isWhole_whole _) scR (Memref.isWhole_whole _) (fun h1 => absurd ((hcond1 t).mp h1) (by omega)) (fun h2 => absurd ((hcond2 t).mp h2) (by omega)) ((hcond3 t).mpr hC) (iblk m c 0 t) (iblk m c 1 t) (iblk m c 2 t) (iblk m c 3 t) _ _).2 Set.univ _)
      isplitl [H0]; · iexact H0
      isplitl [H1]; · iexact H1
      isplitl [H2]; · iexact H2
      isplitl [H3]; · iexact H3
      isplitl [H4]; · iexists _; iexact H4
      isplitl [HM]; · iexact HM
      isplitl [HR]; · iexact HR
      iintro ⟨H0, H1, H2, H3, ⟨%e4, H4⟩, HM, HR⟩
      isplitl [HM HR Hg]
      · isplitl [HM HR]
        · isplitl [HM]; · iexact HM
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC_O c _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HM, HR⟩, Hg⟩
  isplitl [HM HR]
  · isplitl [HM]
    · iexists _; iexact HM
    iexists _; iexact HR
  iexact Hg

theorem hout (c : Dev nD) : (dats m 0 c).Φ (Fin.last cfg0.N) ⊢ Pipeline.ΦA spec0 c :=
  Phi_out m c _ (by rw [Fin.val_last]; have : cfg0.N = 36 := N_0; omega)

/-! ## The run and the frame -/

set_option backward.isDefEq.respectTransparency.types false in
/-- Every weakly fair execution of the program terminates, and every final state has each array of the
    pipeline at what the library computes from the proof data. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The frame: the program runs to the end without a fault and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Fr

end
-- ==== Proof.KI.Pieces.lean ====
/-
  What each control case of the chain kernel's body leaves in the buffers it stores into, as a value of the
  values it loaded.

  Each case stores once into each buffer it writes, through the buffer's whole rectangle, and loads every
  operand before it stores; so the buffer read back afterwards is that one store's payload, and each load
  through a whole rectangle of a whole buffer is the buffer's contents.  The seeding case leaves the sum of the
  first weight matrix's halves and the first bias row; a layer case leaves the next running product and the
  next running bias row, computed from the ones before; an apply case leaves the block of rows applied to the
  finished product and bias.
-/
import proofs.«141492_g79869211837047_cont_9to1_m_368_30_alg».proof.Proof.KI.Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The offset of a store through a whole rectangle -/

/-- The offset of a store through a whole two-axis rectangle is zero on both axes … -/
theorem hz : (![0, 0] : Fin 2 → Nat) = fun _ => 0 := funext fun a => by fin_cases a <;> rfl
/-- … and on all three axes of a three-axis one. -/
theorem hz3 : (![0, 0, 0] : Fin 3 → Nat) = fun _ => 0 := funext fun a => by fin_cases a <;> rfl

/-! ## The seeding case -/

/-- The product scratch after the seeding case holds the sum of the two halves of the first weight matrix. -/
theorem soutA_M_eq (c : Dev nD) (i : grid0.Coords) (arg1 : Memref sig .tc .vmem S1x768x768 .bf16) (harg1 : arg1.IsWhole) (arg2 : Memref sig .tc .vmem S1x768x768 .bf16) (harg2 : arg2.IsWhole) (arg3 : Memref sig .tc .vmem S1x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc1 : cond1 i) (hc2 : ¬cond2 i) (hc3 : ¬cond3 i) (x0 x1 : Vec F S1x768x768 .bf16) (x2 : Vec F S1x1x768 .f32) (x3 : Vec F S2048x768 .f32) :
    soutA_M c i arg1 harg1 arg2 harg2 arg3 harg3 arg4 harg4 arg5 harg5 arg6 harg6 arg7 harg7 hc1 hc2 hc3 x0 x1 x2 x3 = k0_pay4 x0 x1 := by
  unfold soutA_M
  rw [View.read_writes_eq_canon _ _ _ (coverA_M c i arg1 harg1 arg2 harg2 arg3 harg3 arg4 harg4 arg5 harg5 arg6 harg6 arg7 harg7 hc1 hc2 hc3 x0 x1 x2 x3)]
  unfold runA
  dsimp only
  sl_unfold_words
  rw [View.canon_unit_zero hz]
  simp only [View.readAt_eq_ld, harg1.read_unread, harg2.read_unread, harg3.read_unread, harg4.read_unread, harg5.read_unread, harg6.read_unread, harg7.read_unread, View.ld_unit_zero (S := S1x768x768) hz3, View.ld_unit_zero (S := S1x1x768) hz3, View.ld_unit_zero (S := S2048x768) hz, View.ld_unit_zero (S := S768x768) hz, View.ld_unit_zero (S := S1x768) hz]

/-- The bias scratch after the seeding case holds the first bias row. -/
theorem soutA_R_eq (c : Dev nD) (i : grid0.Coords) (arg1 : Memref sig .tc .vmem S1x768x768 .bf16) (harg1 : arg1.IsWhole) (arg2 : Memref sig .tc .vmem S1x768x768 .bf16) (harg2 : arg2.IsWhole) (arg3 : Memref sig .tc .vmem S1x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc1 : cond1 i) (hc2 : ¬cond2 i) (hc3 : ¬cond3 i) (x0 x1 : Vec F S1x768x768 .bf16) (x2 : Vec F S1x1x768 .f32) (x3 : Vec F S2048x768 .f32) :
    soutA_R c i arg1 harg1 arg2 harg2 arg3 harg3 arg4 harg4 arg5 harg5 arg6 harg6 arg7 harg7 hc1 hc2 hc3 x0 x1 x2 x3 = k0_pay5 x2 := by
  unfold soutA_R
  rw [View.read_writes_eq_canon _ _ _ (coverA_R c i arg1 harg1 arg2 harg2 arg3 harg3 arg4 harg4 arg5 harg5 arg6 harg6 arg7 harg7 hc1 hc2 hc3 x0 x1 x2 x3)]
  unfold runA
  dsimp only
  sl_unfold_words
  rw [View.canon_unit_zero hz]
  simp only [View.readAt_eq_ld, harg1.read_unread, harg2.read_unread, harg3.read_unread, harg4.read_unread, harg5.read_unread, harg6.read_unread, harg7.read_unread, View.ld_unit_zero (S := S1x768x768) hz3, View.ld_unit_zero (S := S1x1x768) hz3, View.ld_unit_zero (S := S2048x768) hz, View.ld_unit_zero (S := S768x768) hz, View.ld_unit_zero (S := S1x768) hz]

/-! ## A layer case -/

/-- The product scratch after a layer case holds the layer's weight matrix times what it held before. -/
theorem soutB_M_eq (c : Dev nD) (i : grid0.Coords) (arg1 : Memref sig .tc .vmem S1x768x768 .bf16) (harg1 : arg1.IsWhole) (arg2 : Memref sig .tc .vmem S1x768x768 .bf16) (harg2 : arg2.IsWhole) (arg3 : Memref sig .tc .vmem S1x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc1 : ¬cond1 i) (hc2 : cond2 i) (hc3 : ¬cond3 i) (x0 x1 : Vec F S1x768x768 .bf16) (x2 : Vec F S1x1x768 .f32) (x3 : Vec F S2048x768 .f32) (xM : Vec F S768x768 .f32) (xR : Vec F S1x768 .f32) :
    soutB_M c i arg1 harg1 arg2 harg2 arg3 harg3 arg4 harg4 arg5 harg5 arg6 harg6 arg7 harg7 hc1 hc2 hc3 x0 x1 x2 x3 xM xR = k0_pay6 x0 x1 xM := by
  unfold soutB_M
  rw [View.read_writes_eq_canon _ _ _ (coverB_M c i arg1 harg1 arg2 harg2 arg3 harg3 arg4 harg4 arg5 harg5 arg6 harg6 arg7 harg7 hc1 hc2 hc3 x0 x1 x2 x3 xM xR)]
  unfold runB
  dsimp only
  sl_unfold_words
  rw [View.canon_unit_zero hz]
  simp only [View.readAt_eq_ld, harg1.read_unread, harg2.read_unread, harg3.read_unread, harg4.read_unread, harg5.read_unread, harg6.read_unread, harg7.read_unread, View.ld_unit_zero (S := S1x768x768) hz3, View.ld_unit_zero (S := S1x1x768) hz3, View.ld_unit_zero (S := S2048x768) hz, View.ld_unit_zero (S := S768x768) hz, View.ld_unit_zero (S := S1x768) hz]

/-- The bias scratch after a layer case holds the row it held before times the layer's weight matrix transposed,
    plus the layer's bias row. -/
theorem soutB_R_eq (c : Dev nD) (i : grid0.Coords) (arg1 : Memref sig .tc .vmem S1x768x768 .bf16) (harg1 : arg1.IsWhole) (arg2 : Memref sig .tc .vmem S1x768x768 .bf16) (harg2 : arg2.IsWhole) (arg3 : Memref sig .tc .vmem S1x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc1 : ¬cond1 i) (hc2 : cond2 i) (hc3 : ¬cond3 i) (x0 x1 : Vec F S1x768x768 .bf16) (x2 : Vec F S1x1x768 .f32) (x3 : Vec F S2048x768 .f32) (xM : Vec F S768x768 .f32) (xR : Vec F S1x768 .f32) :
    soutB_R c i arg1 harg1 arg2 harg2 arg3 harg3 arg4 harg4 arg5 harg5 arg6 harg6 arg7 harg7 hc1 hc2 hc3 x0 x1 x2 x3 xM xR = k0_pay7 x0 x2 xR := by
  unfold soutB_R
  rw [View.read_writes_eq_canon _ _ _ (coverB_R c i arg1 harg1 arg2 harg2 arg3 harg3 arg4 harg4 arg5 harg5 arg6 harg6 arg7 harg7 hc1 hc2 hc3 x0 x1 x2 x3 xM xR)]
  unfold runB
  dsimp only
  sl_unfold_words
  rw [View.canon_unit_zero hz]
  simp only [View.readAt_eq_ld, harg1.read_unread, harg2.read_unread, harg3.read_unread, harg4.read_unread, harg5.read_unread, harg6.read_unread, harg7.read_unread, View.ld_unit_zero (S := S1x768x768) hz3, View.ld_unit_zero (S := S1x1x768) hz3, View.ld_unit_zero (S := S2048x768) hz, View.ld_unit_zero (S := S768x768) hz, View.ld_unit_zero (S := S1x768) hz]

/-! ## An apply case -/

/-- The output buffer after an apply case holds the block of tokens times the finished product transposed, plus the
    finished bias row. -/
theorem outC_eq (c : Dev nD) (i : grid0.Coords) (arg1 : Memref sig .tc .vmem S1x768x768 .bf16) (harg1 : arg1.IsWhole) (arg2 : Memref sig .tc .vmem S1x768x768 .bf16) (harg2 : arg2.IsWhole) (arg3 : Memref sig .tc .vmem S1x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc1 : ¬cond1 i) (hc2 : ¬cond2 i) (hc3 : cond3 i) (x0 x1 : Vec F S1x768x768 .bf16) (x2 : Vec F S1x1x768 .f32) (x3 : Vec F S2048x768 .f32) (xM : Vec F S768x768 .f32) (xR : Vec F S1x768 .f32) :
    outC c i arg1 harg1 arg2 harg2 arg3 harg3 arg4 harg4 arg5 harg5 arg6 harg6 arg7 harg7 hc1 hc2 hc3 x0 x1 x2 x3 xM xR = k0_pay8 x3 xM xR := by
  unfold outC
  rw [View.read_writes_eq_canon _ _ _ (coverC_O c i arg1 harg1 arg2 harg2 arg3 harg3 arg4 harg4 arg5 harg5 arg6 harg6 arg7 harg7 hc1 hc2 hc3 x0 x1 x2 x3 xM xR)]
  unfold runC
  dsimp only
  sl_unfold_words
  rw [View.canon_unit_zero hz]
  simp only [View.readAt_eq_ld, harg1.read_unread, harg2.read_unread, harg3.read_unread, harg4.read_unread, harg5.read_unread, harg6.read_unread, harg7.read_unread, View.ld_unit_zero (S := S1x768x768) hz3, View.ld_unit_zero (S := S1x1x768) hz3, View.ld_unit_zero (S := S2048x768) hz, View.ld_unit_zero (S := S768x768) hz, View.ld_unit_zero (S := S1x768) hz]

end Cert.KernelIdeal.Fr

end
-- ==== Proof.KI.Pay.lean ====
/-
  Each value the chain kernel's body stores, read at one index, as arithmetic on extended reals.

  At the ideal values a change of float format is the identity and every operation is the exact one, so the stored
  values are: the sum of the two halves of a weight matrix (the seed of the running product), the bias row (the seed
  of the running bias), the product of a weight matrix — given as two halves — with the running product, the running
  bias row times a weight matrix's transpose plus the layer's bias, and a block of rows times the finished product's
  transpose plus the finished bias row.  A product into the zero accumulator read at an index is the sum over the
  one contracted axis of the operands' products; the sum is re-indexed by that axis's coordinate.
-/
import proofs.«141492_g79869211837047_cont_9to1_m_368_30_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-! ## The payloads without a product -/

/-- The seed of the running product at (a, c): the two halves of the layer's weight matrix added. -/
theorem pay4_apply (v0 v2 : Vec Ideal S1x768x768 .bf16) (a c : Fin 768) :
    (k0_pay4 (F := Ideal) v0 v2) (ix2 a c) = v0 (ix3 (0 : Fin 1) a c) + v2 (ix3 (0 : Fin 1) a c) := by
  unfold k0_pay4 k0_pay1 k0_pay2
  rw [shapeCast_self, addf_apply, extf_apply, extf_apply, shapeCast_1ab_ab_apply, shapeCast_1ab_ab_apply]

/-- The seed of the running bias row at q: the layer's bias. -/
theorem pay5_apply (v4 : Vec Ideal S1x1x768 .f32) (q : Fin 768) :
    (k0_pay5 (F := Ideal) v4) (ix2 (0 : Fin 1) q) = v4 (ix3 (0 : Fin 1) (0 : Fin 1) q) := by
  unfold k0_pay5 k0_pay3
  rw [shapeCast_self, shapeCast_1ab_ab_apply]

/-! ## The square product: left axis 1 against right axis 0 -/

/-- The left operand's row is the result's row … -/
theorem sq_lhs_0 (j : S768x768.Idx) (k : dot_S768x768_S768x768_S768x768_1_0_0_1_n_n.contr.Idx) :
    (dot_S768x768_S768x768_S768x768_1_0_0_1_n_n.lhsIdx j k (0 : Fin 2)).val = (j (0 : Fin 2)).val := rfl

/-- … its column the contracted coordinate; -/
theorem sq_lhs_1 (j : S768x768.Idx) (k : dot_S768x768_S768x768_S768x768_1_0_0_1_n_n.contr.Idx) :
    (dot_S768x768_S768x768_S768x768_1_0_0_1_n_n.lhsIdx j k (1 : Fin 2)).val = (k ⟨0, by decide⟩).val := rfl

/-- the right operand's row is the contracted coordinate … -/
theorem sq_rhs_0 (j : S768x768.Idx) (k : dot_S768x768_S768x768_S768x768_1_0_0_1_n_n.contr.Idx) :
    (dot_S768x768_S768x768_S768x768_1_0_0_1_n_n.rhsIdx j k (0 : Fin 2)).val = (k ⟨0, by decide⟩).val := rfl

/-- … and its column the result's column. -/
theorem sq_rhs_1 (j : S768x768.Idx) (k : dot_S768x768_S768x768_S768x768_1_0_0_1_n_n.contr.Idx) :
    (dot_S768x768_S768x768_S768x768_1_0_0_1_n_n.rhsIdx j k (1 : Fin 2)).val = (j (1 : Fin 2)).val := rfl

/-- The square product into the zero accumulator, read at (a, c): the sum over j of L[a, j] · R[j, c]. -/
theorem sq_matmul_apply {φ₁ φ₂ : FTy} (L : FVec Ideal S768x768 φ₁) (R : FVec Ideal S768x768 φ₂) (a c : Fin 768) :
    matmul (F := Ideal) dot_S768x768_S768x768_S768x768_1_0_0_1_n_n none L R
        (constant (F := Ideal) S768x768 .f32 0x00000000#32) (ix2 a c)
      = ∑ j : Fin 768, L (ix2 a j) * R (ix2 j c) := by
  refine (Ideal.matmul_constant_zero_apply dot_S768x768_S768x768_S768x768_1_0_0_1_n_n none L R (ix2 a c)).trans ?_
  rw [← Equiv.sum_comp (contrEquiv1 dot_S768x768_S768x768_S768x768_1_0_0_1_n_n 768 rfl rfl).symm]
  refine Finset.sum_congr rfl fun j _ => ?_
  have hk := contrEquiv1_symm_val dot_S768x768_S768x768_S768x768_1_0_0_1_n_n 768 rfl rfl j
  have hl : dot_S768x768_S768x768_S768x768_1_0_0_1_n_n.lhsIdx (ix2 a c)
      ((contrEquiv1 dot_S768x768_S768x768_S768x768_1_0_0_1_n_n 768 rfl rfl).symm j) = ix2 a j := by
    funext ax
    match ax with
    | ⟨0, _⟩ => exact Fin.ext (sq_lhs_0 _ _)
    | ⟨1, _⟩ => exact Fin.ext ((sq_lhs_1 _ _).trans hk)
  have hr : dot_S768x768_S768x768_S768x768_1_0_0_1_n_n.rhsIdx (ix2 a c)
      ((contrEquiv1 dot_S768x768_S768x768_S768x768_1_0_0_1_n_n 768 rfl rfl).symm j) = ix2 j c := by
    funext ax
    match ax with
    | ⟨0, _⟩ => exact Fin.ext ((sq_rhs_0 _ _).trans hk)
    | ⟨1, _⟩ => exact Fin.ext (sq_rhs_1 _ _)
  rw [hl, hr]

/-! ## The row product: one row against a matrix's rows (axis 1 against axis 1) -/

/-- The left operand's row is the result's row … -/
theorem row_lhs_0 (j : S1x768.Idx) (k : dot_S1x768_S768x768_S1x768_1_1_0_0_n_n.contr.Idx) :
    (dot_S1x768_S768x768_S1x768_1_1_0_0_n_n.lhsIdx j k (0 : Fin 2)).val = (j (0 : Fin 2)).val := rfl

/-- … its column the contracted coordinate; -/
theorem row_lhs_1 (j : S1x768.Idx) (k : dot_S1x768_S768x768_S1x768_1_1_0_0_n_n.contr.Idx) :
    (dot_S1x768_S768x768_S1x768_1_1_0_0_n_n.lhsIdx j k (1 : Fin 2)).val = (k ⟨0, by decide⟩).val := rfl

/-- the right operand's row is the result's column … -/
theorem row_rhs_0 (j : S1x768.Idx) (k : dot_S1x768_S768x768_S1x768_1_1_0_0_n_n.contr.Idx) :
    (dot_S1x768_S768x768_S1x768_1_1_0_0_n_n.rhsIdx j k (0 : Fin 2)).val = (j (1 : Fin 2)).val := rfl

/-- … and its column the contracted coordinate. -/
theorem row_rhs_1 (j : S1x768.Idx) (k : dot_S1x768_S768x768_S1x768_1_1_0_0_n_n.contr.Idx) :
    (dot_S1x768_S768x768_S1x768_1_1_0_0_n_n.rhsIdx j k (1 : Fin 2)).val = (k ⟨0, by decide⟩).val := rfl

/-- The row product into the zero accumulator, read at (0, q): the sum over j of L[0, j] · R[q, j]. -/
theorem row_matmul_apply {φ₁ φ₂ : FTy} (L : FVec Ideal S1x768 φ₁) (R : FVec Ideal S768x768 φ₂) (q : Fin 768) :
    matmul (F := Ideal) dot_S1x768_S768x768_S1x768_1_1_0_0_n_n none L R
        (constant (F := Ideal) S1x768 .f32 0x00000000#32) (ix2 (0 : Fin 1) q)
      = ∑ j : Fin 768, L (ix2 (0 : Fin 1) j) * R (ix2 q j) := by
  refine (Ideal.matmul_constant_zero_apply dot_S1x768_S768x768_S1x768_1_1_0_0_n_n none L R (ix2 (0 : Fin 1) q)).trans ?_
  rw [← Equiv.sum_comp (contrEquiv1 dot_S1x768_S768x768_S1x768_1_1_0_0_n_n 768 rfl rfl).symm]
  refine Finset.sum_congr rfl fun j _ => ?_
  have hk := contrEquiv1_symm_val dot_S1x768_S768x768_S1x768_1_1_0_0_n_n 768 rfl rfl j
  have hl : dot_S1x768_S768x768_S1x768_1_1_0_0_n_n.lhsIdx (ix2 (0 : Fin 1) q)
      ((contrEquiv1 dot_S1x768_S768x768_S1x768_1_1_0_0_n_n 768 rfl rfl).symm j) = ix2 (0 : Fin 1) j := by
    funext ax
    match ax with
    | ⟨0, _⟩ => exact Fin.ext (row_lhs_0 _ _)
    | ⟨1, _⟩ => exact Fin.ext ((row_lhs_1 _ _).trans hk)
  have hr : dot_S1x768_S768x768_S1x768_1_1_0_0_n_n.rhsIdx (ix2 (0 : Fin 1) q)
      ((contrEquiv1 dot_S1x768_S768x768_S1x768_1_1_0_0_n_n 768 rfl rfl).symm j) = ix2 q j := by
    funext ax
    match ax with
    | ⟨0, _⟩ => exact Fin.ext (row_rhs_0 _ _)
    | ⟨1, _⟩ => exact Fin.ext ((row_rhs_1 _ _).trans hk)
  rw [hl, hr]

/-! ## The block product: 2048 rows against a matrix's rows (axis 1 against axis 1) -/

/-- The left operand's row is the result's row … -/
theorem blk_lhs_0 (j : S2048x768.Idx) (k : dot_S2048x768_S768x768_S2048x768_1_1_0_0_n_n.contr.Idx) :
    (dot_S2048x768_S768x768_S2048x768_1_1_0_0_n_n.lhsIdx j k (0 : Fin 2)).val = (j (0 : Fin 2)).val := rfl

/-- … its column the contracted coordinate; -/
theorem blk_lhs_1 (j : S2048x768.Idx) (k : dot_S2048x768_S768x768_S2048x768_1_1_0_0_n_n.contr.Idx) :
    (dot_S2048x768_S768x768_S2048x768_1_1_0_0_n_n.lhsIdx j k (1 : Fin 2)).val = (k ⟨0, by decide⟩).val := rfl

/-- the right operand's row is the result's column … -/
theorem blk_rhs_0 (j : S2048x768.Idx) (k : dot_S2048x768_S768x768_S2048x768_1_1_0_0_n_n.contr.Idx) :
    (dot_S2048x768_S768x768_S2048x768_1_1_0_0_n_n.rhsIdx j k (0 : Fin 2)).val = (j (1 : Fin 2)).val := rfl

/-- … and its column the contracted coordinate. -/
theorem blk_rhs_1 (j : S2048x768.Idx) (k : dot_S2048x768_S768x768_S2048x768_1_1_0_0_n_n.contr.Idx) :
    (dot_S2048x768_S768x768_S2048x768_1_1_0_0_n_n.rhsIdx j k (1 : Fin 2)).val = (k ⟨0, by decide⟩).val := rfl

/-- The block product into the zero accumulator, read at (p, q): the sum over j of L[p, j] · R[q, j]. -/
theorem blk_matmul_apply {φ₁ φ₂ : FTy} (L : FVec Ideal S2048x768 φ₁) (R : FVec Ideal S768x768 φ₂) (p : Fin 2048) (q : Fin 768) :
    matmul (F := Ideal) dot_S2048x768_S768x768_S2048x768_1_1_0_0_n_n none L R
        (constant (F := Ideal) S2048x768 .f32 0x00000000#32) (ix2 p q)
      = ∑ j : Fin 768, L (ix2 p j) * R (ix2 q j) := by
  refine (Ideal.matmul_constant_zero_apply dot_S2048x768_S768x768_S2048x768_1_1_0_0_n_n none L R (ix2 p q)).trans ?_
  rw [← Equiv.sum_comp (contrEquiv1 dot_S2048x768_S768x768_S2048x768_1_1_0_0_n_n 768 rfl rfl).symm]
  refine Finset.sum_congr rfl fun j _ => ?_
  have hk := contrEquiv1_symm_val dot_S2048x768_S768x768_S2048x768_1_1_0_0_n_n 768 rfl rfl j
  have hl : dot_S2048x768_S768x768_S2048x768_1_1_0_0_n_n.lhsIdx (ix2 p q)
      ((contrEquiv1 dot_S2048x768_S768x768_S2048x768_1_1_0_0_n_n 768 rfl rfl).symm j) = ix2 p j := by
    funext ax
    match ax with
    | ⟨0, _⟩ => exact Fin.ext (blk_lhs_0 _ _)
    | ⟨1, _⟩ => exact Fin.ext ((blk_lhs_1 _ _).trans hk)
  have hr : dot_S2048x768_S768x768_S2048x768_1_1_0_0_n_n.rhsIdx (ix2 p q)
      ((contrEquiv1 dot_S2048x768_S768x768_S2048x768_1_1_0_0_n_n 768 rfl rfl).symm j) = ix2 q j := by
    funext ax
    match ax with
    | ⟨0, _⟩ => exact Fin.ext (blk_rhs_0 _ _)
    | ⟨1, _⟩ => exact Fin.ext ((blk_rhs_1 _ _).trans hk)
  rw [hl, hr]

/-! ## The payloads with a product -/

/-- The result block at (p, q): row p of the tokens against row q of the finished product, plus the finished bias at q. -/
theorem pay8_apply (v17 : Vec Ideal S2048x768 .f32) (v18 : Vec Ideal S768x768 .f32) (v20 : Vec Ideal S1x768 .f32)
    (p : Fin 2048) (q : Fin 768) :
    (k0_pay8 (F := Ideal) v17 v18 v20) (ix2 p q)
      = (∑ j : Fin 768, v17 (ix2 p j) * v18 (ix2 q j)) + v20 (ix2 (0 : Fin 1) q) := by
  unfold k0_pay8
  rw [addf_apply, blk_matmul_apply, broadcastTo_1b_ab_apply, shapeCast_a_1a_apply, shapeCast_1a_a_apply]

/-- The next bias row at q: the running bias row against row q of the layer's first half, plus the layer's bias at q. -/
theorem pay7_apply (v0 : Vec Ideal S1x768x768 .bf16) (v4 : Vec Ideal S1x1x768 .f32) (v30 : Vec Ideal S1x768 .f32) (q : Fin 768) :
    (k0_pay7 (F := Ideal) v0 v4 v30) (ix2 (0 : Fin 1) q)
      = (∑ j : Fin 768, v30 (ix2 (0 : Fin 1) j) * v0 (ix3 (0 : Fin 1) q j)) + v4 (ix3 (0 : Fin 1) (0 : Fin 1) q) := by
  unfold k0_pay7 k0_pay1 k0_pay3
  rw [shapeCast_self, addf_apply, row_matmul_apply, shapeCast_1ab_ab_apply]
  refine congrArg (· + _) (Finset.sum_congr rfl fun j _ => ?_)
  rw [truncf_apply, shapeCast_1ab_ab_apply]

/-- The next running product at (a, c): the first half times the running product, plus the first half times the running
    product's difference from itself and the second half times the running product. -/
theorem pay6_apply (v0 v2 : Vec Ideal S1x768x768 .bf16) (v17 : Vec Ideal S768x768 .f32) (a c : Fin 768) :
    (k0_pay6 (F := Ideal) v0 v2 v17) (ix2 a c)
      = (∑ j : Fin 768, v0 (ix3 (0 : Fin 1) a j) * v17 (ix2 j c))
        + ((∑ j : Fin 768, v0 (ix3 (0 : Fin 1) a j) * (v17 (ix2 j c) - v17 (ix2 j c)))
           + ∑ j : Fin 768, v2 (ix3 (0 : Fin 1) a j) * v17 (ix2 j c)) := by
  unfold k0_pay6 k0_pay1 k0_pay2
  rw [shapeCast_self, addf_apply, addf_apply, sq_matmul_apply, sq_matmul_apply, sq_matmul_apply]
  refine congrArg₂ (· + ·) (Finset.sum_congr rfl fun j _ => ?_)
    (congrArg₂ (· + ·) (Finset.sum_congr rfl fun j _ => ?_) (Finset.sum_congr rfl fun j _ => ?_))
  · rw [shapeCast_1ab_ab_apply, truncf_apply]
  · rw [shapeCast_1ab_ab_apply, truncf_apply, subf_apply]
  · rw [shapeCast_1ab_ab_apply, truncf_apply]

end Cert.KernelIdeal.Pay

end
-- ==== Proof.Spec.lean ====
/-
  The mathematics of the certificate, stated over the reals and free of either program.

  Twenty affine layers h ↦ h · Wₖᵀ + bₖ with no activation between them collapse to one affine map:
  with M₀ = W₀, Mₖ₊₁ = Wₖ₊₁ · Mₖ and r₀ = b₀, rₖ₊₁ = rₖ · Wₖ₊₁ᵀ + bₖ₊₁ the k-th activation is
  hₖ = x · Mₖᵀ + rₖ.  The kernel computes the right-hand side (the product chain first, then one product
  with x), the reference the left-hand side (layer after layer).
-/
import Idealize.ShloMosaic.Lib.ValueIdx
import Idealize.ShloMosaic.PureOps.Ideal

noncomputable section

namespace Cert.Chain

open Idealize.ShloMosaic Idealize.ShloMosaic.ValueIdx

/-- The running product of the weight matrices: M₀ = W₀, Mₖ₊₁ = Wₖ₊₁ · Mₖ. -/
def Mc {n : ℕ} (W : ℕ → Fin n → Fin n → ℝ) : ℕ → Fin n → Fin n → ℝ
  | 0 => W 0
  | k + 1 => fun a c => ∑ j, W (k + 1) a j * Mc W k j c

/-- The running bias row: r₀ = b₀, rₖ₊₁ = rₖ · Wₖ₊₁ᵀ + bₖ₊₁. -/
def rc {n : ℕ} (W : ℕ → Fin n → Fin n → ℝ) (b : ℕ → Fin n → ℝ) : ℕ → Fin n → ℝ
  | 0 => b 0
  | k + 1 => fun q => (∑ j, rc W b k j * W (k + 1) q j) + b (k + 1) q

/-- The activations of the layered network: h₀ = x · W₀ᵀ + b₀, hₖ₊₁ = hₖ · Wₖ₊₁ᵀ + bₖ₊₁. -/
def hc {n : ℕ} {ι : Type} (W : ℕ → Fin n → Fin n → ℝ) (b : ℕ → Fin n → ℝ) (x : ι → Fin n → ℝ) : ℕ → ι → Fin n → ℝ
  | 0 => fun p q => (∑ j, x p j * W 0 q j) + b 0 q
  | k + 1 => fun p q => (∑ j, hc W b x k p j * W (k + 1) q j) + b (k + 1) q

/-- Layer k of a stacked weight array [20, 768, 768] (zero past the stack). -/
def Wn (Wr : (⟨3, ![20, 768, 768]⟩ : Shape).Idx → ℝ) (k : ℕ) (a c : Fin 768) : ℝ :=
  if h : k < 20 then Wr (ix3 (⟨k, h⟩ : Fin 20) a c) else 0

/-- Row k of a stacked bias array [20, 768] (zero past the stack). -/
def bn (br : (⟨2, ![20, 768]⟩ : Shape).Idx → ℝ) (k : ℕ) (q : Fin 768) : ℝ :=
  if h : k < 20 then br (ix2 (⟨k, h⟩ : Fin 20) q) else 0

/-- The token array [32768, 768] by row and column. -/
def xm (xr : (⟨2, ![32768, 768]⟩ : Shape).Idx → ℝ) (p : Fin 32768) (j : Fin 768) : ℝ := xr (ix2 p j)

/-- The common value of both programs' result: entry (p, q) is ∑ⱼ x[p, j] · M₁₉[q, j] + r₁₉[q]. -/
def G (xr : (⟨2, ![32768, 768]⟩ : Shape).Idx → ℝ) (Wr : (⟨3, ![20, 768, 768]⟩ : Shape).Idx → ℝ)
    (br : (⟨2, ![20, 768]⟩ : Shape).Idx → ℝ) : (⟨2, ![32768, 768]⟩ : Shape).Idx → EReal :=
  fun i => (((∑ j, xm xr (i 0) j * Mc (Wn Wr) 19 (i 1) j) + rc (Wn Wr) (bn br) 19 (i 1) : ℝ) : EReal)

end Cert.Chain

end
-- ==== Proof.SpecLemmas.lean ====
/-
  Consequences of the definitions of the chain: the layered activations equal the collapsed affine map,
  and the passage from real sums to extended-real sums used when reading either program at an index.
-/
import proofs.«141492_g79869211837047_cont_9to1_m_368_30_alg».proof.Proof.Spec
import Mathlib.Algebra.BigOperators.Ring.Finset
import Mathlib.Data.EReal.Operations

noncomputable section

namespace Cert.Chain

open Idealize.ShloMosaic Idealize.ShloMosaic.ValueIdx

/-- The k-th activation of the layered network is x · Mₖᵀ + rₖ.  Induction on k: distribute the product
over the sum, exchange the two summations, and regroup. -/
theorem hc_eq {n : ℕ} {ι : Type} (W : ℕ → Fin n → Fin n → ℝ) (b : ℕ → Fin n → ℝ) (x : ι → Fin n → ℝ)
    (k : ℕ) (p : ι) (q : Fin n) :
    hc W b x k p q = (∑ j, x p j * Mc W k q j) + rc W b k q := by
  induction k generalizing q with
  | zero => simp only [hc, Mc, rc]
  | succ k ih =>
    simp only [hc, Mc, rc]
    simp only [ih]
    simp only [add_mul, Finset.sum_add_distrib, Finset.sum_mul, Finset.mul_sum]
    rw [Finset.sum_comm, add_assoc]
    congr 1
    refine Finset.sum_congr rfl fun i _ => Finset.sum_congr rfl fun j _ => ?_
    ring

/-- The embedding of the reals in the extended reals commutes with finite sums. -/
theorem coe_sum_finset {ι : Type} (s : Finset ι) (f : ι → ℝ) :
    (∑ j ∈ s, ((f j : ℝ) : EReal)) = ((∑ j ∈ s, f j : ℝ) : EReal) := by
  classical
  refine Finset.induction_on s (by simp) ?_
  intro a s ha ih
  rw [Finset.sum_insert ha, Finset.sum_insert ha, ih, EReal.coe_add]

theorem coe_sum {n : ℕ} (f : Fin n → ℝ) : (∑ j, ((f j : ℝ) : EReal)) = ((∑ j, f j : ℝ) : EReal) :=
  coe_sum_finset Finset.univ f

/-- A dot product of embedded reals is the embedded real dot product. -/
theorem coe_dot {n : ℕ} (f g : Fin n → ℝ) :
    (∑ j, ((f j : ℝ) : EReal) * ((g j : ℝ) : EReal)) = ((∑ j, f j * g j : ℝ) : EReal) := by
  rw [← coe_sum]
  exact Finset.sum_congr rfl fun j _ => (EReal.coe_mul (f j) (g j)).symm

/-- A finite value minus itself is zero. -/
theorem sub_self_coe (a : ℝ) : ((a : ℝ) : EReal) - ((a : ℝ) : EReal) = 0 := by
  rw [← EReal.coe_sub, sub_self, EReal.coe_zero]

/-- A finite value plus its own (vanishing) remainder is itself. -/
theorem seed_coe (w : ℝ) : ((w : ℝ) : EReal) + (((w : ℝ) : EReal) - ((w : ℝ) : EReal)) = ((w : ℝ) : EReal) := by
  rw [sub_self_coe, add_zero]

/-- Three passes of a split product: the main pass is the dot product, and both correction passes vanish
because each finite factor minus itself is zero. -/
theorem three_pass {n : ℕ} (w g : Fin n → ℝ) :
    (∑ j, ((w j : ℝ) : EReal) * ((g j : ℝ) : EReal))
      + ((∑ j, ((w j : ℝ) : EReal) * (((g j : ℝ) : EReal) - ((g j : ℝ) : EReal)))
         + ∑ j, (((w j : ℝ) : EReal) - ((w j : ℝ) : EReal)) * ((g j : ℝ) : EReal))
      = ((∑ j, w j * g j : ℝ) : EReal) := by
  simp only [sub_self_coe, mul_zero, zero_mul, Finset.sum_const_zero, add_zero]
  exact coe_dot w g

/-- A dot product plus a finite bias, read in the reals. -/
theorem affine_coe {n : ℕ} (f g : Fin n → ℝ) (b : ℝ) :
    (∑ j, ((f j : ℝ) : EReal) * ((g j : ℝ) : EReal)) + ((b : ℝ) : EReal)
      = (((∑ j, f j * g j) + b : ℝ) : EReal) := by
  rw [coe_dot, ← EReal.coe_add]

/-- The common value is the last activation of the layered network. -/
theorem G_eq_hc (xr : (⟨2, ![32768, 768]⟩ : Shape).Idx → ℝ) (Wr : (⟨3, ![20, 768, 768]⟩ : Shape).Idx → ℝ)
    (br : (⟨2, ![20, 768]⟩ : Shape).Idx → ℝ) :
    G xr Wr br = fun i => ((hc (Wn Wr) (bn br) (xm xr) 19 (i 0) (i 1) : ℝ) : EReal) := by
  funext i
  exact congrArg (fun r : ℝ => (r : EReal)) (hc_eq (Wn Wr) (bn br) (xm xr) 19 (i 0) (i 1)).symm

end Cert.Chain

end
-- ==== Proof.KI.Steps.lean ====
/-
  The body's five stored values at the exact instance, for real-valued operands.

  With every operand the coercion of a real array, each stored value is the coercion of the real expression
  the kernel's arithmetic spells: the seed W + (W − W) = W; the three-pass product
  W·M + (W·(M − M) + (W − W)·M) = W·M; the bias row r·Wᵀ + b; and the applied block x·Mᵀ + r.
  The differences W − W and M − M vanish because their operands are finite.
-/
import proofs.«141492_g79869211837047_cont_9to1_m_368_30_alg».proof.Proof.KI.Pay
import proofs.«141492_g79869211837047_cont_9to1_m_368_30_alg».proof.Proof.SpecLemmas

noncomputable section

namespace Cert.KernelIdeal.Steps

open Cert.KernelIdeal Cert.KernelIdeal.Gen Idealize.ShloMosaic Idealize.ShloMosaic.ValueIdx Cert.Chain

/-- The seeded product: the two halves of the first layer's weights add up to the weights. -/
theorem seedM (v0 v2 : Vec Ideal S1x768x768 .bf16) (w : Fin 768 → Fin 768 → ℝ)
    (h0 : ∀ a j, v0 (ix3 (0 : Fin 1) a j) = ((w a j : ℝ) : EReal))
    (h2 : ∀ a j, v2 (ix3 (0 : Fin 1) a j) = ((w a j : ℝ) : EReal) - ((w a j : ℝ) : EReal)) (a cc : Fin 768) :
    (k0_pay4 (F := Ideal) v0 v2) (ix2 a cc) = ((w a cc : ℝ) : EReal) := by
  rw [Pay.pay4_apply, h0, h2]; exact seed_coe _

/-- The seeded bias row: the first layer's bias. -/
theorem seedR (v4 : Vec Ideal S1x1x768 .f32) (b : Fin 768 → ℝ)
    (h4 : ∀ q, v4 (ix3 (0 : Fin 1) (0 : Fin 1) q) = ((b q : ℝ) : EReal)) (q : Fin 768) :
    (k0_pay5 (F := Ideal) v4) (ix2 (0 : Fin 1) q) = ((b q : ℝ) : EReal) := by
  rw [Pay.pay5_apply, h4]

/-- One layer multiplied into the product: W · M, from the three passes. -/
theorem stepM (v0 v2 : Vec Ideal S1x768x768 .bf16) (vM : Vec Ideal S768x768 .f32) (w g : Fin 768 → Fin 768 → ℝ)
    (h0 : ∀ a j, v0 (ix3 (0 : Fin 1) a j) = ((w a j : ℝ) : EReal))
    (h2 : ∀ a j, v2 (ix3 (0 : Fin 1) a j) = ((w a j : ℝ) : EReal) - ((w a j : ℝ) : EReal))
    (hM : ∀ j cc, vM (ix2 j cc) = ((g j cc : ℝ) : EReal)) (a cc : Fin 768) :
    (k0_pay6 (F := Ideal) v0 v2 vM) (ix2 a cc) = ((∑ j, w a j * g j cc : ℝ) : EReal) := by
  rw [Pay.pay6_apply]
  simp only [h0, h2, hM]
  exact three_pass (fun j => w a j) (fun j => g j cc)

/-- One layer applied to the bias row: r · Wᵀ + b. -/
theorem stepR (v0 : Vec Ideal S1x768x768 .bf16) (v4 : Vec Ideal S1x1x768 .f32) (vR : Vec Ideal S1x768 .f32)
    (w : Fin 768 → Fin 768 → ℝ) (b r : Fin 768 → ℝ)
    (h0 : ∀ a j, v0 (ix3 (0 : Fin 1) a j) = ((w a j : ℝ) : EReal))
    (h4 : ∀ q, v4 (ix3 (0 : Fin 1) (0 : Fin 1) q) = ((b q : ℝ) : EReal))
    (hR : ∀ j, vR (ix2 (0 : Fin 1) j) = ((r j : ℝ) : EReal)) (q : Fin 768) :
    (k0_pay7 (F := Ideal) v0 v4 vR) (ix2 (0 : Fin 1) q) = (((∑ j, r j * w q j) + b q : ℝ) : EReal) := by
  rw [Pay.pay7_apply]
  simp only [h0, h4, hR]
  exact affine_coe (fun j => r j) (fun j => w q j) (b q)

/-- The finished map applied to a block of rows: x · Mᵀ + r. -/
theorem applyO (v3 : Vec Ideal S2048x768 .f32) (vM : Vec Ideal S768x768 .f32) (vR : Vec Ideal S1x768 .f32)
    (x : Fin 2048 → Fin 768 → ℝ) (g : Fin 768 → Fin 768 → ℝ) (r : Fin 768 → ℝ)
    (h3 : ∀ p j, v3 (ix2 p j) = ((x p j : ℝ) : EReal))
    (hM : ∀ q j, vM (ix2 q j) = ((g q j : ℝ) : EReal))
    (hR : ∀ q, vR (ix2 (0 : Fin 1) q) = ((r q : ℝ) : EReal)) (p : Fin 2048) (q : Fin 768) :
    (k0_pay8 (F := Ideal) v3 vM vR) (ix2 p q) = (((∑ j, x p j * g q j) + r q : ℝ) : EReal) := by
  rw [Pay.pay8_apply]
  simp only [h3, hM, hR]
  exact affine_coe (fun j => x p j) (fun j => g q j) (r q)

end Cert.KernelIdeal.Steps

end
-- ==== Proof.KI.Blocks.lean ====
/-
  The blocks of the chain kernel, read at an index.

  Before the region the host splits the stacked weights W into a rounded copy and a rounding residue and inserts a
  unit axis into the stacked biases.  At exact arithmetic rounding is the identity, so the rounded copy is W and the
  residue is W − W.  At grid point t the three layer windows hold layer min(t, 19) of these arrays, the token window
  holds rows (t − 20)·2048 … (t − 20)·2048 + 2047 of x (for t ≥ 20), and the output window writes the same rows of the
  result at the points 20 … 35; those sixteen row blocks tile the 32768 rows, so the result array is assembled from them.
-/
import proofs.«141492_g79869211837047_cont_9to1_m_368_30_alg».proof.Proof.Gen.KernelIdeal.Frame
import proofs.«141492_g79869211837047_cont_9to1_m_368_30_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Blk

open Cert.KernelIdeal Cert.KernelIdeal.Gen Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section
variable (m : (ℓ : Loc nD τ sig) → Buf (Elt Ideal) ℓ) (c : Dev nD)
  (xr : S32768x768.Idx → ℝ) (Wr : S20x768x768.Idx → ℝ) (br : S20x768.Idx → ℝ)
  (hx : m ((c : Thread nD τ).loc main_arg0) = fun i => ((xr i : ℝ) : EReal))
  (hW : m ((c : Thread nD τ).loc main_arg1) = fun i => ((Wr i : ℝ) : EReal))
  (hb : m ((c : Thread nD τ).loc main_arg2) = fun i => ((br i : ℝ) : EReal))

/-! ## The index maps, decided over the 36 grid points -/

/-- The three layer windows sit at layer min(t, 19), at the origin of the two matrix axes. -/
theorem idx_whi : ∀ t : Fin cfg0.N, win0_0.index t (0 : Fin 3) = min t.val 19 ∧ win0_0.index t (1 : Fin 3) = 0 ∧ win0_0.index t (2 : Fin 3) = 0 :=
  (by decide +kernel : ∀ t : Fin grid0.N, _)
theorem idx_wlo : ∀ t : Fin cfg0.N, win0_1.index t (0 : Fin 3) = min t.val 19 ∧ win0_1.index t (1 : Fin 3) = 0 ∧ win0_1.index t (2 : Fin 3) = 0 :=
  (by decide +kernel : ∀ t : Fin grid0.N, _)
theorem idx_b : ∀ t : Fin cfg0.N, win0_2.index t (0 : Fin 3) = min t.val 19 ∧ win0_2.index t (1 : Fin 3) = 0 ∧ win0_2.index t (2 : Fin 3) = 0 :=
  (by decide +kernel : ∀ t : Fin grid0.N, _)
/-- The token window and the output window sit at row block t − 20 (truncated at 0), column block 0. -/
theorem idx_x : ∀ t : Fin cfg0.N, win0_3.index t (0 : Fin 2) = t.val - 20 ∧ win0_3.index t (1 : Fin 2) = 0 :=
  (by decide +kernel : ∀ t : Fin grid0.N, _)
theorem idx_o : ∀ t : Fin cfg0.N, win0_4.index t (0 : Fin 2) = t.val - 20 ∧ win0_4.index t (1 : Fin 2) = 0 :=
  (by decide +kernel : ∀ t : Fin grid0.N, _)

/-! ## The arrays the host operations wrote before the region -/

/-- The rounded weights: at exact arithmetic rounding is the identity. -/
theorem arr_whi : (V m c main_call0_v1 : S20x768x768.Idx → EReal) = (V m c main_arg1 : S20x768x768.Idx → EReal) := by
  dsimp only [Gen.V, Gen.hostOps0]; after_results; rfl

/-- The stacked weights as the region finds them, at their literal type. -/
abbrev arrW : S20x768x768.Idx → EReal := V m c main_arg1

theorem arrW_eq : arrW m c = m ((c : Thread nD τ).loc main_arg1) := V_main_arg1 m c

/-- The rounding residue: the weights minus their (identical) rounded copy. -/
theorem arr_wlo : (V m c main_call0_v4 : S20x768x768.Idx → EReal) = fun i => arrW m c i - arrW m c i := by
  dsimp only [arrW, Gen.V, Gen.hostOps0]; after_results; rfl

/-- The biases with a unit axis inserted. -/
theorem arr_b : (V m c main_call0_v0 : S20x1x768.Idx → EReal)
    = shapeCast S20x1x768 (V m c main_arg2 : S20x768.Idx → EReal) shapeCasts_S20x768_S20x1x768 := by
  dsimp only [Gen.V, Gen.hostOps0]; after_results; rfl

/-! ## Each input window's block, read at an index -/

include hW in
/-- the high half of layer min(t,19)'s weights: the weights themselves -/
theorem whi_blk (t : Fin cfg0.N) (a cc : Fin 768) :
    (iblk m c 0 t : Vec Ideal S1x768x768 .bf16) (ix3 (0 : Fin 1) a cc) = ((Cert.Chain.Wn Wr (min t.val 19) a cc : ℝ) : EReal) := by
  have hk : min t.val 19 < 20 := by omega
  obtain ⟨e0, e1, e2⟩ := idx_whi t
  have h1 : (iblk m c 0 t : Vec Ideal S1x768x768 .bf16) (ix3 (0 : Fin 1) a cc)
      = (V m c main_call0_v1 : S20x768x768.Idx → EReal) (ix3 (⟨min t.val 19, hk⟩ : Fin 20) a cc) := by
    show V m c main_call0_v1 (((cfg0.win 0).blk t).view.emb (ix3 (0 : Fin 1) a cc)) = V m c main_call0_v1 _
    refine congrArg _ ?_
    funext d
    apply Fin.ext
    match d with
    | ⟨0, _⟩ => show win0_0.index t (0 : Fin 3) * 1 + 1 * 0 = min t.val 19; omega
    | ⟨1, _⟩ => show win0_0.index t (1 : Fin 3) * 768 + 1 * a.val = a.val; omega
    | ⟨2, _⟩ => show win0_0.index t (2 : Fin 3) * 768 + 1 * cc.val = cc.val; omega
  rw [h1, arr_whi, V_main_arg1, hW]
  unfold Cert.Chain.Wn
  rw [dif_pos hk]

include hW in
/-- the low half: W − W -/
theorem wlo_blk (t : Fin cfg0.N) (a cc : Fin 768) :
    (iblk m c 1 t : Vec Ideal S1x768x768 .bf16) (ix3 (0 : Fin 1) a cc)
      = ((Cert.Chain.Wn Wr (min t.val 19) a cc : ℝ) : EReal) - ((Cert.Chain.Wn Wr (min t.val 19) a cc : ℝ) : EReal) := by
  have hk : min t.val 19 < 20 := by omega
  obtain ⟨e0, e1, e2⟩ := idx_wlo t
  have h1 : (iblk m c 1 t : Vec Ideal S1x768x768 .bf16) (ix3 (0 : Fin 1) a cc)
      = (V m c main_call0_v4 : S20x768x768.Idx → EReal) (ix3 (⟨min t.val 19, hk⟩ : Fin 20) a cc) := by
    show V m c main_call0_v4 (((cfg0.win 1).blk t).view.emb (ix3 (0 : Fin 1) a cc)) = V m c main_call0_v4 _
    refine congrArg _ ?_
    funext d
    apply Fin.ext
    match d with
    | ⟨0, _⟩ => show win0_1.index t (0 : Fin 3) * 1 + 1 * 0 = min t.val 19; omega
    | ⟨1, _⟩ => show win0_1.index t (1 : Fin 3) * 768 + 1 * a.val = a.val; omega
    | ⟨2, _⟩ => show win0_1.index t (2 : Fin 3) * 768 + 1 * cc.val = cc.val; omega
  rw [h1, arr_wlo, arrW_eq, hW]
  unfold Cert.Chain.Wn
  rw [dif_pos hk]

include hb in
theorem b_blk (t : Fin cfg0.N) (q : Fin 768) :
    (iblk m c 2 t : Vec Ideal S1x1x768 .f32) (ix3 (0 : Fin 1) (0 : Fin 1) q) = ((Cert.Chain.bn br (min t.val 19) q : ℝ) : EReal) := by
  have hk : min t.val 19 < 20 := by omega
  obtain ⟨e0, e1, e2⟩ := idx_b t
  have h1 : (iblk m c 2 t : Vec Ideal S1x1x768 .f32) (ix3 (0 : Fin 1) (0 : Fin 1) q)
      = (V m c main_call0_v0 : S20x1x768.Idx → EReal) (ix3 (⟨min t.val 19, hk⟩ : Fin 20) (0 : Fin 1) q) := by
    show V m c main_call0_v0 (((cfg0.win 2).blk t).view.emb (ix3 (0 : Fin 1) (0 : Fin 1) q)) = V m c main_call0_v0 _
    refine congrArg _ ?_
    funext d
    apply Fin.ext
    match d with
    | ⟨0, _⟩ => show win0_2.index t (0 : Fin 3) * 1 + 1 * 0 = min t.val 19; omega
    | ⟨1, _⟩ => show win0_2.index t (1 : Fin 3) * 1 + 1 * 0 = 0; omega
    | ⟨2, _⟩ => show win0_2.index t (2 : Fin 3) * 768 + 1 * q.val = q.val; omega
  rw [h1, arr_b]
  refine (shapeCast_apply _ _ _ (ix2 (⟨min t.val 19, hk⟩ : Fin 20) q)
    (by rw [Shape.rowMajor_val_two, Shape.rowMajor_val_three]
        show min t.val 19 * 768 + q.val = (min t.val 19 * 1 + 0) * 768 + q.val
        omega)).trans ?_
  rw [V_main_arg2, hb]
  unfold Cert.Chain.bn
  rw [dif_pos hk]

include hx in
theorem x_blk (t : Fin cfg0.N) (ht : 20 ≤ t.val) (p : Fin 2048) (j : Fin 768) :
    (iblk m c 3 t : Vec Ideal S2048x768 .f32) (ix2 p j)
      = ((Cert.Chain.xm xr ⟨(t.val - 20) * 2048 + p.val, by have := t.isLt; have : cfg0.N = 36 := Gen.N_0; omega⟩ j : ℝ) : EReal) := by
  obtain ⟨e0, e1⟩ := idx_x t
  have h1 : (iblk m c 3 t : Vec Ideal S2048x768 .f32) (ix2 p j)
      = (V m c main_arg0 : S32768x768.Idx → EReal)
          (ix2 (⟨(t.val - 20) * 2048 + p.val, by have := t.isLt; have : cfg0.N = 36 := Gen.N_0; omega⟩ : Fin 32768) j) := by
    show V m c main_arg0 (((cfg0.win 3).blk t).view.emb (ix2 p j)) = V m c main_arg0 _
    refine congrArg _ ?_
    funext d
    apply Fin.ext
    match d with
    | ⟨0, _⟩ => show win0_3.index t (0 : Fin 2) * 2048 + 1 * p.val = (t.val - 20) * 2048 + p.val; omega
    | ⟨1, _⟩ => show win0_3.index t (1 : Fin 2) * 768 + 1 * j.val = j.val; omega
  rw [h1, V_main_arg0, hx]
  rfl

/-! ## The output array, assembled from the blocks written back -/

/-- The output window writes its block back exactly at the points 20 … 35. -/
theorem flush_o : ∀ t : Fin cfg0.N, (cfg0.win 4).flush t = true ↔ 20 ≤ t.val :=
  (by decide +kernel : ∀ t : Fin grid0.N, _)

/-- An index of the output array lies in point t's block iff each coordinate lies in the block's range on its axis. -/
theorem mem_blk_o (t : Fin cfg0.N) (i : S32768x768.Idx) :
    i ∈ ((cfg0.win 4).blk t).view.set ↔ ∀ a : Fin 2, win0_4.index t a * S2048x768.size a ≤ (i a).val ∧ (i a).val < win0_4.index t a * S2048x768.size a + S2048x768.size a := by
  show i ∈ ((View.whole main_v0).slice (win0_4.rect t)).set ↔ _
  rw [View.set_slice_whole, Rect.mem_set_unit]
  exact Iff.rfl

/-- Row r of the output is covered by the point 20 + r / 2048. -/
theorem cover_o (i : S32768x768.Idx) : ∃ t : Fin cfg0.N, (cfg0.win 4).flush t = true ∧ i ∈ ((cfg0.win 4).blk t).view.set := by
  have hN : cfg0.N = 36 := Gen.N_0
  have hi0 : (i 0).val < 32768 := (i 0).isLt
  have hi1 : (i 1).val < 768 := (i 1).isLt
  have htN : 20 + (i 0).val / 2048 < cfg0.N := by rw [hN]; omega
  obtain ⟨e0, e1⟩ := idx_o ⟨20 + (i 0).val / 2048, htN⟩
  refine ⟨⟨20 + (i 0).val / 2048, htN⟩, (flush_o _).mpr (Nat.le_add_right _ _), ?_⟩
  rw [mem_blk_o]
  intro a
  match a with
  | ⟨0, _⟩ =>
    show win0_4.index ⟨20 + (i 0).val / 2048, htN⟩ (0 : Fin 2) * 2048 ≤ (i 0).val ∧ (i 0).val < win0_4.index ⟨20 + (i 0).val / 2048, htN⟩ (0 : Fin 2) * 2048 + 2048
    rw [e0]
    show (20 + (i 0).val / 2048 - 20) * 2048 ≤ (i 0).val ∧ (i 0).val < (20 + (i 0).val / 2048 - 20) * 2048 + 2048
    omega
  | ⟨1, _⟩ =>
    show win0_4.index ⟨20 + (i 0).val / 2048, htN⟩ (1 : Fin 2) * 768 ≤ (i 1).val ∧ (i 1).val < win0_4.index ⟨20 + (i 0).val / 2048, htN⟩ (1 : Fin 2) * 768 + 768
    rw [e1]
    omega

/-- The output array after the run is G, provided every block written back (points 20 … 35) is the block of G. -/
theorem final_of_blocks (dat : Pipeline.Dat τ (Elt Ideal) Unit ℕ (UR sig nD τ) ℕ cfg0 c) (Gf : S32768x768.Idx → EReal)
    (hG : ∀ t : Fin cfg0.N, 20 ≤ t.val → ∀ (p : Fin 2048) (q : Fin 768),
        (dat.flushed 4 t : Vec Ideal S2048x768 .f32) (ix2 p q) = Gf (ix2 ⟨(t.val - 20) * 2048 + p.val, by have := t.isLt; have : cfg0.N = 36 := Gen.N_0; omega⟩ q)) :
    dat.arrAt 4 cfg0.N = Gf := by
  refine dat.arrAt_eq_of_cover 4 Gf (fun t hf => ?_) cover_o
  have ht : 20 ≤ t.val := (flush_o t).mp hf
  obtain ⟨e0, e1⟩ := idx_o t
  refine funext fun (y : S2048x768.Idx) => ?_
  obtain ⟨p, q, rfl⟩ : ∃ (p : Fin 2048) (q : Fin 768), y = ix2 p q := ⟨y 0, y 1, eq_ix2 y⟩
  refine (hG t ht p q).trans ?_
  show Gf _ = Gf (((cfg0.win 4).blk t).view.emb (ix2 p q))
  refine congrArg Gf ?_
  funext d
  apply Fin.ext
  match d with
  | ⟨0, _⟩ => show (t.val - 20) * 2048 + p.val = win0_4.index t (0 : Fin 2) * 2048 + 1 * p.val; omega
  | ⟨1, _⟩ => show q.val = win0_4.index t (1 : Fin 2) * 768 + 1 * q.val; omega

end

end Cert.KernelIdeal.Blk

end
-- ==== Proof.KI.Value.lean ====
/-
  The idealized kernel's result.

  For real-valued argument arrays the scratch buffers hold, after grid point n, the running product
  M_k and the running bias row r_k with k = min(n, 19) (induction on the point: the seeding case at 0, one
  layer per point up to 19, untouched afterwards); each apply point 20 + s then writes rows
  2048·s … 2048·s + 2047 of x · M₁₉ᵀ + r₁₉, and the sixteen blocks tile the result array.
-/
import proofs.«141492_g79869211837047_cont_9to1_m_368_30_alg».proof.Proof.KI.Frame
import proofs.«141492_g79869211837047_cont_9to1_m_368_30_alg».proof.Proof.KI.Pieces
import proofs.«141492_g79869211837047_cont_9to1_m_368_30_alg».proof.Proof.KI.Steps
import proofs.«141492_g79869211837047_cont_9to1_m_368_30_alg».proof.Proof.KI.Blocks

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem Cert.Chain

variable (m : (ℓ : Loc nD τ sig) → Buf (Elt Ideal) ℓ) (ρ : Dev nD → PrngReg) (c : Dev nD)
  (xr : S32768x768.Idx → ℝ) (Wr : S20x768x768.Idx → ℝ) (br : S20x768.Idx → ℝ)
  (hx : m ((c : Thread nD τ).loc main_arg0) = fun i => ((xr i : ℝ) : EReal))
  (hW : m ((c : Thread nD τ).loc main_arg1) = fun i => ((Wr i : ℝ) : EReal))
  (hb : m ((c : Thread nD τ).loc main_arg2) = fun i => ((br i : ℝ) : EReal))

include hW hb in
/-- After point n the product scratch holds M_k and the bias scratch r_k, k = min(n, 19). -/
theorem scratch_eq : ∀ (n : ℕ) (hn : n < cfg0.N),
    (∀ a cc : Fin 768, ((outsAt m c n hn).2.1 : Vec Ideal S768x768 .f32) (ix2 a cc) = ((Mc (Wn Wr) (min n 19) a cc : ℝ) : EReal))
    ∧ (∀ q : Fin 768, ((outsAt m c n hn).2.2 : Vec Ideal S1x768 .f32) (ix2 (0 : Fin 1) q) = ((rc (Wn Wr) (bn br) (min n 19) q : ℝ) : EReal))
  | 0, hn => by
    refine ⟨fun a cc => ?_, fun q => ?_⟩
    · rw [outsAt_A m c ⟨0, hn⟩ rfl]; dsimp only
      unfold MA; rw [soutA_M_eq]
      exact Steps.seedM _ _ (Wn Wr 0) (fun a j => Blk.whi_blk m c Wr hW ⟨0, hn⟩ a j) (fun a j => Blk.wlo_blk m c Wr hW ⟨0, hn⟩ a j) a cc
    · rw [outsAt_A m c ⟨0, hn⟩ rfl]; dsimp only
      unfold RA; rw [soutA_R_eq]
      exact Steps.seedR _ (bn br 0) (fun q => Blk.b_blk m c br hb ⟨0, hn⟩ q) q
  | n + 1, hn => by
    have hN : cfg0.N = 36 := N_0
    obtain ⟨ihM, ihR⟩ := scratch_eq n (Nat.lt_of_succ_lt hn)
    by_cases h : n + 1 < 20
    · have hk : min (n + 1) 19 = n + 1 := by omega
      have hk' : min n 19 = n := by omega
      refine ⟨fun a cc => ?_, fun q => ?_⟩
      · rw [outsAt_B m c ⟨n + 1, hn⟩ ⟨Nat.succ_pos n, h⟩]; dsimp only
        unfold MB; rw [soutB_M_eq, hk]
        exact Steps.stepM _ _ _ (Wn Wr (n + 1)) (Mc (Wn Wr) n)
          (fun a j => (Blk.whi_blk m c Wr hW ⟨n + 1, hn⟩ a j).trans (by rw [show min (⟨n + 1, hn⟩ : Fin cfg0.N).val 19 = n + 1 from hk]))
          (fun a j => (Blk.wlo_blk m c Wr hW ⟨n + 1, hn⟩ a j).trans (by rw [show min (⟨n + 1, hn⟩ : Fin cfg0.N).val 19 = n + 1 from hk]))
          (fun j cc => (ihM j cc).trans (by rw [hk'])) a cc
      · rw [outsAt_B m c ⟨n + 1, hn⟩ ⟨Nat.succ_pos n, h⟩]; dsimp only
        unfold RB; rw [soutB_R_eq, hk]
        exact Steps.stepR _ _ _ (Wn Wr (n + 1)) (bn br (n + 1)) (rc (Wn Wr) (bn br) n)
          (fun a j => (Blk.whi_blk m c Wr hW ⟨n + 1, hn⟩ a j).trans (by rw [show min (⟨n + 1, hn⟩ : Fin cfg0.N).val 19 = n + 1 from hk]))
          (fun q => (Blk.b_blk m c br hb ⟨n + 1, hn⟩ q).trans (by rw [show min (⟨n + 1, hn⟩ : Fin cfg0.N).val 19 = n + 1 from hk]))
          (fun j => (ihR j).trans (by rw [hk'])) q
    · have hk : min (n + 1) 19 = min n 19 := by omega
      refine ⟨fun a cc => ?_, fun q => ?_⟩
      · rw [outsAt_C m c ⟨n + 1, hn⟩ (Nat.le_of_not_lt h), hk]; dsimp only
        exact ihM a cc
      · rw [outsAt_C m c ⟨n + 1, hn⟩ (Nat.le_of_not_lt h), hk]; dsimp only
        exact ihR q

include hx hW hb in
/-- At an apply point the output buffer holds the point's block of rows of the common value G. -/
theorem out_eq (t : Fin cfg0.N) (ht : 20 ≤ t.val) (p : Fin 2048) (q : Fin 768) :
    ((outsAt m c t.val t.isLt).1 : Vec Ideal S2048x768 .f32) (ix2 p q)
      = G xr Wr br (ix2 ⟨(t.val - 20) * 2048 + p.val, by have := t.isLt; have : cfg0.N = 36 := N_0; omega⟩ q) := by
  have hN : cfg0.N = 36 := N_0
  obtain ⟨ihM, ihR⟩ := scratch_eq m c Wr br hW hb (t.val - 1) (Nat.lt_of_le_of_lt (Nat.sub_le _ _) t.isLt)
  have hk : min (t.val - 1) 19 = 19 := by omega
  rw [outsAt_C m c t ht]; dsimp only
  unfold OC; rw [outC_eq]
  exact Steps.applyO _ _ _ (fun p j => xm xr ⟨(t.val - 20) * 2048 + p.val, by have := t.isLt; omega⟩ j) (fun q j => Mc (Wn Wr) 19 q j) (rc (Wn Wr) (bn br) 19)
    (fun p j => Blk.x_blk m c xr hx t ht p j) (fun q j => (ihM q j).trans (by rw [hk])) (fun q => (ihR q).trans (by rw [hk])) p q

include hx hW hb in
/-- The result array after the run is G. -/
theorem final : (dats m 0 c).arrAt 4 cfg0.N = G xr Wr br :=
  Blk.final_of_blocks c (dats m 0 c) (G xr Wr br) (fun t ht p q => by
    show ((dats m 0 c).after 4 t : Vec Ideal S2048x768 .f32) (ix2 p q) = _
    rw [after4]
    exact out_eq m c xr Wr br hx hW hb t ht p q)

omit c xr Wr br hx hW hb in
/-- The run of the idealized kernel, read: the result array at G, the three argument arrays unchanged. -/
theorem run (xr : Dev nD → S32768x768.Idx → ℝ) (Wr : Dev nD → S20x768x768.Idx → ℝ) (br : Dev nD → S20x768.Idx → ℝ)
    (hreal : ∀ c : Dev nD,
      m ((c.tc : Thread nD τ).loc main_arg0) = (fun i => ((xr c i : ℝ) : EReal))
      ∧ m ((c.tc : Thread nD τ).loc main_arg1) = (fun i => ((Wr c i : ℝ) : EReal))
      ∧ m ((c.tc : Thread nD τ).loc main_arg2) = (fun i => ((br c i : ℝ) : EReal))) :
    θ_run (defs (F := Ideal)) (onTc (τ := τ) (main (F := Ideal))) ⟨m, fun _ => 0, ρ⟩ (fun r => ∀ c : Dev nD,
      r.2.mem ((c.tc : Thread nD τ).loc main_v0) = G (xr c) (Wr c) (br c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 4).trans (final m c (xr c) (Wr c) (br c) (hreal c).1 (hreal c).2.1 (hreal c).2.2),
      ((h c).1 3).trans (((dats m 0 c).arrAt_in 3 rfl _).trans ((A_eq m c 3).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.KernelIdeal.Val

end
-- ==== Proof.RefValue.lean ====
/-
  The reference program's result, read as mathematics.

  The reference applies twenty affine layers h ↦ h · Wₖᵀ + bₖ in turn.  Each layer is one function of the
  layer number; the run's composed term is the twenty-fold composition of that function; one layer applied to
  real-valued arrays is, index by index, the real affine map; hence the result is the twentieth activation of the
  layered network over the reals.
-/
import proofs.«141492_g79869211837047_cont_9to1_m_368_30_alg».proof.Proof.Gen.ReferenceIdeal.Run
import proofs.«141492_g79869211837047_cont_9to1_m_368_30_alg».proof.Proof.Spec
import Idealize.ShloMosaic.Lib.KernelVsHost
import Idealize.ShloMosaic.Lib.ValueLayout
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-! ## One layer, for every layer number -/

/-- Layer k of the weight stack is a block of it. -/
theorem sliceW (k : ℕ) (hk : k < 20) : S20x768x768.Slices ![k, 0, 0] S1x768x768 :=
  ⟨rfl, fun a => match a with
    | ⟨0, _⟩ => by show k + 1 ≤ 20; omega
    | ⟨1, _⟩ => by show 0 + 768 ≤ 768; omega
    | ⟨2, _⟩ => by show 0 + 768 ≤ 768; omega⟩

/-- Row k of the bias stack is a block of it. -/
theorem sliceB (k : ℕ) (hk : k < 20) : S20x768.Slices ![k, 0] S1x768 :=
  ⟨rfl, fun a => match a with
    | ⟨0, _⟩ => by show k + 1 ≤ 20; omega
    | ⟨1, _⟩ => by show 0 + 768 ≤ 768; omega⟩

section AnyFloat
variable {F : FTy → Type} [FloatOps F]

/-- One layer: h ↦ h · Wₖᵀ + bₖ, with Wₖ and bₖ cut from the stacks. -/
def layer (k : ℕ) (hW : S20x768x768.Slices ![k, 0, 0] S1x768x768) (hB : S20x768.Slices ![k, 0] S1x768)
    (H : (⟨S32768x768, .f32⟩ : BufTy).Contents (Elt F)) (W : (⟨S20x768x768, .f32⟩ : BufTy).Contents (Elt F))
    (B : (⟨S20x768, .f32⟩ : BufTy).Contents (Elt F)) : (⟨S32768x768, .f32⟩ : BufTy).Contents (Elt F) :=
  addf (Host.dotGeneral dot_S32768x768_S768x768_S32768x768_1_0_0_1_n_n none H
      (transpose S768x768 [1, 0] (shapeCast _ (extractStridedSlice S1x768x768 ![k, 0, 0] W hW) shapeCasts_S1x768x768_S768x768)
        transposes_S768x768_S768x768_1_0))
    (broadcastInDim S32768x768 ![0, 1] bcast_S1x768_S32768x768_0_1 (broadcastInDim S1x768 ![1] bcast_S768_S1x768_1
      (shapeCast _ (extractStridedSlice S1x768 ![k, 0] B hB) shapeCasts_S1x768_S768)))

/-- The first k + 1 layers applied in turn. -/
def net (x : (⟨S32768x768, .f32⟩ : BufTy).Contents (Elt F)) (W : (⟨S20x768x768, .f32⟩ : BufTy).Contents (Elt F))
    (B : (⟨S20x768, .f32⟩ : BufTy).Contents (Elt F)) : (k : ℕ) → k < 20 → (⟨S32768x768, .f32⟩ : BufTy).Contents (Elt F)
  | 0, h => layer 0 (sliceW 0 h) (sliceB 0 h) x W B
  | k + 1, h => layer (k + 1) (sliceW (k + 1) h) (sliceB (k + 1) h) (net x W B k (Nat.lt_of_succ_lt h)) W B

theorem net_zero (x : (⟨S32768x768, .f32⟩ : BufTy).Contents (Elt F)) (W : (⟨S20x768x768, .f32⟩ : BufTy).Contents (Elt F))
    (B : (⟨S20x768, .f32⟩ : BufTy).Contents (Elt F)) (h : 0 < 20) :
    net x W B 0 h = layer 0 (sliceW 0 h) (sliceB 0 h) x W B := rfl

theorem net_succ (x : (⟨S32768x768, .f32⟩ : BufTy).Contents (Elt F)) (W : (⟨S20x768x768, .f32⟩ : BufTy).Contents (Elt F))
    (B : (⟨S20x768, .f32⟩ : BufTy).Contents (Elt F)) (k : ℕ) (h : k + 1 < 20) :
    net x W B (k + 1) h = layer (k + 1) (sliceW (k + 1) h) (sliceB (k + 1) h) (net x W B k (Nat.lt_of_succ_lt h)) W B := rfl

set_option maxRecDepth 8192 in
/-- The run's composed term is the twenty layers applied in turn. -/
theorem term_eq_net (V0 : Valuation τ sig (Elt F)) :
    addf (Host.dotGeneral dot_S32768x768_S768x768_S32768x768_1_0_0_1_n_n none (addf (Host.dotGeneral dot_S32768x768_S768x768_S32768x768_1_0_0_1_n_n none (addf (Host.dotGeneral dot_S32768x768_S768x768_S32768x768_1_0_0_1_n_n none (addf (Host.dotGeneral dot_S32768x768_S768x768_S32768x768_1_0_0_1_n_n none (addf (Host.dotGeneral dot_S32768x768_S768x768_S32768x768_1_0_0_1_n_n none (Value.res_main_v135 V0) (transpose S768x768 [1, 0] (shapeCast _ (extractStridedSlice S1x768x768 ![15, 0, 0] (V0 (Proc.devRef .tc main_arg1)) slices_S20x768x768_S1x768x768_15_0_0) shapeCasts_S1x768x768_S768x768) transposes_S768x768_S768x768_1_0)) (broadcastInDim S32768x768 ![0, 1] bcast_S1x768_S32768x768_0_1 (broadcastInDim S1x768 ![1] bcast_S768_S1x768_1 (shapeCast _ (extractStridedSlice S1x768 ![15, 0] (V0 (Proc.devRef .tc main_arg2)) slices_S20x768_S1x768_15_0) shapeCasts_S1x768_S768)))) (transpose S768x768 [1, 0] (shapeCast _ (extractStridedSlice S1x768x768 ![16, 0, 0] (V0 (Proc.devRef .tc main_arg1)) slices_S20x768x768_S1x768x768_16_0_0) shapeCasts_S1x768x768_S768x768) transposes_S768x768_S768x768_1_0)) (broadcastInDim S32768x768 ![0, 1] bcast_S1x768_S32768x768_0_1 (broadcastInDim S1x768 ![1] bcast_S768_S1x768_1 (shapeCast _ (extractStridedSlice S1x768 ![16, 0] (V0 (Proc.devRef .tc main_arg2)) slices_S20x768_S1x768_16_0) shapeCasts_S1x768_S768)))) (transpose S768x768 [1, 0] (shapeCast _ (extractStridedSlice S1x768x768 ![17, 0, 0] (V0 (Proc.devRef .tc main_arg1)) slices_S20x768x768_S1x768x768_17_0_0) shapeCasts_S1x768x768_S768x768) transposes_S768x768_S768x768_1_0)) (broadcastInDim S32768x768 ![0, 1] bcast_S1x768_S32768x768_0_1 (broadcastInDim S1x768 ![1] bcast_S768_S1x768_1 (shapeCast _ (extractStridedSlice S1x768 ![17, 0] (V0 (Proc.devRef .tc main_arg2)) slices_S20x768_S1x768_17_0) shapeCasts_S1x768_S768)))) (transpose S768x768 [1, 0] (shapeCast _ (extractStridedSlice S1x768x768 ![18, 0, 0] (V0 (Proc.devRef .tc main_arg1)) slices_S20x768x768_S1x768x768_18_0_0) shapeCasts_S1x768x768_S768x768) transposes_S768x768_S768x768_1_0)) (broadcastInDim S32768x768 ![0, 1] bcast_S1x768_S32768x768_0_1 (broadcastInDim S1x768 ![1] bcast_S768_S1x768_1 (shapeCast _ (extractStridedSlice S1x768 ![18, 0] (V0 (Proc.devRef .tc main_arg2)) slices_S20x768_S1x768_18_0) shapeCasts_S1x768_S768)))) (transpose S768x768 [1, 0] (shapeCast _ (extractStridedSlice S1x768x768 ![19, 0, 0] (V0 (Proc.devRef .tc main_arg1)) slices_S20x768x768_S1x768x768_19_0_0) shapeCasts_S1x768x768_S768x768) transposes_S768x768_S768x768_1_0)) (broadcastInDim S32768x768 ![0, 1] bcast_S1x768_S32768x768_0_1 (broadcastInDim S1x768 ![1] bcast_S768_S1x768_1 (shapeCast _ (extractStridedSlice S1x768 ![19, 0] (V0 (Proc.devRef .tc main_arg2)) slices_S20x768_S1x768_19_0) shapeCasts_S1x768_S768)))
      = net (V0 (Proc.devRef .tc main_arg0)) (V0 (Proc.devRef .tc main_arg1)) (V0 (Proc.devRef .tc main_arg2)) 19 (by omega) := by
  unfold Value.res_main_v135 Value.res_main_v67
  rfl

end AnyFloat

/-! ## One layer at an index, over the extended reals -/

section AtIdeal

/-- On its row axis the product's left operand reads the result's row … -/
theorem lhs_axis0 (j : S32768x768.Idx) (k : dot_S32768x768_S768x768_S32768x768_1_0_0_1_n_n.contr.Idx) :
    (dot_S32768x768_S768x768_S32768x768_1_0_0_1_n_n.lhsIdx j k (0 : Fin S32768x768.rank)).val = (j 0).val := by
  unfold DotDims.lhsIdx
  rw [dif_neg (show ¬(0 : Fin S32768x768.rank) ∈ dot_S32768x768_S768x768_S32768x768_1_0_0_1_n_n.lhsBatch by decide),
    dif_pos (show (0 : Fin S32768x768.rank) ∈ dot_S32768x768_S768x768_S32768x768_1_0_0_1_n_n.lhsNonContracting by decide)]
  rfl

/-- … and on its column axis the contraction position. -/
theorem lhs_axis1 (j : S32768x768.Idx) (k : dot_S32768x768_S768x768_S32768x768_1_0_0_1_n_n.contr.Idx) :
    (dot_S32768x768_S768x768_S32768x768_1_0_0_1_n_n.lhsIdx j k (1 : Fin S32768x768.rank)).val
      = (k ⟨0, by rw [DotDims.rank_contr]; exact Nat.one_pos⟩).val :=
  DotDims.lhsIdx_val_of_single _ rfl j k

/-- On its row axis the product's right operand reads the contraction position … -/
theorem rhs_axis0 (j : S32768x768.Idx) (k : dot_S32768x768_S768x768_S32768x768_1_0_0_1_n_n.contr.Idx) :
    (dot_S32768x768_S768x768_S32768x768_1_0_0_1_n_n.rhsIdx j k (0 : Fin S768x768.rank)).val
      = (k ⟨0, by rw [DotDims.rank_contr]; exact Nat.one_pos⟩).val :=
  DotDims.rhsIdx_val_of_single _ rfl j k

/-- … and on its column axis the result's column. -/
theorem rhs_axis1 (j : S32768x768.Idx) (k : dot_S32768x768_S768x768_S32768x768_1_0_0_1_n_n.contr.Idx) :
    (dot_S32768x768_S768x768_S32768x768_1_0_0_1_n_n.rhsIdx j k (1 : Fin S768x768.rank)).val = (j 1).val := by
  unfold DotDims.rhsIdx
  rw [dif_neg (show ¬(1 : Fin S768x768.rank) ∈ dot_S32768x768_S768x768_S32768x768_1_0_0_1_n_n.rhsBatch by decide),
    dif_pos (show (1 : Fin S768x768.rank) ∈ dot_S32768x768_S768x768_S32768x768_1_0_0_1_n_n.rhsNonContracting by decide)]
  rfl

/-- The left operand's index at result (p, q) and contraction position t is (p, t). -/
theorem lhsIdx_eq (p : Fin 32768) (q t : Fin 768) :
    dot_S32768x768_S768x768_S32768x768_1_0_0_1_n_n.lhsIdx (ix2 p q)
        ((contrEquiv1 dot_S32768x768_S768x768_S32768x768_1_0_0_1_n_n 768 rfl rfl).symm t) = ix2 p t := by
  funext a
  match a with
  | ⟨0, _⟩ => exact Fin.ext (lhs_axis0 _ _)
  | ⟨1, _⟩ => exact Fin.ext ((lhs_axis1 _ _).trans
      (contrEquiv1_symm_val dot_S32768x768_S768x768_S32768x768_1_0_0_1_n_n 768 rfl rfl t))

/-- The right operand's index at result (p, q) and contraction position t is (t, q). -/
theorem rhsIdx_eq (p : Fin 32768) (q t : Fin 768) :
    dot_S32768x768_S768x768_S32768x768_1_0_0_1_n_n.rhsIdx (ix2 p q)
        ((contrEquiv1 dot_S32768x768_S768x768_S32768x768_1_0_0_1_n_n 768 rfl rfl).symm t) = ix2 t q := by
  funext a
  match a with
  | ⟨0, _⟩ => exact Fin.ext ((rhs_axis0 _ _).trans
      (contrEquiv1_symm_val dot_S32768x768_S768x768_S32768x768_1_0_0_1_n_n 768 rfl rfl t))
  | ⟨1, _⟩ => exact Fin.ext (rhs_axis1 _ _)

/-- The product at (p, q) is the sum over the 768 contraction positions. -/
theorem dot_apply (H : FVec Ideal S32768x768 .f32) (M : FVec Ideal S768x768 .f32) (p : Fin 32768) (q : Fin 768) :
    Host.dotGeneral (F := Ideal) dot_S32768x768_S768x768_S32768x768_1_0_0_1_n_n none H M (ix2 p q)
      = ∑ t : Fin 768, H (ix2 p t) * M (ix2 t q) := by
  refine (Ideal.dotGeneral_apply dot_S32768x768_S768x768_S32768x768_1_0_0_1_n_n none .single H M (ix2 p q)).trans ?_
  refine (Equiv.sum_comp (contrEquiv1 dot_S32768x768_S768x768_S32768x768_1_0_0_1_n_n 768 rfl rfl).symm _).symm.trans ?_
  refine Finset.sum_congr rfl fun t _ => ?_
  rw [lhsIdx_eq, rhsIdx_eq]

/-- Layer k's weight operand at (t, q) is the stack at (k, q, t). -/
theorem weight_apply {α : Type} (k : ℕ) (hk : k < 20) (hW : S20x768x768.Slices ![k, 0, 0] S1x768x768)
    (W : S20x768x768.Idx → α) (t q : Fin 768) :
    transpose S768x768 [1, 0] (shapeCast S768x768 (extractStridedSlice S1x768x768 ![k, 0, 0] W hW) shapeCasts_S1x768x768_S768x768)
        transposes_S768x768_S768x768_1_0 (ix2 t q) = W (ix3 (⟨k, hk⟩ : Fin 20) q t) := by
  refine (transpose_ix2_apply _ transposes_S768x768_S768x768_1_0 t q).trans ?_
  refine (shapeCast_1ab_ab_apply _ shapeCasts_S1x768x768_S768x768 q t).trans ?_
  exact extractStridedSlice_apply _ W hW _ _ fun a => match a with
    | ⟨0, _⟩ => (Nat.add_zero k).symm
    | ⟨1, _⟩ => (Nat.zero_add _).symm
    | ⟨2, _⟩ => (Nat.zero_add _).symm

/-- Layer k's bias operand at (p, q) is the stack at (k, q). -/
theorem bias_apply {α : Type} (k : ℕ) (hk : k < 20) (hB : S20x768.Slices ![k, 0] S1x768)
    (B : S20x768.Idx → α) (p : Fin 32768) (q : Fin 768) :
    broadcastInDim S32768x768 ![0, 1] bcast_S1x768_S32768x768_0_1 (broadcastInDim S1x768 ![1] bcast_S768_S1x768_1
        (shapeCast S768 (extractStridedSlice S1x768 ![k, 0] B hB) shapeCasts_S1x768_S768)) (ix2 p q)
      = B (ix2 (⟨k, hk⟩ : Fin 20) q) := by
  refine (broadcastInDim_oneRow_apply bcast_S1x768_S32768x768_0_1 _ p q).trans ?_
  refine (broadcastInDim_apply ![1] bcast_S768_S1x768_1 _ (ix2 (0 : Fin 1) q) (ix1 q)
    (fun a => match a with | ⟨0, _⟩ => ?_)).trans ?_
  · show q.val = if (768 : ℕ) = 1 then 0 else q.val
    rw [if_neg (by decide)]
  refine (shapeCast_1a_a_apply _ shapeCasts_S1x768_S768 q).trans ?_
  exact slice2_axis0_apply k B hB (0 : Fin 1) q ⟨k, hk⟩ (Nat.add_zero k).symm

/-- The coercion of a finite sum of reals is the sum of the coercions. -/
theorem coe_sum {ι : Type} (s : Finset ι) (f : ι → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- One layer on real-valued arrays is the real affine map, entry by entry. -/
theorem layer_apply (k : ℕ) (hk : k < 20) (hW : S20x768x768.Slices ![k, 0, 0] S1x768x768) (hB : S20x768.Slices ![k, 0] S1x768)
    (h : Fin 32768 → Fin 768 → ℝ) (Wr : S20x768x768.Idx → ℝ) (br : S20x768.Idx → ℝ) :
    layer (F := Ideal) k hW hB (fun i => ((h (i 0) (i 1) : ℝ) : EReal)) (fun i => ((Wr i : ℝ) : EReal)) (fun i => ((br i : ℝ) : EReal))
      = fun i => (((∑ t, h (i 0) t * Cert.Chain.Wn Wr k (i 1) t) + Cert.Chain.bn br k (i 1) : ℝ) : EReal) := by
  funext i
  obtain ⟨p, q, rfl⟩ : ∃ (p : Fin 32768) (q : Fin 768), i = ix2 p q := ⟨i 0, i 1, eq_ix2 i⟩
  unfold layer
  refine (addf_apply _ _ (ix2 p q)).trans ?_
  rw [dot_apply, bias_apply k hk hB]
  simp only [weight_apply k hk hW]
  show (∑ t : Fin 768, ((h p t : ℝ) : EReal) * ((Wr (ix3 (⟨k, hk⟩ : Fin 20) q t) : ℝ) : EReal)) + ((br (ix2 (⟨k, hk⟩ : Fin 20) q) : ℝ) : EReal) = _
  simp only [Cert.Chain.Wn, Cert.Chain.bn, dif_pos hk]
  rw [EReal.coe_add, coe_sum]
  simp only [EReal.coe_mul]

/-- The first k + 1 layers on real-valued arrays are the (k + 1)-st activation of the layered network. -/
theorem net_eq_hc (xr : S32768x768.Idx → ℝ) (Wr : S20x768x768.Idx → ℝ) (br : S20x768.Idx → ℝ) (k : ℕ) (hk : k < 20) :
    net (F := Ideal) (fun i => ((xr i : ℝ) : EReal)) (fun i => ((Wr i : ℝ) : EReal)) (fun i => ((br i : ℝ) : EReal)) k hk
      = fun i => ((Cert.Chain.hc (Cert.Chain.Wn Wr) (Cert.Chain.bn br) (Cert.Chain.xm xr) k (i 0) (i 1) : ℝ) : EReal) := by
  induction k with
  | zero =>
    rw [net_zero]
    have e : (fun i : S32768x768.Idx => ((xr i : ℝ) : EReal)) = fun i => ((Cert.Chain.xm xr (i 0) (i 1) : ℝ) : EReal) := by
      funext i
      exact congrArg (fun z => ((xr z : ℝ) : EReal)) (eq_ix2 i)
    rw [e]
    exact layer_apply 0 hk _ _ _ Wr br
  | succ k ih =>
    rw [net_succ, ih (Nat.lt_of_succ_lt hk)]
    exact layer_apply (k + 1) hk _ _ _ Wr br

end AtIdeal

/-- The same, for arrays given with their real values. -/
theorem net_eq_hc_of_eq (X : (⟨S32768x768, .f32⟩ : BufTy).Contents (Elt Ideal)) (W : (⟨S20x768x768, .f32⟩ : BufTy).Contents (Elt Ideal))
    (B : (⟨S20x768, .f32⟩ : BufTy).Contents (Elt Ideal))
    (xr : S32768x768.Idx → ℝ) (Wr : S20x768x768.Idx → ℝ) (br : S20x768.Idx → ℝ)
    (hX : X = fun i => ((xr i : ℝ) : EReal)) (hW : W = fun i => ((Wr i : ℝ) : EReal)) (hB : B = fun i => ((br i : ℝ) : EReal))
    (k : ℕ) (hk : k < 20) :
    net (F := Ideal) X W B k hk
      = fun i => ((Cert.Chain.hc (Cert.Chain.Wn Wr) (Cert.Chain.bn br) (Cert.Chain.xm xr) k (i 0) (i 1) : ℝ) : EReal) := by
  subst hX hW hB
  exact net_eq_hc xr Wr br k hk

/-! ## The run -/

set_option maxRecDepth 8192 in
/-- On every device, from real-valued arguments: every weakly fair execution of the reference ends with its result
    the twentieth activation of the layered network, and the arguments unchanged. -/
theorem run_hc (m : (ℓ : Loc nD τ sig) → Buf (Elt Ideal) ℓ) (ρ : Dev nD → PrngReg)
    (xr : Dev nD → S32768x768.Idx → ℝ) (Wr : Dev nD → S20x768x768.Idx → ℝ) (br : Dev nD → S20x768.Idx → ℝ)
    (hx : ∀ c : Dev nD, m ((c.tc : Thread nD τ).loc main_arg0) = fun i => ((xr c i : ℝ) : EReal))
    (hW : ∀ c : Dev nD, m ((c.tc : Thread nD τ).loc main_arg1) = fun i => ((Wr c i : ℝ) : EReal))
    (hb : ∀ c : Dev nD, m ((c.tc : Thread nD τ).loc main_arg2) = fun i => ((br c i : ℝ) : EReal)) :
    θ_run (defs (F := Ideal)) (onTc (τ := τ) (main (F := Ideal))) ⟨m, fun _ => 0, ρ⟩ (fun r => ∀ c : Dev nD,
      r.2.mem ((c.tc : Thread nD τ).loc main_v180)
          = (fun i => ((Cert.Chain.hc (Cert.Chain.Wn (Wr c)) (Cert.Chain.bn (br c)) (Cert.Chain.xm (xr c)) 19 (i 0) (i 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun _ h c => ⟨(h c).1.trans ?_, (h c).2⟩) (Value.run (F := Ideal) m ρ)
  refine (term_eq_net (launchContents m c)).trans ?_
  exact net_eq_hc_of_eq _ _ _ (xr c) (Wr c) (br c) (hx c) (hW c) (hb c) 19 (by omega)

end Cert.ReferenceIdeal.RefValue

end
-- ==== Proof.Finite.lean ====
/-
  Finiteness of the arguments.

  The precondition says that each of the three argument arrays satisfies |a| < +∞ at every entry (the
  conjunction of three reductions by "and" over all axes).  An extended real whose absolute value is
  below +∞ is neither +∞ nor −∞, so it is the image of a real number; hence every argument array is
  the image of an array of reals.
-/
import proofs.«141492_g79869211837047_cont_9to1_m_368_30_alg».proof.Defs
import proofs.«141492_g79869211837047_cont_9to1_m_368_30_alg».proof.Proof.Gen.Pre_finite_inputs
import Idealize.ShloMosaic.Lib.ReduceAll
import Idealize.ShloMosaic.Lib.ValueIdx
import Mathlib.Data.EReal.Basic

noncomputable section

namespace Cert.Finite

open Idealize.ShloMosaic Idealize.SL.Sem Idealize.ShloMosaic.ValueIdx

/-- The f32 word 0x7F800000 is +∞. -/
theorem inf_word : Ideal.ofBits .f32 0x7F800000#32 = (⊤ : EReal) := by
  simp [Ideal.ofBits, Ideal.ieee]

/-- An extended real whose absolute value max x (−x) compares below +∞ is a real number. -/
theorem coe_toReal_of_abs_lt (x : EReal)
    (h : Ideal.cmp .olt (max x (-x)) (Ideal.ofBits .f32 0x7F800000#32) = 1#1) :
    x = ((x.toReal : ℝ) : EReal) := by
  rw [inf_word] at h
  induction x using EReal.rec with
  | bot => simp [Ideal.cmp] at h
  | coe r => simp
  | top => simp [Ideal.cmp] at h

/-- The rank-0 shape has one index. -/
instance : Subsingleton Cert.Pre_finite_inputs.S_.Idx := ⟨fun a b => funext fun d => d.elim0⟩

/-- An array all of whose entries pass the test |a| < +∞ (reduced by "and" over every axis) is the image
    of the array of its real parts. -/
theorem array_real {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf a)
            (broadcastInDim s ![] hb (constant (F := Ideal) Cert.Pre_finite_inputs.S_ .f32 0x7F800000#32)))
          (constantI Cert.Pre_finite_inputs.S_ 1 1#1) hr hu ix0 = 1#1) :
    a = fun i => (((a i : EReal).toReal : ℝ) : EReal) := by
  funext i
  exact coe_toReal_of_abs_lt (a i) (Host.reduce_andi_all _ _ hr hu ix0 e i)

/-- Under the precondition the three argument arrays are arrays of real numbers, on every device. -/
theorem reals_of_pre [Cert.Pre_finite_inputs.Facts]
    (m : (ℓ : Loc Cert.KernelIdeal.nD Cert.KernelIdeal.τ Cert.KernelIdeal.sig) → Buf (Elt Ideal) ℓ) (h : Cert.Pre_KernelIdeal m) :
    ∃ (xr : Dev Cert.KernelIdeal.nD → Cert.KernelIdeal.S32768x768.Idx → ℝ) (Wr : Dev Cert.KernelIdeal.nD → Cert.KernelIdeal.S20x768x768.Idx → ℝ)
      (br : Dev Cert.KernelIdeal.nD → Cert.KernelIdeal.S20x768.Idx → ℝ), ∀ c : Dev Cert.KernelIdeal.nD,
      m ((c.tc : Thread Cert.KernelIdeal.nD Cert.KernelIdeal.τ).loc Cert.KernelIdeal.main_arg0) = (fun i => ((xr c i : ℝ) : EReal))
      ∧ m ((c.tc : Thread Cert.KernelIdeal.nD Cert.KernelIdeal.τ).loc Cert.KernelIdeal.main_arg1) = (fun i => ((Wr c i : ℝ) : EReal))
      ∧ m ((c.tc : Thread Cert.KernelIdeal.nD Cert.KernelIdeal.τ).loc Cert.KernelIdeal.main_arg2) = (fun i => ((br c i : ℝ) : EReal)) := by
  refine ⟨fun c i => (m ((c.tc : Thread Cert.KernelIdeal.nD Cert.KernelIdeal.τ).loc Cert.KernelIdeal.main_arg0) i : EReal).toReal,
    fun c i => (m ((c.tc : Thread Cert.KernelIdeal.nD Cert.KernelIdeal.τ).loc Cert.KernelIdeal.main_arg1) i : EReal).toReal,
    fun c i => (m ((c.tc : Thread Cert.KernelIdeal.nD Cert.KernelIdeal.τ).loc Cert.KernelIdeal.main_arg2) i : EReal).toReal,
    fun c => ?_⟩
  have hc := congrFun (h c) ix0
  dsimp only [Cert.Pre_finite_inputs.fn] at hc
  obtain ⟨h01, h2⟩ := IntOp.andi_eq_one.1 hc
  obtain ⟨h0, h1⟩ := IntOp.andi_eq_one.1 h01
  exact ⟨array_real _ _ _ _ h0, array_real _ _ _ _ h1, array_real _ _ _ _ h2⟩

end Cert.Finite

end
-- ==== Proof.lean ====
/-
  A chain of twenty affine layers against its collapsed form.

  The reference applies h ↦ h · Wₖᵀ + bₖ for k = 0 … 19 to the token array x.  The kernel first collapses the
  chain in two scratch buffers — the product Mₖ = Wₖ · Mₖ₋₁ (M₀ = W₀) and the bias row rₖ = rₖ₋₁ · Wₖᵀ + bₖ
  (r₀ = b₀), one layer per grid point — and then writes x · M₁₉ᵀ + r₁₉ block by block.  Over the reals the two
  agree: hₖ = x · Mₖᵀ + rₖ by induction on k (associativity of the matrix product and distributivity, which is
  where the finiteness of the inputs is used: on the extended reals neither law holds at the infinities, and the
  kernel's split of each matrix into a high and a low half relies on W − W = 0 and M − M = 0).

  The three frames: both kernel programs by running the body once per control case (seed, layer, apply) under
  an invariant that carries the scratch contents from point to point; the reference by its run read back.
  The one rewrite of the idealization, a rounding to bf16 undone by the widening that follows it, is the
  rule's own statement.
-/
import proofs.«141492_g79869211837047_cont_9to1_m_368_30_alg».proof.Defs
import proofs.«141492_g79869211837047_cont_9to1_m_368_30_alg».proof.Proof.Gen.Kernel
import proofs.«141492_g79869211837047_cont_9to1_m_368_30_alg».proof.Proof.Gen.KernelIdeal
import proofs.«141492_g79869211837047_cont_9to1_m_368_30_alg».proof.Proof.Gen.ReferenceIdeal
import proofs.«141492_g79869211837047_cont_9to1_m_368_30_alg».proof.Proof.Gen.Pre_finite_inputs
import proofs.«141492_g79869211837047_cont_9to1_m_368_30_alg».proof.Proof.Gen.ReferenceIdeal.Run
import proofs.«141492_g79869211837047_cont_9to1_m_368_30_alg».proof.Proof.K.Frame
import proofs.«141492_g79869211837047_cont_9to1_m_368_30_alg».proof.Proof.KI.Value
import proofs.«141492_g79869211837047_cont_9to1_m_368_30_alg».proof.Proof.RefValue
import proofs.«141492_g79869211837047_cont_9to1_m_368_30_alg».proof.Proof.Finite
import proofs.«141492_g79869211837047_cont_9to1_m_368_30_alg».proof.Proof.SpecLemmas
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.Value.run (F := Ideal) m ρ)

/-- Rounding a 32-bit float vector to bf16 and widening it back is the identity at the exact instance. -/
theorem preserves : Cert.preserves_Kernel_KernelIdeal :=
  IdealRules.truncf_extf.statement _ .f32 .bf16

/-- Both idealized programs end with the same array: x · M₁₉ᵀ + r₁₉ on the kernel's side, the twentieth
    activation on the reference's, equal entry by entry over the reals. -/
theorem algebraic : Cert.algebraic_KernelIdeal_ReferenceIdeal := by
  intro m ρ m' ρ' hpre hagree
  obtain ⟨xr, Wr, br, hreal⟩ := Cert.Finite.reals_of_pre m hpre
  refine ⟨fun c => Cert.Chain.G (xr c) (Wr c) (br c), Cert.KernelIdeal.Val.run m ρ xr Wr br hreal, ?_⟩
  refine (θ_run Cert.ReferenceIdeal.defs _ _).mono (fun _ h c => ⟨(h c).1.trans ?_, (h c).2⟩)
    (Cert.ReferenceIdeal.RefValue.run_hc m' ρ' xr Wr br
      (fun c => (hagree c).1.trans (hreal c).1) (fun c => (hagree c).2.1.trans (hreal c).2.1) (fun c => (hagree c).2.2.trans (hreal c).2.2))
  exact (Cert.Chain.G_eq_hc (xr c) (Wr c) (br c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
